-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S5x256x256 : Shape := ⟨3, ![5, 256, 256]⟩
abbrev S5x256 : Shape := ⟨2, ![5, 256]⟩
abbrev S300000 : Shape := ⟨1, ![300000]⟩
abbrev S5x300000 : Shape := ⟨2, ![5, 300000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_

variable [Facts]

def fn {F : FTy → Type} [FloatOps F] (main_arg0 : FVec F S100000x256 .f32) (main_arg1 : FVec F S5x256x256 .f32) (main_arg2 : FVec F S5x256 .f32) (main_arg3 : IVec S300000 32) (main_arg4 : IVec S5x300000 1) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S5x256x256 .f32 := Host.absf main_arg1
  let main_cst_0 : FVec F S_ .f32 := constant S_ .f32 0x7F800000#32
  let main_v5 : FVec F S5x256x256 .f32 := broadcastInDim S5x256x256 ![] bcast_S_S5x256x256 main_cst_0
  let main_v6 : IVec S5x256x256 1 := cmpf .olt main_v4 main_v5
  let main_c_1 : IVec S_ 1 := constantI S_ 1 1#1
  let main_v7 : IVec S_ 1 := (fun x v => Host.reduce IntOp.andi x v reducesTo_S5x256x256_S_d0_1_2 h_S_) main_v6 main_c_1
  let main_v8 : IVec S_ 1 := andi main_v3 main_v7
  let main_v9 : FVec F S5x256 .f32 := Host.absf main_arg2
  let main_cst_2 : FVec F S_ .f32 := constant S_ .f32 0x7F800000#32
  let main_v10 : FVec F S5x256 .f32 := broadcastInDim S5x256 ![] bcast_S_S5x256 main_cst_2
  let main_v11 : IVec S5x256 1 := cmpf .olt main_v9 main_v10
  let main_c_3 : IVec S_ 1 := constantI S_ 1 1#1
  let main_v12 : IVec S_ 1 := (fun x v => Host.reduce IntOp.andi x v reducesTo_S5x256_S_d0_1 h_S_) main_v11 main_c_3
  let main_v13 : IVec S_ 1 := andi main_v8 main_v12
  main_v13
-- ==== Kernel.lean ====
abbrev S100000x256 : Shape := ⟨2, ![100000, 256]⟩
abbrev S5x256x256 : Shape := ⟨3, ![5, 256, 256]⟩
abbrev S5x256 : Shape := ⟨2, ![5, 256]⟩
abbrev S300000 : Shape := ⟨1, ![300000]⟩
abbrev S5x300000 : Shape := ⟨2, ![5, 300000]⟩
abbrev S_ : Shape := ⟨0, ![]⟩
abbrev S1x300000 : Shape := ⟨2, ![1, 300000]⟩
abbrev S300000x1 : Shape := ⟨2, ![300000, 1]⟩
abbrev S6 : Shape := ⟨1, ![6]⟩
abbrev S327680 : Shape := ⟨1, ![327680]⟩
abbrev S80x4096 : Shape := ⟨2, ![80, 4096]⟩
abbrev S80x1 : Shape := ⟨2, ![80, 1]⟩
abbrev S80 : Shape := ⟨1, ![80]⟩
abbrev S327680x1 : Shape := ⟨2, ![327680, 1]⟩
abbrev S327680x256 : Shape := ⟨2, ![327680, 256]⟩
abbrev S1x256x256 : Shape := ⟨3, ![1, 256, 256]⟩
abbrev S6x256x256 : Shape := ⟨3, ![6, 256, 256]⟩
abbrev S1x256 : Shape := ⟨2, ![1, 256]⟩
abbrev S6x256 : Shape := ⟨2, ![6, 256]⟩
abbrev S6x1x256 : Shape := ⟨3, ![6, 1, 256]⟩
abbrev S4096x256 : Shape := ⟨2, ![4096, 256]⟩
abbrev S1 : Shape := ⟨1, ![1]⟩
abbrev S1x1x256 : Shape := ⟨3, ![1, 1, 256]⟩
abbrev S256x256 : Shape := ⟨2, ![256, 256]⟩
abbrev S300001x256 : Shape := ⟨2, ![300001, 256]⟩
abbrev S300000x256 : Shape := ⟨2, ![300000, 256]⟩
abbrev S300000x8x32 : Shape := ⟨3, ![300000, 8, 32]⟩

abbrev nBuf : Space → Nat
  | .hbm => 192
  | .vmem => 8
  | .smem => 1
  | _ => 0

abbrev hbmTy0_0 (i : Nat) : BufTy := match i % 128 with
  | 0 => ⟨S100000x256, .f32⟩
  | 1 => ⟨S5x256x256, .f32⟩
  | 2 => ⟨S5x256, .f32⟩
  | 3 => ⟨S300000, .i32⟩
  | 4 => ⟨S5x300000, .i1⟩
  | 5 => ⟨S_, .i32⟩
  | 6 => ⟨S300000, .i32⟩
  | 7 => ⟨S1x300000, .i1⟩
  | 8 => ⟨S300000, .i1⟩
  | 9 => ⟨S_, .i32⟩
  | 10 => ⟨S300000, .i32⟩
  | 11 => ⟨S300000, .i32⟩
  | 12 => ⟨S1x300000, .i1⟩
  | 13 => ⟨S300000, .i1⟩
  | 14 => ⟨S_, .i32⟩
  | 15 => ⟨S300000, .i32⟩
  | 16 => ⟨S300000, .i32⟩
  | 17 => ⟨S1x300000, .i1⟩
  | 18 => ⟨S300000, .i1⟩
  | 19 => ⟨S_, .i32⟩
  | 20 => ⟨S300000, .i32⟩
  | 21 => ⟨S300000, .i32⟩
  | 22 => ⟨S1x300000, .i1⟩
  | 23 => ⟨S300000, .i1⟩
  | 24 => ⟨S_, .i32⟩
  | 25 => ⟨S300000, .i32⟩
  | 26 => ⟨S300000, .i32⟩
  | 27 => ⟨S1x300000, .i1⟩
  | 28 => ⟨S300000, .i1⟩
  | 29 => ⟨S_, .i32⟩
  | 30 => ⟨S300000, .i32⟩
  | 31 => ⟨S300000, .i32⟩
  | 32 => ⟨S300000, .i32⟩
  | 33 => ⟨S300000, .i32⟩
  | 34 => ⟨S300000, .i32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000, .i32⟩
  | 44 => ⟨S_, .i32⟩
  | 45 => ⟨S6, .i32⟩
  | 46 => ⟨S_, .i32⟩
  | 47 => ⟨S_, .i32⟩
  | 48 => ⟨S300000, .i32⟩
  | 49 => ⟨S300000, .i32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S_, .i32⟩
  | 59 => ⟨S300000, .i32⟩
  | 60 => ⟨S6, .i32⟩
  | 61 => ⟨S_, .i32⟩
  | 62 => ⟨S6, .i32⟩
  | 63 => ⟨S6, .i32⟩
  | 64 => ⟨S_, .i32⟩
  | 65 => ⟨S6, .i32⟩
  | 66 => ⟨S6, .i32⟩
  | 67 => ⟨S_, .i32⟩
  | 68 => ⟨S_, .i32⟩
  | 69 => ⟨S6, .i32⟩
  | 70 => ⟨S6, .i32⟩
  | 71 => ⟨S6, .i32⟩
  | 72 => ⟨S_, .i32⟩
  | 73 => ⟨S6, .i32⟩
  | 74 => ⟨S6, .i1⟩
  | 75 => ⟨S6, .i32⟩
  | 76 => ⟨S6, .i32⟩
  | 77 => ⟨S_, .i32⟩
  | 78 => ⟨S6, .i32⟩
  | 79 => ⟨S6, .i1⟩
  | 80 => ⟨S6, .i1⟩
  | 81 => ⟨S_, .i32⟩
  | 82 => ⟨S6, .i32⟩
  | 83 => ⟨S6, .i32⟩
  | 84 => ⟨S6, .i32⟩
  | 85 => ⟨S_, .i32⟩
  | 86 => ⟨S6, .i32⟩
  | 87 => ⟨S6, .i32⟩
  | 88 => ⟨S_, .i32⟩
  | 89 => ⟨S_, .i32⟩
  | 90 => ⟨S6, .i32⟩
  | 91 => ⟨S6, .i32⟩
  | 92 => ⟨S_, .i32⟩
  | 93 => ⟨S_, .i32⟩
  | 94 => ⟨S6, .i32⟩
  | 95 => ⟨S6, .i32⟩
  | 96 => ⟨S300000, .i32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000, .i32⟩
  | 106 => ⟨S300000, .i32⟩
  | 107 => ⟨S_, .i32⟩
  | 108 => ⟨S300000, .i32⟩
  | 109 => ⟨S300000, .i1⟩
  | 110 => ⟨S_, .i32⟩
  | 111 => ⟨S300000, .i32⟩
  | 112 => ⟨S300000, .i32⟩
  | 113 => ⟨S300000, .i32⟩
  | 114 => ⟨S300000x1, .i32⟩
  | 115 => ⟨S300000, .i32⟩
  | 116 => ⟨S300000, .i32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000, .i32⟩
  | 126 => ⟨S_, .i32⟩
  | 127 => ⟨S327680, .i32⟩
  | _ => ⟨S100000x256, .f32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S327680, .i32⟩
  | 9 => ⟨S_, .i32⟩
  | 10 => ⟨S327680, .i32⟩
  | 11 => ⟨S_, .i32⟩
  | 12 => ⟨S300000, .i32⟩
  | 13 => ⟨S300000, .i1⟩
  | 14 => ⟨S_, .i32⟩
  | 15 => ⟨S300000, .i32⟩
  | 16 => ⟨S300000, .i32⟩
  | 17 => ⟨S300000, .i32⟩
  | 18 => ⟨S300000x1, .i32⟩
  | 19 => ⟨S327680, .i32⟩
  | 20 => ⟨S_, .i32⟩
  | 21 => ⟨S327680, .i32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S327680, .i32⟩
  | 31 => ⟨S80x4096, .i32⟩
  | 32 => ⟨S80x1, .i32⟩
  | 33 => ⟨S_, .i32⟩
  | 34 => ⟨S327680, .i32⟩
  | 35 => ⟨S327680, .i1⟩
  | 36 => ⟨S_, .i32⟩
  | 37 => ⟨S327680, .i32⟩
  | 38 => ⟨S327680, .i32⟩
  | 39 => ⟨S327680, .i32⟩
  | 40 => ⟨S327680x1, .i32⟩
  | 41 => ⟨S327680x256, .f32⟩
  | 42 => ⟨S5x256x256, .f32⟩
  | 43 => ⟨S_, .f32⟩
  | 44 => ⟨S1x256x256, .f32⟩
  | 45 => ⟨S6x256x256, .f32⟩
  | 46 => ⟨S_, .f32⟩
  | 47 => ⟨S1x256, .f32⟩
  | 48 => ⟨S6x256, .f32⟩
  | 49 => ⟨S6x1x256, .f32⟩
  | 50 => ⟨S327680x256, .f32⟩
  | 51 => ⟨S_, .f32⟩
  | 52 => ⟨S300001x256, .f32⟩
  | 53 => ⟨S_, .i32⟩
  | 54 => ⟨S327680, .i32⟩
  | 55 => ⟨S327680, .i1⟩
  | 56 => ⟨S_, .i32⟩
  | 57 => ⟨S327680, .i32⟩
  | 58 => ⟨S327680, .i32⟩
  | 59 => ⟨S327680, .i32⟩
  | 60 => ⟨S327680x1, .i32⟩
  | 61 => ⟨S300001x256, .f32⟩
  | 62 => ⟨S300000x256, .f32⟩
  | 63 => ⟨S300000x8x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S4096x256, .f32⟩
  | .local _ .vmem, ⟨7, _⟩ => ⟨S4096x256, .f32⟩
  | .local _ .smem, ⟨0, _⟩ => ⟨S80, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_call4_v0 : Ref sig .tc := ⟨.hbm, 30, rfl⟩
abbrev main_v15 : Ref sig .tc := ⟨.hbm, 31, rfl⟩
abbrev main_call5_v0 : Ref sig .tc := ⟨.hbm, 32, rfl⟩
abbrev main_call5_v1_0 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_c_8 : Ref sig .tc := ⟨.hbm, 46, rfl⟩
abbrev main_call6_v0 : Ref sig .tc := ⟨.hbm, 47, rfl⟩
abbrev main_call6_v1 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_c_10 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_c_12 : Ref sig .tc := ⟨.hbm, 61, rfl⟩
abbrev main_v34 : Ref sig .tc := ⟨.hbm, 62, rfl⟩
abbrev main_v35 : Ref sig .tc := ⟨.hbm, 63, rfl⟩
abbrev main_c_13 : Ref sig .tc := ⟨.hbm, 64, rfl⟩
abbrev main_v36 : Ref sig .tc := ⟨.hbm, 65, rfl⟩
abbrev main_v37 : Ref sig .tc := ⟨.hbm, 66, rfl⟩
abbrev main_c_14 : Ref sig .tc := ⟨.hbm, 67, rfl⟩
abbrev main_call7_v0 : Ref sig .tc := ⟨.hbm, 68, rfl⟩
abbrev main_call7_v1 : Ref sig .tc := ⟨.hbm, 69, rfl⟩
abbrev main_call7_v2 : Ref sig .tc := ⟨.hbm, 70, rfl⟩
abbrev main_call7_v3 : Ref sig .tc := ⟨.hbm, 71, rfl⟩
abbrev main_call7_v4 : Ref sig .tc := ⟨.hbm, 72, rfl⟩
abbrev main_call7_v5 : Ref sig .tc := ⟨.hbm, 73, rfl⟩
abbrev main_call7_v6 : Ref sig .tc := ⟨.hbm, 74, rfl⟩
abbrev main_call7_v7 : Ref sig .tc := ⟨.hbm, 75, rfl⟩
abbrev main_call7_v8 : Ref sig .tc := ⟨.hbm, 76, rfl⟩
abbrev main_call7_c : Ref sig .tc := ⟨.hbm, 77, rfl⟩
abbrev main_call7_v9 : Ref sig .tc := ⟨.hbm, 78, rfl⟩
abbrev main_call7_v10 : Ref sig .tc := ⟨.hbm, 79, rfl⟩
abbrev main_call7_v11 : Ref sig .tc := ⟨.hbm, 80, rfl⟩
abbrev main_call7_c_0 : Ref sig .tc := ⟨.hbm, 81, rfl⟩
abbrev main_call7_v12 : Ref sig .tc := ⟨.hbm, 82, rfl⟩
abbrev main_call7_v13 : Ref sig .tc := ⟨.hbm, 83, rfl⟩
abbrev main_v38 : Ref sig .tc := ⟨.hbm, 84, rfl⟩
abbrev main_c_15 : Ref sig .tc := ⟨.hbm, 85, rfl⟩
abbrev main_v39 : Ref sig .tc := ⟨.hbm, 86, rfl⟩
abbrev main_v40 : Ref sig .tc := ⟨.hbm, 87, rfl⟩
abbrev main_call8_call0_c : Ref sig .tc := ⟨.hbm, 88, rfl⟩
abbrev main_call8_call0_v0 : Ref sig .tc := ⟨.hbm, 89, rfl⟩
abbrev main_v41 : Ref sig .tc := ⟨.hbm, 90, rfl⟩
abbrev main_v42 : Ref sig .tc := ⟨.hbm, 91, rfl⟩
abbrev main_call9_call0_c : Ref sig .tc := ⟨.hbm, 92, rfl⟩
abbrev main_call9_call0_v0 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_16 : Ref sig .tc := ⟨.hbm, 97, rfl⟩
abbrev main_v46 : Ref sig .tc := ⟨.hbm, 98, rfl⟩
abbrev main_v47 : Ref sig .tc := ⟨.hbm, 99, rfl⟩
abbrev main_c_17 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_18 : Ref sig .tc := ⟨.hbm, 107, rfl⟩
abbrev main_v54 : Ref sig .tc := ⟨.hbm, 108, rfl⟩
abbrev main_v55 : Ref sig .tc := ⟨.hbm, 109, rfl⟩
abbrev main_c_19 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_c_20 : Ref sig .tc := ⟨.hbm, 117, rfl⟩
abbrev main_v62 : Ref sig .tc := ⟨.hbm, 118, rfl⟩
abbrev main_v63 : Ref sig .tc := ⟨.hbm, 119, rfl⟩
abbrev main_c_21 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_c_22 : Ref sig .tc := ⟨.hbm, 126, rfl⟩
abbrev main_v69 : Ref sig .tc := ⟨.hbm, 127, rfl⟩
abbrev main_c_23 : Ref sig .tc := ⟨.hbm, 128, rfl⟩
abbrev main_v70 : Ref sig .tc := ⟨.hbm, 129, rfl⟩
abbrev main_v71 : Ref sig .tc := ⟨.hbm, 130, rfl⟩
abbrev main_c_24 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_c_25 : Ref sig .tc := ⟨.hbm, 137, rfl⟩
abbrev main_v77 : Ref sig .tc := ⟨.hbm, 138, rfl⟩
abbrev main_c_26 : Ref sig .tc := ⟨.hbm, 139, rfl⟩
abbrev main_v78 : Ref sig .tc := ⟨.hbm, 140, rfl⟩
abbrev main_v79 : Ref sig .tc := ⟨.hbm, 141, rfl⟩
abbrev main_c_27 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_28 : Ref sig .tc := ⟨.hbm, 148, rfl⟩
abbrev main_v85 : Ref sig .tc := ⟨.hbm, 149, rfl⟩
abbrev main_c_29 : Ref sig .tc := ⟨.hbm, 150, rfl⟩
abbrev main_v86 : Ref sig .tc := ⟨.hbm, 151, rfl⟩
abbrev main_v87 : Ref sig .tc := ⟨.hbm, 152, rfl⟩
abbrev main_c_30 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_c_31 : Ref sig .tc := ⟨.hbm, 161, rfl⟩
abbrev main_v96 : Ref sig .tc := ⟨.hbm, 162, rfl⟩
abbrev main_v97 : Ref sig .tc := ⟨.hbm, 163, rfl⟩
abbrev main_c_32 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst : Ref sig .tc := ⟨.hbm, 171, rfl⟩
abbrev main_v104 : Ref sig .tc := ⟨.hbm, 172, rfl⟩
abbrev main_v105 : Ref sig .tc := ⟨.hbm, 173, rfl⟩
abbrev main_cst_33 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_34 : Ref sig .tc := ⟨.hbm, 179, rfl⟩
abbrev main_v110 : Ref sig .tc := ⟨.hbm, 180, rfl⟩
abbrev main_c_35 : Ref sig .tc := ⟨.hbm, 181, rfl⟩
abbrev main_v111 : Ref sig .tc := ⟨.hbm, 182, rfl⟩
abbrev main_v112 : Ref sig .tc := ⟨.hbm, 183, rfl⟩
abbrev main_c_36 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v95 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![80], ![false]⟩

abbrev pre0 : Pipeline.Prefetch sig := ⟨1, ![main_v95.idx], fun | 0 => main_v95.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S300000 : S_.BroadcastsInDim S300000 (![] : Fin 0 → Fin S300000.rank)
  slices_S5x300000_S1x300000_0_0 : S5x300000.Slices ![0, 0] S1x300000
  shapeCasts_S1x300000_S300000 : S1x300000.ShapeCasts S300000
  slices_S5x300000_S1x300000_1_0 : S5x300000.Slices ![1, 0] S1x300000
  slices_S5x300000_S1x300000_2_0 : S5x300000.Slices ![2, 0] S1x300000
  slices_S5x300000_S1x300000_3_0 : S5x300000.Slices ![3, 0] S1x300000
  slices_S5x300000_S1x300000_4_0 : S5x300000.Slices ![4, 0] S1x300000
  bcast_S300000_S300000x1_0 : S300000.BroadcastsInDim S300000x1 (![0] : Fin 1 → Fin S300000x1.rank)
  bcast_S_S6 : S_.BroadcastsInDim S6 (![] : Fin 0 → Fin S6.rank)
  bcast_S_S_ : S_.BroadcastsInDim S_ (![] : Fin 0 → Fin S_.rank)
  reduceWindows_S6_S6_w6s1p5_0 : S6.ReduceWindows (![6] : Fin 1 → Nat) ![1] ![5] ![0] S6
  h_S_ : 0 < S_.numel
  bcast_S_S327680 : S_.BroadcastsInDim S327680 (![] : Fin 0 → Fin S327680.rank)
  shapeCasts_S327680_S80x4096 : S327680.ShapeCasts S80x4096
  slices_S80x4096_S80x1_0_0 : S80x4096.Slices ![0, 0] S80x1
  shapeCasts_S80x1_S80 : S80x1.ShapeCasts S80
  bcast_S327680_S327680x1_0 : S327680.BroadcastsInDim S327680x1 (![0] : Fin 1 → Fin S327680x1.rank)
  transposes_S5x256x256_S5x256x256_0_2_1 : S5x256x256.Transposes [0, 2, 1] S5x256x256
  bcast_S_S1x256x256 : S_.BroadcastsInDim S1x256x256 (![] : Fin 0 → Fin S1x256x256.rank)
  concatenates_S5x256x256_S1x256x256_S6x256x256_d0 : Shape.Concatenates [S5x256x256, S1x256x256] S6x256x256 0
  bcast_S_S1x256 : S_.BroadcastsInDim S1x256 (![] : Fin 0 → Fin S1x256.rank)
  concatenates_S5x256_S1x256_S6x256_d0 : Shape.Concatenates [S5x256, S1x256] S6x256 0
  shapeCasts_S6x256_S6x1x256 : S6x256.ShapeCasts S6x1x256
  numel1_S1 : S1.numel = 1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  bcast_S_S300001x256 : S_.BroadcastsInDim S300001x256 (![] : Fin 0 → Fin S300001x256.rank)
  slices_S300001x256_S300000x256_0_0 : S300001x256.Slices ![0, 0] S300000x256
  shapeCasts_S300000x256_S300000x8x32 : S300000x256.ShapeCasts S300000x8x32
  gather_S300000_S300000x1_S300000_n_0_n_n_0_1_1_wf : GatherDims.WF S300000 S300000x1 S300000 [] [0] [] [0] [] 1 ![1]
  scatter_S6_S300000x1_S300000_n_0_0_1_wf : ScatterDims.WF S6 S300000x1 S300000 [] [0] [0] 1
  gather_S6_S300000x1_S300000_n_0_n_n_0_1_1_wf : GatherDims.WF S6 S300000x1 S300000 [] [0] [] [0] [] 1 ![1]
  scatter_S327680_S300000x1_S300000_n_0_0_1_wf : ScatterDims.WF S327680 S300000x1 S300000 [] [0] [0] 1
  gather_S100000x256_S327680x1_S327680x256_1_0_n_n_0_1_1256_wf : GatherDims.WF S100000x256 S327680x1 S327680x256 [1] [0] [] [0] [] 1 ![1, 256]
  dot_S4096x256_S256x256_S4096x256_1_0_0_1_n_n_wf : DotDims.WF S4096x256 S256x256 S4096x256 [1] [0] [0] [1] [] []
  scatter_S300001x256_S327680x1_S327680x256_1_0_0_1_wf : ScatterDims.WF S300001x256 S327680x1 S327680x256 [1] [0] [0] 1
  hrank0 : 0 < grid0.rank
  k0_off1_inb : ∀ i : grid0.Coords, ∀ a, (k0_off1 i) a + S1.size a ≤ S80.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S327680x256.size a
  hwx0_0 : ∀ i : grid0.Coords, EltTy.bits .f32 = 32 ∨ (Rect.block (s := S327680x256) S4096x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S327680x256.size a
  hwx0_3 : ∀ i : grid0.Coords, EltTy.bits .f32 = 32 ∨ (Rect.block (s := S327680x256) S4096x256.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S300000_S300000x1_S300000_n_0_n_n_0_1_1 : GatherDims S300000 S300000x1 S300000 where
  offsetDims := []
  collapsedSliceDims := [0]
  operandBatchingDims := []
  startIndicesBatchingDims := []
  startIndexMap := [0]
  indexVectorDim := 1
  sliceSizes := ![1]
  wf := gather_S300000_S300000x1_S300000_n_0_n_n_0_1_1_wf
def scatter_S6_S300000x1_S300000_n_0_0_1 : ScatterDims S6 S300000x1 S300000 where
  updateWindowDims := []
  insertedWindowDims := [0]
  scatterDimsToOperandDims := [0]
  indexVectorDim := 1
  wf := scatter_S6_S300000x1_S300000_n_0_0_1_wf
def gather_S6_S300000x1_S300000_n_0_n_n_0_1_1 : GatherDims S6 S300000x1 S300000 where
  offsetDims := []
  collapsedSliceDims := [0]
  operandBatchingDims := []
  startIndicesBatchingDims := []
  startIndexMap := [0]
  indexVectorDim := 1
  sliceSizes := ![1]
  wf := gather_S6_S300000x1_S300000_n_0_n_n_0_1_1_wf
def scatter_S327680_S300000x1_S300000_n_0_0_1 : ScatterDims S327680 S300000x1 S300000 where
  updateWindowDims := []
  insertedWindowDims := [0]
  scatterDimsToOperandDims := [0]
  indexVectorDim := 1
  wf := scatter_S327680_S300000x1_S300000_n_0_0_1_wf
def gather_S100000x256_S327680x1_S327680x256_1_0_n_n_0_1_1256 : GatherDims S100000x256 S327680x1 S327680x256 where
  offsetDims := [1]
  collapsedSliceDims := [0]
  operandBatchingDims := []
  startIndicesBatchingDims := []
  startIndexMap := [0]
  indexVectorDim := 1
  sliceSizes := ![1, 256]
  wf := gather_S100000x256_S327680x1_S327680x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S300001x256_S327680x1_S327680x256_1_0_0_1 : ScatterDims S300001x256 S327680x1 S327680x256 where
  updateWindowDims := [1]
  insertedWindowDims := [0]
  scatterDimsToOperandDims := [0]
  indexVectorDim := 1
  wf := scatter_S300001x256_S327680x1_S327680x256_1_0_0_1_wf

abbrev spec0_0 : Pipeline.WinSpec sig grid0.rank :=
  Pipeline.WinSpec.ofSpec (Memref.whole main_v102) S4096x256.size reads0_0 false false 2 stage0_0 sem0_0 nbuf0_0 hstage0_0

abbrev spec0_1 : Pipeline.WinSpec sig grid0.rank :=
  Pipeline.WinSpec.ofSpec (Memref.whole main_v105) S1x256x256.size reads0_1 false false 2 stage0_1 sem0_1 nbuf0_1 hstage0_1

abbrev spec0_2 : Pipeline.WinSpec sig grid0.rank :=
  Pipeline.WinSpec.ofSpec (Memref.whole main_v108) S1x1x256.size reads0_2 false false 2 stage0_2 sem0_2 nbuf0_2 hstage0_2

abbrev spec0_3 : Pipeline.WinSpec sig grid0.rank :=
  Pipeline.WinSpec.ofSpec (Memref.whole main_v109) S4096x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S6x256x256.size a), EltTy.bits .f32 = 32 ∨ (Rect.block (s := S6x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S6x1x256.size a), EltTy.bits .f32 = 32 ∨ (Rect.block (s := S6x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S100000x256 : Shape := ⟨2, ![100000, 256]⟩
abbrev S5x256x256 : Shape := ⟨3, ![5, 256, 256]⟩
abbrev S5x256 : Shape := ⟨2, ![5, 256]⟩
abbrev S300000 : Shape := ⟨1, ![300000]⟩
abbrev S5x300000 : Shape := ⟨2, ![5, 300000]⟩
abbrev S_ : Shape := ⟨0, ![]⟩
abbrev S300000x1 : Shape := ⟨2, ![300000, 1]⟩
abbrev S300000x256 : Shape := ⟨2, ![300000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x300000 : Shape := ⟨2, ![1, 300000]⟩
abbrev S300000x8x32 : Shape := ⟨3, ![300000, 8, 32]⟩

abbrev nBuf : Space → Nat
  | .hbm => 87
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S5x256x256, .f32⟩
  | .hbm, ⟨2, _⟩ => ⟨S5x256, .f32⟩
  | .hbm, ⟨3, _⟩ => ⟨S300000, .i32⟩
  | .hbm, ⟨4, _⟩ => ⟨S5x300000, .i1⟩
  | .hbm, ⟨5, _⟩ => ⟨S_, .i32⟩
  | .hbm, ⟨6, _⟩ => ⟨S300000, .i32⟩
  | .hbm, ⟨7, _⟩ => ⟨S300000, .i1⟩
  | .hbm, ⟨8, _⟩ => ⟨S_, .i32⟩
  | .hbm, ⟨9, _⟩ => ⟨S300000, .i32⟩
  | .hbm, ⟨10, _⟩ => ⟨S300000, .i32⟩
  | .hbm, ⟨11, _⟩ => ⟨S300000, .i32⟩
  | .hbm, ⟨12, _⟩ => ⟨S300000x1, .i32⟩
  | .hbm, ⟨13, _⟩ => ⟨S300000x256, .f32⟩
  | .hbm, ⟨14, _⟩ => ⟨S_, .f32⟩
  | .hbm, ⟨15, _⟩ => ⟨S300000x256, .f32⟩
  | .hbm, ⟨16, _⟩ => ⟨S1x256x256, .f32⟩
  | .hbm, ⟨17, _⟩ => ⟨S256x256, .f32⟩
  | .hbm, ⟨18, _⟩ => ⟨S256x256, .f32⟩
  | .hbm, ⟨19, _⟩ => ⟨S300000x256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S300000x256, .f32⟩
  | .hbm, ⟨24, _⟩ => ⟨S300000x256, .f32⟩
  | .hbm, ⟨25, _⟩ => ⟨S1x300000, .i1⟩
  | .hbm, ⟨26, _⟩ => ⟨S300000, .i1⟩
  | .hbm, ⟨27, _⟩ => ⟨S300000x1, .i1⟩
  | .hbm, ⟨28, _⟩ => ⟨S300000x256, .i1⟩
  | .hbm, ⟨29, _⟩ => ⟨S300000x256, .f32⟩
  | .hbm, ⟨30, _⟩ => ⟨S1x256x256, .f32⟩
  | .hbm, ⟨31, _⟩ => ⟨S256x256, .f32⟩
  | .hbm, ⟨32, _⟩ => ⟨S256x256, .f32⟩
  | .hbm, ⟨33, _⟩ => ⟨S300000x256, .f32⟩
  | .hbm, ⟨34, _⟩ => ⟨S1x256, .f32⟩
  | .hbm, ⟨35, _⟩ => ⟨S256, .f32⟩
  | .hbm, ⟨36, _⟩ => ⟨S1x256, .f32⟩
  | .hbm, ⟨37, _⟩ => ⟨S300000x256, .f32⟩
  | .hbm, ⟨38, _⟩ => ⟨S300000x256, .f32⟩
  | .hbm, ⟨39, _⟩ => ⟨S1x300000, .i1⟩
  | .hbm, ⟨40, _⟩ => ⟨S300000, .i1⟩
  | .hbm, ⟨41, _⟩ => ⟨S300000x1, .i1⟩
  | .hbm, ⟨42, _⟩ => ⟨S300000x256, .i1⟩
  | .hbm, ⟨43, _⟩ => ⟨S300000x256, .f32⟩
  | .hbm, ⟨44, _⟩ => ⟨S1x256x256, .f32⟩
  | .hbm, ⟨45, _⟩ => ⟨S256x256, .f32⟩
  | .hbm, ⟨46, _⟩ => ⟨S256x256, .f32⟩
  | .hbm, ⟨47, _⟩ => ⟨S300000x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S300000x256, .f32⟩
  | .hbm, ⟨52, _⟩ => ⟨S300000x256, .f32⟩
  | .hbm, ⟨53, _⟩ => ⟨S1x300000, .i1⟩
  | .hbm, ⟨54, _⟩ => ⟨S300000, .i1⟩
  | .hbm, ⟨55, _⟩ => ⟨S300000x1, .i1⟩
  | .hbm, ⟨56, _⟩ => ⟨S300000x256, .i1⟩
  | .hbm, ⟨57, _⟩ => ⟨S300000x256, .f32⟩
  | .hbm, ⟨58, _⟩ => ⟨S1x256x256, .f32⟩
  | .hbm, ⟨59, _⟩ => ⟨S256x256, .f32⟩
  | .hbm, ⟨60, _⟩ => ⟨S256x256, .f32⟩
  | .hbm, ⟨61, _⟩ => ⟨S300000x256, .f32⟩
  | .hbm, ⟨62, _⟩ => ⟨S1x256, .f32⟩
  | .hbm, ⟨63, _⟩ => ⟨S256, .f32⟩
  | .hbm, ⟨64, _⟩ => ⟨S1x256, .f32⟩
  | .hbm, ⟨65, _⟩ => ⟨S300000x256, .f32⟩
  | .hbm, ⟨66, _⟩ => ⟨S300000x256, .f32⟩
  | .hbm, ⟨67, _⟩ => ⟨S1x300000, .i1⟩
  | .hbm, ⟨68, _⟩ => ⟨S300000, .i1⟩
  | .hbm, ⟨69, _⟩ => ⟨S300000x1, .i1⟩
  | .hbm, ⟨70, _⟩ => ⟨S300000x256, .i1⟩
  | .hbm, ⟨71, _⟩ => ⟨S300000x256, .f32⟩
  | .hbm, ⟨72, _⟩ => ⟨S1x256x256, .f32⟩
  | .hbm, ⟨73, _⟩ => ⟨S256x256, .f32⟩
  | .hbm, ⟨74, _⟩ => ⟨S256x256, .f32⟩
  | .hbm, ⟨75, _⟩ => ⟨S300000x256, .f32⟩
  | .hbm, ⟨76, _⟩ => ⟨S1x256, .f32⟩
  | .hbm, ⟨77, _⟩ => ⟨S256, .f32⟩
  | .hbm, ⟨78, _⟩ => ⟨S1x256, .f32⟩
  | .hbm, ⟨79, _⟩ => ⟨S300000x256, .f32⟩
  | .hbm, ⟨80, _⟩ => ⟨S300000x256, .f32⟩
  | .hbm, ⟨81, _⟩ => ⟨S1x300000, .i1⟩
  | .hbm, ⟨82, _⟩ => ⟨S300000, .i1⟩
  | .hbm, ⟨83, _⟩ => ⟨S300000x1, .i1⟩
  | .hbm, ⟨84, _⟩ => ⟨S300000x256, .i1⟩
  | .hbm, ⟨85, _⟩ => ⟨S300000x256, .f32⟩
  | .hbm, ⟨86, _⟩ => ⟨S300000x8x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_call2_v0 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_call3_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_call4_v0 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  slices_S5x256x256_S1x256x256_0_0_0 : S5x256x256.Slices ![0, 0, 0] S1x256x256
  shapeCasts_S1x256x256_S256x256 : S1x256x256.ShapeCasts S256x256
  transposes_S256x256_S256x256_1_0 : S256x256.Transposes [1, 0] S256x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  slices_S5x300000_S1x300000_0_0 : S5x300000.Slices ![0, 0] S1x300000
  shapeCasts_S1x300000_S300000 : S1x300000.ShapeCasts S300000
  bcast_S300000x1_S300000x256_0_1 : S300000x1.BroadcastsInDim S300000x256 (![0, 1] : Fin 2 → Fin S300000x256.rank)
  slices_S5x256x256_S1x256x256_1_0_0 : S5x256x256.Slices ![1, 0, 0] S1x256x256
  slices_S5x256_S1x256_1_0 : S5x256.Slices ![1, 0] S1x256
  slices_S5x300000_S1x300000_1_0 : S5x300000.Slices ![1, 0] S1x300000
  slices_S5x256x256_S1x256x256_2_0_0 : S5x256x256.Slices ![2, 0, 0] S1x256x256
  slices_S5x256_S1x256_2_0 : S5x256.Slices ![2, 0] S1x256
  slices_S5x300000_S1x300000_2_0 : S5x300000.Slices ![2, 0] S1x300000
  slices_S5x256x256_S1x256x256_3_0_0 : S5x256x256.Slices ![3, 0, 0] S1x256x256
  slices_S5x256_S1x256_3_0 : S5x256.Slices ![3, 0] S1x256
  slices_S5x300000_S1x300000_3_0 : S5x300000.Slices ![3, 0] S1x300000
  slices_S5x256x256_S1x256x256_4_0_0 : S5x256x256.Slices ![4, 0, 0] S1x256x256
  slices_S5x256_S1x256_4_0 : S5x256.Slices ![4, 0] S1x256
  slices_S5x300000_S1x300000_4_0 : S5x300000.Slices ![4, 0] S1x300000
  shapeCasts_S300000x256_S300000x8x32 : S300000x256.ShapeCasts S300000x8x32
  gather_S100000x256_S300000x1_S300000x256_1_0_n_n_0_1_1256_wf : GatherDims.WF S100000x256 S300000x1 S300000x256 [1] [0] [] [0] [] 1 ![1, 256]
  dot_S300000x256_S256x256_S300000x256_1_0_0_1_n_n_wf : DotDims.WF S300000x256 S256x256 S300000x256 [1] [0] [0] [1] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf

class Facts : Prop extends Facts₀ where

variable [Facts]
-- ==== Proof.HostDefs.lean ====
/-
  The host side of the routing kernel, array by array.

  The kernel's entry point sorts the 300000 output rows by the expert that serves them, lays the sorted rows out in a
  padded buffer of 80 tiles of 4096 rows in which every tile belongs to ONE expert, runs one matrix product per tile,
  and scatters the rows back. Each array of that bookkeeping is named here as a function of the argument arrays,
  spelt with the operations the program applies, in the program's order:

  * `KEY`   the expert of a row: the LAST mask row that is set there, 5 when none is;
  * `PERM`  the stable argsort of `KEY`; `SK` the sorted keys, `KEY` read through `PERM`;
  * `CNT`   how many rows each of the 6 groups has; `PC` that count rounded up to a multiple of 4096;
  * `GSS`, `GSP`  the exclusive running sums of `CNT` and of `PC`: where a group starts among the sorted rows,
            and where it starts in the padded buffer;
  * `DEST`  the padded position of sorted row j: its group's padded start plus its rank inside the group;
  * `PIDX`, `PGRP`, `PDST`  the padded buffer's source row, group and destination row (fill values 0, 5, 300000);
  * `TG`    the group of each tile: `PGRP` at the tile's first position;
  * `XI`    the gathered input rows in padded order; `WT`, `BE` the transposed weights and the biases with a zero
            sixth expert appended;
  * `RES`   the result: the kernel's padded output scattered to its destination rows, row 300000 dropped.
-/
import proofs.«424633_j22737556865606_4_alg».proof.Proof.Gen.KernelIdeal

noncomputable section

namespace Cert.KernelIdeal.Moe

open Cert.KernelIdeal Cert.KernelIdeal.Gen Idealize.ShloMosaic Idealize.ShloMosaic.TcCoe

variable {F : FTy → Type} [FloatOps F]

/-- A word repeated over the 300000 rows, the 6 groups, the 327680 padded positions. -/
abbrev splatE (k : BitVec 32) : IVec S300000 32 := broadcastInDim S300000 ![] bcast_S_S300000 (constantI S_ 32 k)
abbrev splat6 (k : BitVec 32) : IVec S6 32 := broadcastInDim S6 ![] bcast_S_S6 (constantI S_ 32 k)
abbrev splatP (k : BitVec 32) : IVec S327680 32 := broadcastInDim S327680 ![] bcast_S_S327680 (constantI S_ 32 k)

/-- Mask row `i` as a vector over the rows. -/
abbrev row0 (a4 : IVec S5x300000 1) : IVec S300000 1 := shapeCast S300000 (extractStridedSlice S1x300000 ![0, 0] a4 slices_S5x300000_S1x300000_0_0) shapeCasts_S1x300000_S300000
abbrev row1 (a4 : IVec S5x300000 1) : IVec S300000 1 := shapeCast S300000 (extractStridedSlice S1x300000 ![1, 0] a4 slices_S5x300000_S1x300000_1_0) shapeCasts_S1x300000_S300000
abbrev row2 (a4 : IVec S5x300000 1) : IVec S300000 1 := shapeCast S300000 (extractStridedSlice S1x300000 ![2, 0] a4 slices_S5x300000_S1x300000_2_0) shapeCasts_S1x300000_S300000
abbrev row3 (a4 : IVec S5x300000 1) : IVec S300000 1 := shapeCast S300000 (extractStridedSlice S1x300000 ![3, 0] a4 slices_S5x300000_S1x300000_3_0) shapeCasts_S1x300000_S300000
abbrev row4 (a4 : IVec S5x300000 1) : IVec S300000 1 := shapeCast S300000 (extractStridedSlice S1x300000 ![4, 0] a4 slices_S5x300000_S1x300000_4_0) shapeCasts_S1x300000_S300000

/-- The expert of each row: the last mask row set there, 5 when none is. -/
def KEY (a4 : IVec S5x300000 1) : IVec S300000 32 :=
  select (row4 a4) (splatE 4#32) (select (row3 a4) (splatE 3#32) (select (row2 a4) (splatE 2#32)
    (select (row1 a4) (splatE 1#32) (select (row0 a4) (splatE 0#32) (splatE 5#32)))))

/-- The stable argsort of the keys. -/
def PERM (a4 : IVec S5x300000 1) : IVec S300000 32 :=
  (Host.sort2 S300000 0 comparator_i32_i32_d0 (KEY a4) (iotaInDim S300000 32 0)).2

/-- An index vector made a column of start indices; a negative index wrapped by the extent `n` (jnp's indexing). -/
abbrev colE (v : IVec S300000 32) : IVec S300000x1 32 := broadcastInDim S300000x1 ![0] bcast_S300000_S300000x1_0 v
abbrev wrapE (n : BitVec 32) (v : IVec S300000 32) : IVec S300000 32 := select (cmpi .slt v (splatE 0#32)) (addi v (splatE n)) v
abbrev colP (v : IVec S327680 32) : IVec S327680x1 32 := broadcastInDim S327680x1 ![0] bcast_S327680_S327680x1_0 v
abbrev wrapP (n : BitVec 32) (v : IVec S327680 32) : IVec S327680 32 := select (cmpi .slt v (splatP 0#32)) (addi v (splatP n)) v

/-- The sorted keys. -/
def SK (a4 : IVec S5x300000 1) : IVec S300000 32 :=
  Host.gather gather_S300000_S300000x1_S300000_n_0_n_n_0_1_1 (KEY a4) (colE (wrapE 300000#32 (PERM a4)))

/-- The rows of each group, counted: ones added at the keys (clipped below at 0). -/
def CNT (a4 : IVec S5x300000 1) : IVec S6 32 :=
  Host.scatter scatter_S6_S300000x1_S300000_n_0_0_1 IntOp.addi (splat6 0#32)
    (colE (wrapE 6#32 (maxsi (splatE 0#32) (KEY a4)))) (splatE 1#32)

/-- jnp's floor division by 4096 of a vector over the groups. -/
def floorDiv (x : IVec S6 32) : IVec S6 32 :=
  select (andi (cmpi .ne (signi x) (broadcastInDim S6 ![] bcast_S_S6 (signi (constantI S_ 32 4096#32))))
      (cmpi .ne (Host.remsi x (splat6 4096#32)) (splat6 0#32)))
    (subi (Host.divsi x (splat6 4096#32)) (splat6 1#32)) (Host.divsi x (splat6 4096#32))

/-- Each group's count rounded up to a multiple of 4096. -/
def PC (a4 : IVec S5x300000 1) : IVec S6 32 :=
  muli (floorDiv (subi (addi (CNT a4) (splat6 4096#32)) (splat6 1#32))) (splat6 4096#32)

/-- The inclusive running sum over the 6 groups: a window of 6 ending at each position, zeros before the first. -/
def cumsum (x : IVec S6 32) : IVec S6 32 :=
  Host.reduceWindow IntOp.addi ![6] ![1] ![5] ![0] x (broadcastInDim S_ ![] bcast_S_S_ (constantI S_ 32 0#32)) reduceWindows_S6_S6_w6s1p5_0 h_S_

/-- Where each group starts among the sorted rows, and in the padded buffer. -/
def GSS (a4 : IVec S5x300000 1) : IVec S6 32 := subi (cumsum (CNT a4)) (CNT a4)
def GSP (a4 : IVec S5x300000 1) : IVec S6 32 := subi (cumsum (PC a4)) (PC a4)

/-- The padded position of each sorted row. -/
def DEST (a4 : IVec S5x300000 1) : IVec S300000 32 :=
  addi (Host.gather gather_S6_S300000x1_S300000_n_0_n_n_0_1_1 (GSP a4) (colE (wrapE 6#32 (SK a4))))
    (subi (iotaInDim S300000 32 0) (Host.gather gather_S6_S300000x1_S300000_n_0_n_n_0_1_1 (GSS a4) (colE (wrapE 6#32 (SK a4)))))

/-- The padded buffer's source rows, groups and destination rows. -/
def PIDX (a3 : IVec S300000 32) (a4 : IVec S5x300000 1) : IVec S327680 32 :=
  Host.scatter scatter_S327680_S300000x1_S300000_n_0_0_1 (fun _ b => b) (splatP 0#32) (colE (wrapE 327680#32 (DEST a4)))
    (Host.gather gather_S300000_S300000x1_S300000_n_0_n_n_0_1_1 a3 (colE (wrapE 300000#32 (PERM a4))))
def PGRP (a4 : IVec S5x300000 1) : IVec S327680 32 :=
  Host.scatter scatter_S327680_S300000x1_S300000_n_0_0_1 (fun _ b => b) (splatP 5#32) (colE (wrapE 327680#32 (DEST a4))) (SK a4)
def PDST (a4 : IVec S5x300000 1) : IVec S327680 32 :=
  Host.scatter scatter_S327680_S300000x1_S300000_n_0_0_1 (fun _ b => b) (splatP 300000#32) (colE (wrapE 327680#32 (DEST a4))) (PERM a4)

/-- The group of each of the 80 tiles: the padded group at the tile's first position. -/
def TG (a4 : IVec S5x300000 1) : IVec S80 32 :=
  shapeCast S80 (extractStridedSlice S80x1 ![0, 0] (shapeCast S80x4096 (PGRP a4) shapeCasts_S327680_S80x4096) slices_S80x4096_S80x1_0_0) shapeCasts_S80x1_S80

/-- The input rows in padded order. -/
def XI (a0 : FVec F S100000x256 .f32) (a3 : IVec S300000 32) (a4 : IVec S5x300000 1) : FVec F S327680x256 .f32 :=
  Host.gather gather_S100000x256_S327680x1_S327680x256_1_0_n_n_0_1_1256 a0 (colP (wrapP 100000#32 (PIDX a3 a4)))

/-- The weights transposed, a zero sixth expert appended; the biases likewise. -/
def WT (a1 : FVec F S5x256x256 .f32) : FVec F S6x256x256 .f32 :=
  concatenate S6x256x256 0 [⟨S5x256x256, transpose S5x256x256 [0, 2, 1] a1 transposes_S5x256x256_S5x256x256_0_2_1⟩,
    ⟨S1x256x256, broadcastInDim S1x256x256 ![] bcast_S_S1x256x256 (constant S_ .f32 0x00000000#32)⟩] concatenates_S5x256x256_S1x256x256_S6x256x256_d0
def BE (a2 : FVec F S5x256 .f32) : FVec F S6x1x256 .f32 :=
  shapeCast S6x1x256 (concatenate S6x256 0 [⟨S5x256, a2⟩, ⟨S1x256, broadcastInDim S1x256 ![] bcast_S_S1x256 (constant S_ .f32 0x00000000#32)⟩] concatenates_S5x256_S1x256_S6x256_d0) shapeCasts_S6x256_S6x1x256

/-- The result from the kernel's padded output `op`: its rows scattered to their destination rows of a zero array of
    300001 rows, the last row dropped, each row of 256 cut into 8 heads of 32. -/
def OUTS (op : FVec F S327680x256 .f32) (a4 : IVec S5x300000 1) : FVec F S300001x256 .f32 :=
  Host.scatter scatter_S300001x256_S327680x1_S327680x256_1_0_0_1 (fun _ b => b)
    (broadcastInDim S300001x256 ![] bcast_S_S300001x256 (constant S_ .f32 0x00000000#32)) (colP (wrapP 300001#32 (PDST a4))) op
def RES (op : FVec F S327680x256 .f32) (a4 : IVec S5x300000 1) : FVec F S300000x8x32 .f32 :=
  shapeCast S300000x8x32 (extractStridedSlice S300000x256 ![0, 0] (OUTS op a4) slices_S300001x256_S300000x256_0_0) shapeCasts_S300000x256_S300000x8x32

end Cert.KernelIdeal.Moe

end
-- ==== Proof.HostTable.lean ====
/-
  The arrays the pallas_call and the lines after it find, as functions of the argument arrays.

  Each buffer of the entry point's host prefix holds the array HostDefs names for it. The keys, the argsort, the
  sorted keys and the counts are read off the whole prefix at once. From the counts on, each array is read ONE LAYER
  at a time: a buffer is the operation that wrote it applied to the buffers it read, so no equation is ever asked
  between a scatter's or a sort's result and a respelling of it. The floor division and the two running sums are
  functions the program calls; each is read over an arbitrary valuation of the buffers, then at the prefix's.
-/
import proofs.«424633_j22737556865606_4_alg».proof.Proof.HostDefs
import proofs.«424633_j22737556865606_4_alg».proof.Proof.Gen.KernelIdeal.Frame

set_option maxRecDepth 16384

noncomputable section

namespace Cert.KernelIdeal.HostV

open Cert.KernelIdeal Cert.KernelIdeal.Gen Cert.KernelIdeal.Moe Idealize.ShloMosaic Idealize.ShloMosaic.TcCoe Idealize.SL.Sem Idealize.ShloMosaic.StableHlo

variable {F : FTy → Type} [FloatOps F]
variable (m : (ℓ : Loc nD τ sig) → Buf (Elt F) ℓ)

/-- The argument arrays as launched, on core `c`. -/
abbrev A0 (c : Dev nD) : FVec F S100000x256 .f32 := m ((c : Thread nD τ).loc main_arg0)
abbrev A1 (c : Dev nD) : FVec F S5x256x256 .f32 := m ((c : Thread nD τ).loc main_arg1)
abbrev A2 (c : Dev nD) : FVec F S5x256 .f32 := m ((c : Thread nD τ).loc main_arg2)
abbrev A3 (c : Dev nD) : IVec S300000 32 := m ((c : Thread nD τ).loc main_arg3)
abbrev A4 (c : Dev nD) : IVec S5x300000 1 := m ((c : Thread nD τ).loc main_arg4)

/-- Reads both sides of an equation between buffers of the prefix down to the argument arrays. -/
local macro "host_read" : tactic => `(tactic| (dsimp only [V, V0]; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]; after_results_simp))

/-! ## The keys, the argsort, the sorted keys, the counts -/

set_option maxHeartbeats 2000000 in
theorem V_key (c : Dev nD) : V m c main_v15 = KEY (A4 m c) := by host_read <;> rfl
set_option maxHeartbeats 2000000 in
theorem V_perm (c : Dev nD) : V m c main_v16 = PERM (A4 m c) := by host_read <;> rfl
set_option maxHeartbeats 2000000 in
theorem V_sk (c : Dev nD) : V m c main_v23 = SK (A4 m c) := by host_read <;> rfl
set_option maxHeartbeats 2000000 in
theorem V_cnt (c : Dev nD) : V m c main_v33 = CNT (A4 m c) := by host_read <;> rfl

/-! ## The padded counts: a floor division the program calls -/

/-- The floor division by the word in `d`, as the called function spells it. -/
def floorDivBy (d : IVec S_ 32) (x : IVec S6 32) : IVec S6 32 :=
  select (andi (cmpi .ne (signi x) (broadcastInDim S6 ![] bcast_S_S6 (signi d)))
      (cmpi .ne (Host.remsi x (broadcastInDim S6 ![] bcast_S_S6 d)) (splat6 0#32)))
    (subi (Host.divsi x (broadcastInDim S6 ![] bcast_S_S6 d)) (splat6 1#32)) (Host.divsi x (broadcastInDim S6 ![] bcast_S_S6 d))

theorem floorDivBy_4096 (x : IVec S6 32) : floorDivBy (constantI S_ 32 4096#32) x = floorDiv x := rfl

/-- The called function over any contents of the buffers. -/
theorem floorDiv_call (W : Valuation τ sig (Elt F)) :
    StableHlo.after (hostOps0_14 (F := F)) W (Proc.devRef .tc main_v38)
      = floorDivBy (W (Proc.devRef .tc main_c_14)) (W (Proc.devRef .tc main_v37)) := by
  simp only [hostOps0_14]
  after_results_simp <;> rfl

set_option maxHeartbeats 2000000 in
theorem V_c14 (c : Dev nD) : V m c main_c_14 = constantI S_ 32 4096#32 := by host_read <;> rfl
set_option maxHeartbeats 2000000 in
theorem V_v37_step (c : Dev nD) : V m c main_v37 = subi (addi (V m c main_v33) (splat6 4096#32)) (splat6 1#32) := by host_read <;> rfl
set_option maxHeartbeats 2000000 in
theorem V_v38_rerun (c : Dev nD) : V m c main_v38 = StableHlo.after (hostOps0_14 (F := F)) (V0 m c) (Proc.devRef .tc main_v38) := by host_read <;> rfl
set_option maxHeartbeats 2000000 in
theorem V_v40_step (c : Dev nD) : V m c main_v40 = muli (V m c main_v38) (splat6 4096#32) := by host_read <;> rfl

theorem V_pc (c : Dev nD) : V m c main_v40 = PC (A4 m c) := by
  rw [V_v40_step, V_v38_rerun, floorDiv_call]
  show muli (floorDivBy (V m c main_c_14) (V m c main_v37)) (splat6 4096#32) = _
  rw [V_c14, V_v37_step, V_cnt, floorDivBy_4096]
  rfl

/-! ## The running sums -/

theorem cumsum_call8 (W : Valuation τ sig (Elt F)) :
    StableHlo.after (hostOps0_16 (F := F)) W (Proc.devRef .tc main_v41) = cumsum (W (Proc.devRef .tc main_v33)) := by
  simp only [hostOps0_16]
  after_results_simp <;> rfl
theorem cumsum_call9 (W : Valuation τ sig (Elt F)) :
    StableHlo.after (hostOps0_18 (F := F)) W (Proc.devRef .tc main_v43) = cumsum (W (Proc.devRef .tc main_v40)) := by
  simp only [hostOps0_18]
  after_results_simp <;> rfl

set_option maxHeartbeats 2000000 in
theorem V_v41_rerun (c : Dev nD) : V m c main_v41 = StableHlo.after (hostOps0_16 (F := F)) (V0 m c) (Proc.devRef .tc main_v41) := by host_read <;> rfl
set_option maxHeartbeats 2000000 in
theorem V_v42_step (c : Dev nD) : V m c main_v42 = subi (V m c main_v41) (V m c main_v33) := by host_read <;> rfl
set_option maxHeartbeats 2000000 in
theorem V_v43_rerun (c : Dev nD) : V m c main_v43 = StableHlo.after (hostOps0_18 (F := F)) (V0 m c) (Proc.devRef .tc main_v43) := by host_read <;> rfl
set_option maxHeartbeats 2000000 in
theorem V_v44_step (c : Dev nD) : V m c main_v44 = subi (V m c main_v43) (V m c main_v40) := by host_read <;> rfl

theorem V_gss (c : Dev nD) : V m c main_v42 = GSS (A4 m c) := by
  rw [V_v42_step, V_v41_rerun, cumsum_call8]
  show subi (cumsum (V m c main_v33)) (V m c main_v33) = _
  rw [V_cnt]
  rfl
theorem V_gsp (c : Dev nD) : V m c main_v44 = GSP (A4 m c) := by
  rw [V_v44_step, V_v43_rerun, cumsum_call9]
  show subi (cumsum (V m c main_v40)) (V m c main_v40) = _
  rw [V_pc]
  rfl

/-! ## The padded positions and the padded buffer -/

set_option maxHeartbeats 2000000 in
theorem V_v61_step (c : Dev nD) : V m c main_v61
    = addi (Host.gather gather_S6_S300000x1_S300000_n_0_n_n_0_1_1 (V m c main_v44) (colE (wrapE 6#32 (V m c main_v23))))
        (subi (iotaInDim S300000 32 0) (Host.gather gather_S6_S300000x1_S300000_n_0_n_n_0_1_1 (V m c main_v42) (colE (wrapE 6#32 (V m c main_v23))))) := by
  host_read <;> rfl
theorem V_dest (c : Dev nD) : V m c main_v61 = DEST (A4 m c) := by
  rw [V_v61_step, V_gsp, V_gss, V_sk]; rfl

set_option maxHeartbeats 2000000 in
theorem V_v84_step (c : Dev nD) : V m c main_v84
    = Host.scatter scatter_S327680_S300000x1_S300000_n_0_0_1 (fun _ b => b) (splatP 5#32) (colE (wrapE 327680#32 (V m c main_v61))) (V m c main_v23) := by
  host_read <;> rfl
theorem V_pgrp (c : Dev nD) : V m c main_v84 = PGRP (A4 m c) := by
  rw [V_v84_step, V_dest, V_sk]; rfl

set_option maxHeartbeats 2000000 in
theorem V_v95_step (c : Dev nD) : V m c main_v95
    = shapeCast S80 (extractStridedSlice S80x1 ![0, 0] (shapeCast S80x4096 (V m c main_v84) shapeCasts_S327680_S80x4096) slices_S80x4096_S80x1_0_0) shapeCasts_S80x1_S80 := by
  host_read <;> rfl
/-- The prefetched table is the tile groups. -/
theorem V_tileGroup (c : Dev nD) : V m c main_v95 = TG (A4 m c) := by
  rw [V_v95_step, V_pgrp]; rfl

end Cert.KernelIdeal.HostV

end
-- ==== Proof.Routing.lean ====
/-
  Sorting rows into padded groups: the arithmetic of the layout, over the natural numbers.

  E rows carry a key below G. Sorted by key (a permutation σ of the rows along which the key does not decrease), the
  rows of key g stand at the positions [below g, below g + cnt g), where cnt g counts the rows of key g and below g
  those of smaller key. In the padded layout group g gets pcnt g = ⌈cnt g / T⌉ · T positions starting at
  pbelow g = Σ_{h < g} pcnt h, a multiple of T; sorted row j of key g goes to dest j = pbelow g + (j - below g).

  What the kernel's tiling leans on: dest is injective and stays below E + G·(T - 1); and the tile of T positions
  that holds dest j starts at the dest of a sorted row OF THE SAME KEY (the first row of that tile), so a tile's
  first position tells the key of every real row in it.
-/
import Mathlib.Algebra.BigOperators.Fin
import Mathlib.Data.Fintype.Card
import Mathlib.Data.Fintype.Perm
import Mathlib.Algebra.Order.BigOperators.Group.Finset
import Mathlib.Tactic.Ring
import Mathlib.Tactic.Linarith
import Mathlib.Order.Interval.Finset.Fin

namespace Cert.Moe.Routing

open Finset

variable {E : ℕ}

/-- The rows of key `g`, counted. -/
def cnt (key : Fin E → ℕ) (g : ℕ) : ℕ := (univ.filter fun e : Fin E => key e = g).card

/-- The rows of key below `g`, counted: where group `g` starts among the sorted rows. -/
def below (key : Fin E → ℕ) (g : ℕ) : ℕ := ∑ h ∈ range g, cnt key h

/-- Group `g`'s count rounded up to a multiple of `T`. -/
def pcnt (T : ℕ) (key : Fin E → ℕ) (g : ℕ) : ℕ := (cnt key g + (T - 1)) / T * T

/-- Where group `g` starts in the padded layout. -/
def pbelow (T : ℕ) (key : Fin E → ℕ) (g : ℕ) : ℕ := ∑ h ∈ range g, pcnt T key h

/-- The padded position of sorted row `j`. -/
def dest (T : ℕ) (key : Fin E → ℕ) (σ : Fin E → Fin E) (j : Fin E) : ℕ :=
  pbelow T key (key (σ j)) + (j.val - below key (key (σ j)))

/-- One more group: its rows are added to the count. -/
private theorem below_succ (key : Fin E → ℕ) (g : ℕ) : below key (g + 1) = below key g + cnt key g := by
  unfold below
  exact Finset.sum_range_succ _ _

/-- One more group: its padded size is added to the padded start. -/
private theorem pbelow_succ (T : ℕ) (key : Fin E → ℕ) (g : ℕ) :
    pbelow T key (g + 1) = pbelow T key g + pcnt T key g := by
  unfold pbelow
  exact Finset.sum_range_succ _ _

/-- The padded starts do not decrease with the group. -/
private theorem pbelow_mono (T : ℕ) (key : Fin E → ℕ) {g g' : ℕ} (h : g ≤ g') :
    pbelow T key g ≤ pbelow T key g' := by
  unfold pbelow
  exact Finset.sum_le_sum_of_subset (Finset.range_mono h)

/-- `below` counts the rows of smaller key. -/
theorem below_eq_card (key : Fin E → ℕ) (g : ℕ) : below key g = (univ.filter fun e : Fin E => key e < g).card := by
  induction g with
  | zero => simp [below]
  | succ g ih =>
    rw [below_succ, ih]
    unfold cnt
    rw [Finset.card_filter, Finset.card_filter, Finset.card_filter, ← Finset.sum_add_distrib]
    refine Finset.sum_congr rfl (fun e _ => ?_)
    split_ifs <;> omega

/-- Every row has some key below `G`: the counts add up to the number of rows. -/
theorem sum_cnt (key : Fin E → ℕ) (G : ℕ) (hG : ∀ e, key e < G) : below key G = E := by
  rw [below_eq_card, Finset.filter_true_of_mem (fun e _ => hG e)]
  simp

/-- Along a sorting permutation the rows of key below `g` are exactly the first `below g` positions. -/
theorem lt_below_iff (key : Fin E → ℕ) (σ : Equiv.Perm (Fin E)) (hmono : ∀ i j : Fin E, i ≤ j → key (σ i) ≤ key (σ j))
    (g : ℕ) (j : Fin E) : j.val < below key g ↔ key (σ j) < g := by
  -- S, the sorted positions holding a key below g, has as many elements as there are such rows (σ is a bijection) …
  have hcard : (univ.filter fun i : Fin E => key (σ i) < g).card = below key g := by
    rw [below_eq_card, Finset.card_filter, Finset.card_filter]
    exact Equiv.sum_comp σ (fun e => if key e < g then 1 else 0)
  have hmem : ∀ i : Fin E, i ∈ (univ.filter fun i : Fin E => key (σ i) < g) ↔ key (σ i) < g := by
    intro i; simp
  rw [← hcard, ← hmem]
  constructor
  · -- … and is closed downwards: a position outside S bounds S from above, so S has at most j elements;
    intro hlt
    by_contra hj
    have hsub : (univ.filter fun i : Fin E => key (σ i) < g) ⊆ Finset.Iio j := by
      intro i hi
      rw [Finset.mem_Iio]
      by_contra hij
      have h1 := hmono j i (not_lt.mp hij)
      have h2 := (hmem i).mp hi
      exact hj ((hmem j).mpr (lt_of_le_of_lt h1 h2))
    have hle := Finset.card_le_card hsub
    rw [Fin.card_Iio] at hle
    omega
  · -- a position inside S has all earlier positions in S, so S has more than j elements.
    intro hj
    have hsub : Finset.Iic j ⊆ (univ.filter fun i : Fin E => key (σ i) < g) := by
      intro i hi
      rw [Finset.mem_Iic] at hi
      exact (hmem i).mpr (lt_of_le_of_lt (hmono i j hi) ((hmem j).mp hj))
    have hle := Finset.card_le_card hsub
    rw [Fin.card_Iic] at hle
    omega

/-- A sorted row stands at or after its group's start … -/
theorem below_le (key : Fin E → ℕ) (σ : Equiv.Perm (Fin E)) (hmono : ∀ i j : Fin E, i ≤ j → key (σ i) ≤ key (σ j))
    (j : Fin E) : below key (key (σ j)) ≤ j.val := by
  by_contra h
  exact lt_irrefl _ ((lt_below_iff key σ hmono (key (σ j)) j).mp (not_le.mp h))

/-- … and before its end. -/
theorem lt_below_add_cnt (key : Fin E → ℕ) (σ : Equiv.Perm (Fin E)) (hmono : ∀ i j : Fin E, i ≤ j → key (σ i) ≤ key (σ j))
    (j : Fin E) : j.val < below key (key (σ j)) + cnt key (key (σ j)) := by
  rw [← below_succ]
  exact (lt_below_iff key σ hmono (key (σ j) + 1) j).mpr (Nat.lt_succ_self _)

/-- A position inside group `g`'s range holds a row of key `g`. -/
theorem key_of_mem_range (key : Fin E → ℕ) (σ : Equiv.Perm (Fin E)) (hmono : ∀ i j : Fin E, i ≤ j → key (σ i) ≤ key (σ j))
    (g : ℕ) (j : Fin E) (h1 : below key g ≤ j.val) (h2 : j.val < below key g + cnt key g) : key (σ j) = g := by
  rw [← below_succ] at h2
  have h3 : ¬ key (σ j) < g := fun h => absurd ((lt_below_iff key σ hmono g j).mpr h) (not_lt.mpr h1)
  have h4 := (lt_below_iff key σ hmono (g + 1) j).mp h2
  omega

/-- A group's padded start is a multiple of the tile. -/
theorem dvd_pbelow (T : ℕ) (key : Fin E → ℕ) (g : ℕ) : T ∣ pbelow T key g := by
  unfold pbelow
  exact Finset.dvd_sum (fun h _ => dvd_mul_left T _)

theorem cnt_le_pcnt (T : ℕ) (hT : 0 < T) (key : Fin E → ℕ) (g : ℕ) : cnt key g ≤ pcnt T key g := by
  unfold pcnt
  have h1 := Nat.div_add_mod' (cnt key g + (T - 1)) T
  have h2 := Nat.mod_lt (cnt key g + (T - 1)) hT
  omega

theorem pcnt_lt (T : ℕ) (hT : 0 < T) (key : Fin E → ℕ) (g : ℕ) : pcnt T key g < cnt key g + T := by
  unfold pcnt
  have h1 := Nat.div_mul_le_self (cnt key g + (T - 1)) T
  omega

/-- The padded layout's extent: the rows and at most `T - 1` padding positions per group. -/
theorem pbelow_le (T : ℕ) (hT : 0 < T) (key : Fin E → ℕ) (G : ℕ) (hG : ∀ e, key e < G) :
    pbelow T key G ≤ E + G * (T - 1) := by
  have h1 : pbelow T key G ≤ ∑ h ∈ range G, (cnt key h + (T - 1)) := by
    unfold pbelow
    refine Finset.sum_le_sum (fun h _ => ?_)
    have := pcnt_lt T hT key h
    omega
  have h2 : ∑ h ∈ range G, (cnt key h + (T - 1)) = below key G + G * (T - 1) := by
    rw [Finset.sum_add_distrib, Finset.sum_const, Finset.card_range, smul_eq_mul]
    rfl
  rw [h2, sum_cnt key G hG] at h1
  exact h1

/-- A row's padded position lies before the padded start of the next group. -/
private theorem dest_lt_pbelow_succ (T : ℕ) (hT : 0 < T) (key : Fin E → ℕ) (σ : Equiv.Perm (Fin E))
    (hmono : ∀ i j : Fin E, i ≤ j → key (σ i) ≤ key (σ j)) (j : Fin E) :
    dest T key σ j < pbelow T key (key (σ j) + 1) := by
  have h1 := below_le key σ hmono j
  have h2 := lt_below_add_cnt key σ hmono j
  have h3 := cnt_le_pcnt T hT key (key (σ j))
  rw [pbelow_succ]
  unfold dest
  omega

/-- Every padded position of a row is inside the layout. -/
theorem dest_lt (T : ℕ) (hT : 0 < T) (key : Fin E → ℕ) (G : ℕ) (hG : ∀ e, key e < G) (σ : Equiv.Perm (Fin E))
    (hmono : ∀ i j : Fin E, i ≤ j → key (σ i) ≤ key (σ j)) (j : Fin E) : dest T key σ j < E + G * (T - 1) + 1 := by
  have h1 := dest_lt_pbelow_succ T hT key σ hmono j
  have h2 : pbelow T key (key (σ j) + 1) ≤ pbelow T key G := pbelow_mono T key (hG (σ j))
  have h3 := pbelow_le T hT key G hG
  omega

/-- A row of smaller key goes to a smaller padded position. -/
private theorem dest_lt_of_key_lt (T : ℕ) (hT : 0 < T) (key : Fin E → ℕ) (σ : Equiv.Perm (Fin E))
    (hmono : ∀ i j : Fin E, i ≤ j → key (σ i) ≤ key (σ j)) (j j' : Fin E) (h : key (σ j) < key (σ j')) :
    dest T key σ j < dest T key σ j' := by
  have h1 := dest_lt_pbelow_succ T hT key σ hmono j
  have h2 : pbelow T key (key (σ j) + 1) ≤ pbelow T key (key (σ j')) := pbelow_mono T key h
  have h3 : pbelow T key (key (σ j')) ≤ dest T key σ j' := by
    unfold dest
    exact Nat.le_add_right _ _
  omega

/-- Two sorted rows never share a padded position. -/
theorem dest_injective (T : ℕ) (hT : 0 < T) (key : Fin E → ℕ) (σ : Equiv.Perm (Fin E))
    (hmono : ∀ i j : Fin E, i ≤ j → key (σ i) ≤ key (σ j)) : Function.Injective (dest T key σ) := by
  intro j j' h
  rcases lt_trichotomy (key (σ j)) (key (σ j')) with hlt | heq | hgt
  · have := dest_lt_of_key_lt T hT key σ hmono j j' hlt
    omega
  · have h1 := below_le key σ hmono j
    have h2 := below_le key σ hmono j'
    unfold dest at h
    rw [heq] at h h1
    apply Fin.ext
    omega
  · have := dest_lt_of_key_lt T hT key σ hmono j' j hgt
    omega

/-- THE TILE'S FIRST POSITION: the tile of `T` padded positions that holds the position of sorted row `j` starts at the
    position of a sorted row of the same key. -/
theorem dest_tile (T : ℕ) (hT : 0 < T) (key : Fin E → ℕ) (σ : Equiv.Perm (Fin E))
    (hmono : ∀ i j : Fin E, i ≤ j → key (σ i) ≤ key (σ j)) (j : Fin E) :
    ∃ j' : Fin E, dest T key σ j' = dest T key σ j / T * T ∧ key (σ j') = key (σ j) := by
  obtain ⟨q, hq⟩ := dvd_pbelow T key (key (σ j))
  have h1 := below_le key σ hmono j
  have h2 := lt_below_add_cnt key σ hmono j
  have hle : (j.val - below key (key (σ j))) / T * T ≤ j.val - below key (key (σ j)) := Nat.div_mul_le_self _ _
  have hj' : below key (key (σ j)) + (j.val - below key (key (σ j))) / T * T < E := by
    have := j.isLt
    omega
  -- the row of the same group standing at the last multiple of T, counted from the group's start, at or before row j
  have hkey : key (σ ⟨below key (key (σ j)) + (j.val - below key (key (σ j))) / T * T, hj'⟩) = key (σ j) := by
    refine key_of_mem_range key σ hmono (key (σ j)) ⟨_, hj'⟩ ?_ ?_
    · exact Nat.le_add_right _ _
    · show below key (key (σ j)) + (j.val - below key (key (σ j))) / T * T < _
      omega
  refine ⟨⟨below key (key (σ j)) + (j.val - below key (key (σ j))) / T * T, hj'⟩, ?_, hkey⟩
  unfold dest
  rw [hkey, hq, Nat.mul_add_div hT, Nat.add_mul, Nat.mul_comm T q]
  show q * T + (below key (key (σ j)) + (j.val - below key (key (σ j))) / T * T - below key (key (σ j))) = _
  rw [Nat.add_sub_cancel_left]

end Cert.Moe.Routing
-- ==== Proof.KeySort.lean ====
/-
  The keys and their sort, read at a row.

  The key of row e is the index of the LAST mask row set at e, and 5 when none is; it is below 6. The argsort's
  result is a permutation σ of the rows written as words, along which the key does not decrease (a stable sort by a
  strict signed comparison); the sorted keys are the keys read through σ, and so is any vector gathered at the argsort.
-/
import proofs.«424633_j22737556865606_4_alg».proof.Proof.HostDefs
import Idealize.ShloMosaic.Lib.ValueIdx
import Idealize.ShloMosaic.Lib.SortFacts
import Idealize.ShloMosaic.Lib.StableHlo.Predicate
import Mathlib.Logic.Equiv.Defs
import Mathlib.Tactic.SplitIfs
import Mathlib.Tactic.ByContra

noncomputable section

namespace Cert.KernelIdeal.Moe

open Cert.KernelIdeal Cert.KernelIdeal.Gen Idealize.ShloMosaic Idealize.ShloMosaic.ValueIdx

/-! ## Indices and reads -/

/-- The rank-1 index written by coordinates is the rank-1 index at that coordinate. -/
private theorem ix1_eq_ofFin {n : Nat} (k : Fin n) : (ix1 k : (⟨1, ![n]⟩ : Shape).Idx) = Shape.Idx.ofFin k := by
  funext d
  match d with
  | ⟨0, _⟩ => rfl

/-- Row i of the mask, cut out as a 1 × 300000 block and flattened, reads the mask at (i, e). -/
private theorem row_apply (a4 : IVec S5x300000 1) (off : Fin 2 → Nat) (i : Fin 5) (h0 : off 0 = i.val) (h1 : off 1 = 0)
    (h : S5x300000.Slices off S1x300000) (hc : S1x300000.ShapeCasts S300000) (e : Fin 300000) :
    shapeCast S300000 (extractStridedSlice S1x300000 off a4 h) hc (ix1 e) = a4 (ix2 i e) := by
  have e1 : Shape.reshapeEquiv hc (ix1 e) = (ix2 (0 : Fin 1) e : S1x300000.Idx) := by
    refine Shape.reshapeEquiv_eq_of_rowMajor hc ?_
    rw [Shape.rowMajor_val_two, Shape.rowMajor_val_one]
    show 0 * 300000 + e.val = e.val
    omega
  unfold shapeCast
  rw [e1]
  unfold extractStridedSlice
  refine congrArg a4 (funext fun a => Fin.ext ?_)
  match a with
  | ⟨0, _⟩ => show off 0 + 0 = i.val; omega
  | ⟨1, _⟩ => show off 1 + e.val = e.val; omega

/-- A splat word reads the word everywhere. -/
private theorem splatE_apply (k : BitVec 32) (j : S300000.Idx) : splatE k j = k := rfl

/-- The key of a row: the last mask row set there, 5 when none is. -/
theorem KEY_apply (a4 : IVec S5x300000 1) (e : Fin 300000) :
    KEY a4 (ix1 e) = if a4 (ix2 (4 : Fin 5) e) = 1#1 then 4#32 else if a4 (ix2 (3 : Fin 5) e) = 1#1 then 3#32
      else if a4 (ix2 (2 : Fin 5) e) = 1#1 then 2#32 else if a4 (ix2 (1 : Fin 5) e) = 1#1 then 1#32
      else if a4 (ix2 (0 : Fin 5) e) = 1#1 then 0#32 else 5#32 := by
  have r4 : row4 a4 (ix1 e) = a4 (ix2 (4 : Fin 5) e) :=
    row_apply a4 ![4, 0] 4 rfl rfl slices_S5x300000_S1x300000_4_0 shapeCasts_S1x300000_S300000 e
  have r3 : row3 a4 (ix1 e) = a4 (ix2 (3 : Fin 5) e) :=
    row_apply a4 ![3, 0] 3 rfl rfl slices_S5x300000_S1x300000_3_0 shapeCasts_S1x300000_S300000 e
  have r2 : row2 a4 (ix1 e) = a4 (ix2 (2 : Fin 5) e) :=
    row_apply a4 ![2, 0] 2 rfl rfl slices_S5x300000_S1x300000_2_0 shapeCasts_S1x300000_S300000 e
  have r1 : row1 a4 (ix1 e) = a4 (ix2 (1 : Fin 5) e) :=
    row_apply a4 ![1, 0] 1 rfl rfl slices_S5x300000_S1x300000_1_0 shapeCasts_S1x300000_S300000 e
  have r0 : row0 a4 (ix1 e) = a4 (ix2 (0 : Fin 5) e) :=
    row_apply a4 ![0, 0] 0 rfl rfl slices_S5x300000_S1x300000_0_0 shapeCasts_S1x300000_S300000 e
  show Scalar.select (row4 a4 (ix1 e)) 4#32 (Scalar.select (row3 a4 (ix1 e)) 3#32 (Scalar.select (row2 a4 (ix1 e)) 2#32
    (Scalar.select (row1 a4 (ix1 e)) 1#32 (Scalar.select (row0 a4 (ix1 e)) 0#32 5#32)))) = _
  rw [r4, r3, r2, r1, r0]
  rfl

/-- The key as a number. -/
def keyN (a4 : IVec S5x300000 1) (e : Fin 300000) : ℕ := (KEY a4 (ix1 e)).toNat

theorem keyN_lt (a4 : IVec S5x300000 1) (e : Fin 300000) : keyN a4 e < 6 := by
  unfold keyN
  rw [KEY_apply]
  split_ifs <;> decide

/-! ## The sort -/

/-- The comparison the sort makes between two rows: the first row's key strictly below the second's. -/
private def keyBefore (a4 : IVec S5x300000 1) (k k' : Fin 300000) : Bool :=
  comparator_i32_i32_d0 (KEY a4 (Shape.Idx.ofFin k), iotaInDim S300000 32 0 (Shape.Idx.ofFin k))
    (KEY a4 (Shape.Idx.ofFin k'), iotaInDim S300000 32 0 (Shape.Idx.ofFin k')) == 1#1

private theorem keyBefore_iff (a4 : IVec S5x300000 1) (k k' : Fin 300000) :
    keyBefore a4 k k' = true ↔ keyN a4 k < keyN a4 k' := by
  have hk := keyN_lt a4 k
  have hk' := keyN_lt a4 k'
  unfold keyN at *
  rw [ix1_eq_ofFin] at hk hk' ⊢
  rw [ix1_eq_ofFin]
  unfold keyBefore comparator_i32_i32_d0
  rw [beq_iff_eq]
  show IntOp.cmpi .slt (KEY a4 (Shape.Idx.ofFin k)) (KEY a4 (Shape.Idx.ofFin k')) = 1#1 ↔ _
  exact StableHlo.Predicate.slt_iff_toNat (by omega) (by omega)

/-- On a rank-1 shape the second component of a two-operand sort reads the carried operand through the ONE self-map of
    the positions, the stable sorting permutation of the comparator on the pairs. -/
private theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The sorting permutation: sorted position j holds row `sigma a4 j`. -/
def sigma (a4 : IVec S5x300000 1) : Equiv.Perm (Fin 300000) :=
  Equiv.ofBijective (sortedFrom (keyBefore a4)) ⟨sortedFrom_injective _, sortedFrom_surjective _⟩

private theorem sigma_eq (a4 : IVec S5x300000 1) (j : Fin 300000) : sigma a4 j = sortedFrom (keyBefore a4) j := by
  unfold sigma
  exact Equiv.ofBijective_apply _ _ _

/-- The argsort's words are the sorting permutation's values. -/
theorem PERM_apply (a4 : IVec S5x300000 1) (j : Fin 300000) : PERM a4 (ix1 j) = BitVec.ofNat 32 (sigma a4 j).val := by
  have hF : (fun k k' : Fin 300000 => comparator_i32_i32_d0
      (KEY a4 (Shape.Idx.ofFin k), iotaInDim S300000 32 0 (Shape.Idx.ofFin k))
      (KEY a4 (Shape.Idx.ofFin k'), iotaInDim S300000 32 0 (Shape.Idx.ofFin k')) == 1#1) = keyBefore a4 := rfl
  have h0 : (ix1 j : S300000.Idx) (0 : Fin 1) = j := rfl
  unfold PERM
  rw [sort2_rank1_snd, hF, h0, StableHlo.Predicate.iota_apply, sigma_eq]

/-- Along the sort the key does not decrease. -/
theorem sigma_mono (a4 : IVec S5x300000 1) (i j : Fin 300000) (h : i ≤ j) : keyN a4 (sigma a4 i) ≤ keyN a4 (sigma a4 j) := by
  rcases lt_or_eq_of_le h with hlt | rfl
  · have hn := sortedFrom_noInversion (keyBefore a4) (keyBefore a4)
      (fun a b hab => by
        have h1 := (keyBefore_iff a4 a b).mp hab
        cases hb : keyBefore a4 b a
        · rfl
        · have h2 := (keyBefore_iff a4 b a).mp hb
          omega)
      (fun _ _ hab => hab)
      (fun a b c hab hbc => by
        cases hac : keyBefore a4 a c
        · rfl
        · have h3 := (keyBefore_iff a4 a c).mp hac
          have h1 : ¬ keyN a4 a < keyN a4 b := fun hlt' => by
            rw [(keyBefore_iff a4 a b).mpr hlt'] at hab; exact Bool.noConfusion hab
          have h2 : ¬ keyN a4 b < keyN a4 c := fun hlt' => by
            rw [(keyBefore_iff a4 b c).mpr hlt'] at hbc; exact Bool.noConfusion hbc
          omega)
      i j hlt
    rw [sigma_eq, sigma_eq]
    by_contra hc
    rw [(keyBefore_iff a4 _ _).mpr (by omega)] at hn
    exact Bool.noConfusion hn
  · exact le_refl _

/-! ## Gathers at the argsort -/

/-- A word below 300000, wrapped if negative and clamped into the rows, is unchanged. -/
private theorem wrap_clamp_word (n : ℕ) (hn : n < 300000) :
    min (Scalar.select (IntOp.cmpi .slt (BitVec.ofNat 32 n) 0#32) (IntOp.addi (BitVec.ofNat 32 n) 300000#32)
      (BitVec.ofNat 32 n)).toInt.toNat (300000 - 1) = n := by
  have hw : (BitVec.ofNat 32 n).toNat = n := by
    rw [BitVec.toNat_ofNat]; omega
  have h0 : (0#32 : BitVec 32).toNat = 0 := rfl
  have hc : ¬ IntOp.cmpi .slt (BitVec.ofNat 32 n) 0#32 = 1#1 := by
    rw [StableHlo.Predicate.slt_iff_toNat (by omega) (by decide), hw, h0]
    omega
  rw [eq_zero_of_ne_one hc, select_zero, StableHlo.Predicate.toInt_ofNat_small n (by omega), Int.toNat_natCast]
  exact Nat.min_eq_left (by omega)

/-- A vector gathered at the argsort (negative words wrapped, then clamped: neither changes a word below 300000) is
    the vector read through the sorting permutation. -/
theorem gather_PERM_apply {α : Type} (x : S300000.Idx → α) (a4 : IVec S5x300000 1) (j : Fin 300000) :
    Host.gather gather_S300000_S300000x1_S300000_n_0_n_n_0_1_1 x (colE (wrapE 300000#32 (PERM a4))) (ix1 j)
      = x (ix1 (sigma a4 j)) := by
  rw [ix1_eq_ofFin, ix1_eq_ofFin]
  refine (StableHlo.Predicate.gather_take gather_S300000_S300000x1_S300000_n_0_n_n_0_1_1 rfl rfl rfl rfl x _ j
    (by decide)).trans ?_
  refine congrArg x (congrArg Shape.Idx.ofFin (Fin.ext ?_))
  show min (colE (wrapE 300000#32 (PERM a4)) (StableHlo.Predicate.ixP j)).toInt.toNat (300000 - 1) = (sigma a4 j).val
  have hb : colE (wrapE 300000#32 (PERM a4)) (StableHlo.Predicate.ixP j)
      = wrapE 300000#32 (PERM a4) (Shape.Idx.ofFin j) := StableHlo.Predicate.bcast_col1 bcast_S300000_S300000x1_0 _ j
  rw [hb]
  show min (Scalar.select (IntOp.cmpi .slt (PERM a4 (Shape.Idx.ofFin j)) 0#32)
    (IntOp.addi (PERM a4 (Shape.Idx.ofFin j)) 300000#32) (PERM a4 (Shape.Idx.ofFin j))).toInt.toNat (300000 - 1) = _
  rw [← ix1_eq_ofFin, PERM_apply]
  exact wrap_clamp_word _ (sigma a4 j).isLt

/-- The sorted keys are the keys read through the sorting permutation. -/
theorem SK_apply (a4 : IVec S5x300000 1) (j : Fin 300000) : SK a4 (ix1 j) = KEY a4 (ix1 (sigma a4 j)) :=
  gather_PERM_apply (KEY a4) a4 j

-- The sorting permutation is used through the facts above only: it is not to be unfolded.
attribute [irreducible] sigma

end Cert.KernelIdeal.Moe

end
-- ==== Proof.Counts.lean ====
/-
  The group counts and their running sums, as numbers.

  Adding a one at every row's key counts the rows of each key; the count plus 4095, floor-divided by 4096 and
  multiplied back, is the count rounded up to a multiple of 4096 (all operands positive, so the signed floor division
  is the plain quotient); the window sums less the entry itself are the exclusive running sums. Nothing overflows:
  every number here is at most 300000 + 6·4095.
-/
import proofs.«424633_j22737556865606_4_alg».proof.Proof.HostDefs
import proofs.«424633_j22737556865606_4_alg».proof.Proof.Routing
import proofs.«424633_j22737556865606_4_alg».proof.Proof.KeySort
import Idealize.ShloMosaic.Lib.ValueIdx
import Idealize.ShloMosaic.Lib.ValueIdxRank1
import Idealize.ShloMosaic.Lib.StableHlo.Predicate

noncomputable section

namespace Cert.KernelIdeal.Moe

open Cert.KernelIdeal Cert.KernelIdeal.Gen Idealize.ShloMosaic Idealize.ShloMosaic.ValueIdx Cert.Moe
open Idealize.ShloMosaic.StableHlo.Predicate

/-! ## Words and indices -/

/-- A column of start indices reads, at row e, the vector at e. -/
private theorem colE_apply (v : IVec S300000 32) (e : Fin 300000) : colE v (ix2 e (0 : Fin 1)) = v (ix1 e) := by
  show broadcastInDim S300000x1 ![0] bcast_S300000_S300000x1_0 v (ix2 e (0 : Fin 1)) = v (ix1 e)
  simp only [broadcastInDim]
  congr 1
  funext a
  have ha : a = 0 := Subsingleton.elim _ _
  subst ha
  apply Fin.ext
  split
  · next h1 => change 300000 = 1 at h1; omega
  · rfl

/-- A word below 2³¹ is not negative. -/
private theorem slt_zero_false (k : BitVec 32) (hk : k.toNat < 2 ^ 31) : k.slt 0#32 = false := by
  have h := toInt_eq_toNat_of_lt hk
  have h0 : (0#32 : BitVec 32).toInt = 0 := by decide
  simp only [BitVec.slt, h, h0, decide_eq_false_iff_not]
  omega

/-- Clipping a non-negative word below at 0 and wrapping a negative one by n both leave it as it is. -/
private theorem wrap_clip_eq (n k : BitVec 32) (hk : k.toNat < 2 ^ 31) :
    Scalar.select (IntOp.cmpi .slt (IntOp.maxsi 0#32 k) 0#32) (IntOp.addi (IntOp.maxsi 0#32 k) n) (IntOp.maxsi 0#32 k) = k := by
  have hs := slt_zero_false k hk
  have hm : IntOp.maxsi 0#32 k = k := by unfold IntOp.maxsi; rw [hs]; rfl
  rw [hm]
  have hc : IntOp.cmpi .slt k 0#32 = 0#1 := by unfold IntOp.cmpi; simp only [hs]; rfl
  rw [hc]
  exact select_zero _ _

/-- The index word of row e in the count scatter is the row's key. -/
private theorem cntIdx_apply (a4 : IVec S5x300000 1) (e : Fin 300000) :
    colE (wrapE 6#32 (maxsi (splatE 0#32) (KEY a4))) (ix2 e (0 : Fin 1)) = KEY a4 (ix1 e) := by
  rw [colE_apply]
  have hk : (KEY a4 (ix1 e)).toNat < 2 ^ 31 := by have := keyN_lt a4 e; unfold keyN at this; omega
  exact wrap_clip_eq 6#32 (KEY a4 (ix1 e)) hk

/-! ## The scatter of scalars into bins: where an update lands -/

/-- The dimension numbers of a scatter of N scalars into K bins: operand `[K]`, indices `[N, 1]`, updates `[N]`. -/
private abbrev binsDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The start of update j on the one operand axis is the index word of row j, read as a signed integer. -/
private theorem binsDims_start {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (a : Fin 1) :
    (binsDims K N wf).start j idx a = (idx (ix2 (j 0) (0 : Fin 1))).toInt := by
  obtain rfl : a = 0 := Subsingleton.elim _ _
  unfold ScatterDims.start
  rw [dif_pos (show (0 : Fin 1) ∈ (binsDims K N wf).scatterDimsToOperandDims from List.mem_singleton.mpr rfl)]
  have hsi : (binsDims K N wf).siIdx j ⟨List.idxOf (0 : Fin 1) (binsDims K N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The one operand axis is an inserted window axis, so every update's window coordinate on it is 0. -/
private theorem binsDims_window {K N : Nat} (wf : ScatterDims.WF ⟨1, ![K]⟩ ⟨2, ![N, 1]⟩ ⟨1, ![N]⟩ [] [0] [0] 1)
    (j : (⟨1, ![N]⟩ : Shape).Idx) (a : Fin 1) : (binsDims K N wf).window j a = 0 := by
  obtain rfl : a = 0 := Subsingleton.elim _ _
  unfold ScatterDims.window
  rw [dif_neg]
  intro h
  have h2 := (List.mem_filter.1 h).2
  simp at h2

/-- Update j lands on bin b exactly when its index word, read as a signed integer, is b: a word that is negative or
    at least K names no bin, and the update is dropped. -/
private theorem binsDims_resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (b : Fin K) :
    (binsDims K N wf).resultIdx? j idx = some (ix1 b) ↔ (idx (ix2 (j 0) (0 : Fin 1))).toInt = (b.val : Int) := by
  have hb : b.val < K := b.isLt
  unfold ScatterDims.resultIdx?
  split_ifs with h
  · rw [Option.some.injEq]
    constructor
    · intro e
      have e0 := congrArg (fun f => (f 0).val) e
      simp only [binsDims_start, binsDims_window] at e0
      have h0 := h 0
      simp only [binsDims_start, binsDims_window] at h0
      change ((idx (ix2 (j 0) (0 : Fin 1))).toInt + ((0 : Nat) : Int)).toNat = b.val at e0
      omega
    · intro e
      funext a
      obtain rfl : a = 0 := Subsingleton.elim _ _
      refine Fin.ext ?_
      simp only [binsDims_start, binsDims_window]
      change ((idx (ix2 (j 0) (0 : Fin 1))).toInt + ((0 : Nat) : Int)).toNat = b.val
      omega
  · constructor
    · intro e; exact absurd e (by simp)
    · intro e
      exfalso
      apply h
      intro a
      simp only [binsDims_start, binsDims_window]
      obtain rfl : a = 0 := Subsingleton.elim _ _
      change 0 ≤ (idx (ix2 (j 0) (0 : Fin 1))).toInt + ((0 : Nat) : Int) ∧
        (idx (ix2 (j 0) (0 : Fin 1))).toInt + ((0 : Nat) : Int) < (K : Int)
      omega

/-- The count scatter's record is the scatter of 300000 scalars into 6 bins. -/
private theorem cntDims_eq : scatter_S6_S300000x1_S300000_n_0_0_1 = binsDims 6 300000 Facts₀.scatter_S6_S300000x1_S300000_n_0_0_1_wf := rfl

/-! ## A fold of unit steps counts -/

/-- A left fold whose step adds one at bin b exactly for the list members satisfying p, and leaves bin b alone for the
    others, adds at b the number of members satisfying p. -/
private theorem foldl_bins {β : Type} (step : (S6.Idx → BitVec 32) → β → (S6.Idx → BitVec 32)) (p : β → Bool) (b : Fin 6)
    (hstep : ∀ r n, step r n (ix1 b) = if p n = true then r (ix1 b) + 1#32 else r (ix1 b))
    (l : List β) (r : S6.Idx → BitVec 32) :
    l.foldl step r (ix1 b) = r (ix1 b) + BitVec.ofNat 32 (l.countP p) := by
  induction l generalizing r with
  | nil => simp
  | cons n l ih =>
    rw [List.foldl_cons, ih, hstep, List.countP_cons]
    by_cases h : p n = true
    · rw [if_pos h, if_pos h, BitVec.ofNat_add, BitVec.add_assoc, BitVec.add_comm (BitVec.ofNat 32 _) (BitVec.ofNat 32 1)]
    · rw [if_neg h, if_neg h, Nat.add_zero]

/-- Counting the members of the list of all numbers below n is counting in the finite type. -/
private theorem countP_finRange_eq_card (n : ℕ) (p : Fin n → Bool) :
    (List.finRange n).countP p = (Finset.univ.filter fun i => p i = true).card := by
  rw [Fin.univ_def, List.countP_eq_length_filter]
  simp only [Finset.card, Finset.filter, Multiset.filter_coe, Multiset.coe_card, Bool.decide_eq_true]

/-- The count scatter at bin g is the number of update positions whose row has key g, as a word. -/
private theorem CNT_eq_countP (a4 : IVec S5x300000 1) (g : Fin 6) :
    CNT a4 (ix1 g) = BitVec.ofNat 32 ((List.finRange S300000.numel).countP
      fun n => decide ((KEY a4 (S300000.rowMajor.symm n)).toNat = g.val)) := by
  unfold CNT Host.scatter
  refine (foldl_bins _ (fun n => decide ((KEY a4 (S300000.rowMajor.symm n)).toNat = g.val)) g ?_ _ _).trans ?_
  · intro r n
    generalize S300000.rowMajor.symm n = j
    obtain ⟨e, rfl⟩ : ∃ e : Fin 300000, j = ix1 e := ⟨j 0, eq_ix1 j⟩
    have hkey : colE (wrapE 6#32 (maxsi (splatE 0#32) (KEY a4))) (ix2 ((ix1 e : S300000.Idx) 0) (0 : Fin 1)) = KEY a4 (ix1 e) :=
      cntIdx_apply a4 e
    have hlt : (KEY a4 (ix1 e)).toNat < 2 ^ 31 := by
      have := keyN_lt a4 e; unfold keyN at this; omega
    have hiff : scatter_S6_S300000x1_S300000_n_0_0_1.resultIdx? (ix1 e) (colE (wrapE 6#32 (maxsi (splatE 0#32) (KEY a4)))) = some (ix1 g)
        ↔ (KEY a4 (ix1 e)).toNat = g.val := by
      rw [cntDims_eq]
      refine (binsDims_resultIdx?_eq_some_iff _ _ (ix1 e) g).trans ?_
      rw [hkey, toInt_eq_toNat_of_lt hlt]
      exact Int.natCast_inj
    simp only [decide_eq_true_eq]
    by_cases hP : (KEY a4 (ix1 e)).toNat = g.val
    · rw [if_pos hP, hiff.2 hP]
      show (if ix1 g = ix1 g then _ else _) = _
      rw [if_pos rfl]
      rfl
    · rw [if_neg hP]
      generalize scatter_S6_S300000x1_S300000_n_0_0_1.resultIdx? (ix1 e) (colE (wrapE 6#32 (maxsi (splatE 0#32) (KEY a4)))) = o at hiff
      cases o with
      | none => rfl
      | some i =>
        show (if ix1 g = i then _ else _) = _
        rw [if_neg]
        intro hi
        subst hi
        exact hP (hiff.1 rfl)
  · show 0#32 + _ = _
    rw [BitVec.zero_add]

/-- The update positions whose row has key g are as many as the rows of key g. -/
private theorem card_positions_eq_cnt (a4 : IVec S5x300000 1) (g : ℕ) :
    (Finset.univ.filter fun n : Fin S300000.numel => decide ((KEY a4 (S300000.rowMajor.symm n)).toNat = g) = true).card
      = Routing.cnt (keyN a4) g := by
  unfold Routing.cnt
  refine Finset.card_equiv (S300000.rowMajor.symm.trans idxEquiv1) fun n => ?_
  simp only [Finset.mem_filter, Finset.mem_univ, true_and, decide_eq_true_eq]
  exact iff_of_eq (congrArg (fun j => (KEY a4 j).toNat = g) (eq_ix1 (S300000.rowMajor.symm n)))

/-- A group has at most 300000 rows. -/
private theorem cnt_le (a4 : IVec S5x300000 1) (g : ℕ) : Routing.cnt (keyN a4) g ≤ 300000 := by
  unfold Routing.cnt
  refine (Finset.card_filter_le _ _).trans ?_
  rw [Finset.card_univ, Fintype.card_fin]

/-- The count of group g, as a word. -/
private theorem CNT_eq (a4 : IVec S5x300000 1) (g : Fin 6) : CNT a4 (ix1 g) = BitVec.ofNat 32 (Routing.cnt (keyN a4) g.val) := by
  rw [CNT_eq_countP, countP_finRange_eq_card, card_positions_eq_cnt]

/-- The count of group g is the number of rows of key g. -/
theorem CNT_toNat (a4 : IVec S5x300000 1) (g : Fin 6) : (CNT a4 (ix1 g)).toNat = Routing.cnt (keyN a4) g.val := by
  rw [CNT_eq, BitVec.toNat_ofNat]
  have := cnt_le a4 g.val
  exact Nat.mod_eq_of_lt (by omega)

/-! ## Rounding a count up to a multiple of 4096 -/

/-- Signed division of a word below 2³¹ by 4096 meets no corner and is the plain quotient. -/
private theorem divsi_4096 (x : BitVec 32) (hx : x.toNat < 2 ^ 31) : (IntOp.divsi .host x 4096#32).toNat = x.toNat / 4096 := by
  have hcorner : ¬ IntOp.SDivCorner x 4096#32 := by
    intro hc; rcases hc with hc | ⟨_, hc⟩ <;> exact absurd hc (by decide)
  have hm : x.msb = false := BitVec.msb_eq_false_iff_two_mul_lt.mpr (by omega)
  simp only [IntOp.divsi, if_neg hcorner, BitVec.sdiv_eq, hm, show (4096#32 : BitVec 32).msb = false from by decide, BitVec.udiv_eq,
    BitVec.toNat_udiv, BitVec.toNat_ofNat]

/-- The sign word of a positive word below 2³¹ is 1. -/
private theorem signi_pos (x : IVec S6 32) (g : S6.Idx) (h0 : 0 < (x g).toNat) (hx : (x g).toNat < 2 ^ 31) : signi x g = 1#32 := by
  have hne : ¬ x g = 0 := by intro h; rw [h] at h0; exact absurd h0 (by decide)
  have hm : (x g).msb = false := BitVec.msb_eq_false_iff_two_mul_lt.mpr (by omega)
  unfold signi
  simp only [if_neg hne, hm]
  rfl

/-- On a positive word below 2³¹ the floor division by 4096 is the signed division: dividend and divisor have the
    same sign, so no correction is made. -/
private theorem floorDiv_apply_pos (x : IVec S6 32) (g : S6.Idx) (h0 : 0 < (x g).toNat) (hx : (x g).toNat < 2 ^ 31) :
    floorDiv x g = IntOp.divsi .host (x g) 4096#32 := by
  have hs1 := signi_pos x g h0 hx
  have hs2 : broadcastInDim S6 ![] bcast_S_S6 (signi (constantI S_ 32 4096#32)) g = 1#32 := by
    show signi (constantI S_ 32 4096#32) _ = 1#32
    unfold signi
    show (if (4096#32 : BitVec 32) = 0 then (0 : BitVec 32) else if (4096#32 : BitVec 32).msb then -1 else 1) = 1#32
    decide
  unfold floorDiv
  show Scalar.select (IntOp.andi (IntOp.cmpi .ne (signi x g) (broadcastInDim S6 ![] bcast_S_S6 (signi (constantI S_ 32 4096#32)) g))
      (IntOp.cmpi .ne (Host.remsi x (splat6 4096#32) g) (splat6 0#32 g))) _ _ = _
  rw [hs1, hs2]
  have hne : IntOp.cmpi .ne (1#32) (1#32) = 0#1 := by decide
  have hand : ∀ y : BitVec 1, IntOp.andi 0#1 y = 0#1 := by intro y; unfold IntOp.andi; exact BitVec.zero_and
  rw [hne, hand, select_zero]
  rfl

/-- The padded count is the count rounded up to a multiple of 4096. -/
theorem PC_toNat (a4 : IVec S5x300000 1) (g : Fin 6) : (PC a4 (ix1 g)).toNat = Routing.pcnt 4096 (keyN a4) g.val := by
  have hle := cnt_le a4 g.val
  have hx : subi (addi (CNT a4) (splat6 4096#32)) (splat6 1#32) (ix1 g) = BitVec.ofNat 32 (Routing.cnt (keyN a4) g.val + 4095) := by
    show CNT a4 (ix1 g) + 4096#32 - 1#32 = _
    rw [CNT_eq]
    apply BitVec.eq_of_toNat_eq
    simp only [BitVec.toNat_sub, BitVec.toNat_add, BitVec.toNat_ofNat]
    omega
  have hxn : (subi (addi (CNT a4) (splat6 4096#32)) (splat6 1#32) (ix1 g)).toNat = Routing.cnt (keyN a4) g.val + 4095 := by
    rw [hx, BitVec.toNat_ofNat]; exact Nat.mod_eq_of_lt (by omega)
  unfold PC
  show (floorDiv (subi (addi (CNT a4) (splat6 4096#32)) (splat6 1#32)) (ix1 g) * 4096#32).toNat = _
  rw [floorDiv_apply_pos _ (ix1 g) (by omega) (by omega), BitVec.toNat_mul, divsi_4096 _ (by omega), hxn]
  unfold Routing.pcnt
  show (Routing.cnt (keyN a4) g.val + 4095) / 4096 * 4096 % 2 ^ 32 = (Routing.cnt (keyN a4) g.val + (4096 - 1)) / 4096 * 4096
  have := Nat.div_mul_le_self (Routing.cnt (keyN a4) g.val + 4095) 4096
  exact Nat.mod_eq_of_lt (by omega)

/-! ## The running sums -/

/-- A left fold of word addition that does not wrap adds the values. -/
private theorem toNat_foldl_addi {β : Type} (t : β → BitVec 32) (F : β → ℕ) (ht : ∀ n, (t n).toNat = F n) (l : List β) (r : BitVec 32)
    (h : r.toNat + (l.map F).sum < 2 ^ 32) :
    (l.foldl (fun r n => IntOp.addi r (t n)) r).toNat = r.toNat + (l.map F).sum := by
  induction l generalizing r with
  | nil => simp
  | cons n l ih =>
    rw [List.map_cons, List.sum_cons] at h ⊢
    rw [List.foldl_cons]
    have hr : (IntOp.addi r (t n)).toNat = r.toNat + F n := by
      show (r + t n).toNat = _
      rw [BitVec.toNat_add, ht]; exact Nat.mod_eq_of_lt (by omega)
    rw [ih _ (by rw [hr]; omega), hr]; omega

/-- The value of a vector over the 6 groups at position h, zero past the end. -/
private def valN (x : IVec S6 32) (h : ℕ) : ℕ := if hh : h < 6 then (x (ix1 ⟨h, hh⟩)).toNat else 0

/-- The window of 6 ending at g, zeros before the first entry, holds the entries 0, …, g. -/
private theorem window_sum (f : ℕ → ℕ) (g : Fin 6) :
    (∑ k : Fin 6, if 5 ≤ g.val + k.val then f (g.val + k.val - 5) else 0) = ∑ h ∈ Finset.range (g.val + 1), f h := by
  rw [Fin.sum_univ_six]
  obtain ⟨g, hg⟩ := g
  interval_cases g <;> simp [Finset.sum_range_succ]

/-- The inclusive running sum at g is the sum of the entries 0, …, g, when the whole sum does not wrap. -/
private theorem cumsum_toNat (x : IVec S6 32) (hsum : ∑ h ∈ Finset.range 6, valN x h < 2 ^ 32) (g : Fin 6) :
    (cumsum x (ix1 g)).toNat = ∑ h ∈ Finset.range (g.val + 1), valN x h := by
  have hS : ((List.finRange (Shape.numel ⟨1, ![6]⟩)).map fun n : Fin (Shape.numel ⟨1, ![6]⟩) =>
        if 5 ≤ g.val + (((⟨1, ![6]⟩ : Shape).rowMajor.symm n) 0).val then valN x (g.val + (((⟨1, ![6]⟩ : Shape).rowMajor.symm n) 0).val - 5) else 0).sum
      = ∑ h ∈ Finset.range (g.val + 1), valN x h := by
    rw [← Fin.sum_univ_def, ← window_sum]
    exact Equiv.sum_comp (((⟨1, ![6]⟩ : Shape).rowMajor.symm).trans idxEquiv1)
      (fun k : Fin 6 => if 5 ≤ g.val + k.val then valN x (g.val + k.val - 5) else 0)
  have hmono : ∑ h ∈ Finset.range (g.val + 1), valN x h ≤ ∑ h ∈ Finset.range 6, valN x h :=
    Finset.sum_le_sum_of_subset (Finset.range_subset_range.2 (by omega))
  unfold cumsum Host.reduceWindow
  refine (toNat_foldl_addi _ _ ?_ _ _ (by rw [hS]; show 0 + _ < _; omega)).trans (by rw [hS]; exact Nat.zero_add _)
  intro n
  have hk6 : ((({ rank := 1, size := ![6] } : Shape).rowMajor.symm n) 0).val < 6 :=
    ((({ rank := 1, size := ![6] } : Shape).rowMajor.symm n) 0).isLt
  set k : ℕ := ((({ rank := 1, size := ![6] } : Shape).rowMajor.symm n) 0).val with hk
  have hg6 : g.val < 6 := g.isLt
  by_cases h5 : 5 ≤ g.val + k
  · rw [dif_pos, if_pos h5]
    · unfold valN
      rw [dif_pos (show g.val + k - 5 < 6 by omega)]
      refine congrArg (fun j => (x j).toNat) ?_
      funext a
      obtain rfl : a = 0 := Subsingleton.elim _ _
      apply Fin.ext
      show g.val * 1 + k - 5 = g.val + k - 5
      omega
    · intro a
      obtain rfl : a = 0 := Subsingleton.elim _ _
      show 5 ≤ g.val * 1 + k ∧ g.val * 1 + k - 5 < 6
      omega
  · rw [dif_neg, if_neg h5]
    · rfl
    · intro hin
      have h0 : 5 ≤ g.val * 1 + k ∧ g.val * 1 + k - 5 < 6 := hin 0
      omega

/-- The inclusive running sum less the entry itself is the sum of the entries before it. -/
private theorem exclusive_toNat (x : IVec S6 32) (f : ℕ → ℕ) (hx : ∀ h : Fin 6, (x (ix1 h)).toNat = f h.val)
    (hsum : ∑ h ∈ Finset.range 6, f h < 2 ^ 32) (g : Fin 6) :
    (subi (cumsum x) x (ix1 g)).toNat = ∑ h ∈ Finset.range g.val, f h := by
  have hval : ∀ h, h < 6 → valN x h = f h := by
    intro h hh; unfold valN; rw [dif_pos hh]; exact hx ⟨h, hh⟩
  have hs6 : ∑ h ∈ Finset.range 6, valN x h = ∑ h ∈ Finset.range 6, f h :=
    Finset.sum_congr rfl fun h hh => hval h (Finset.mem_range.1 hh)
  have hc := cumsum_toNat x (by rw [hs6]; exact hsum) g
  have hsg : ∑ h ∈ Finset.range (g.val + 1), valN x h = ∑ h ∈ Finset.range (g.val + 1), f h :=
    Finset.sum_congr rfl fun h hh => hval h (by have := Finset.mem_range.1 hh; omega)
  have hle : ∑ h ∈ Finset.range (g.val + 1), f h ≤ ∑ h ∈ Finset.range 6, f h :=
    Finset.sum_le_sum_of_subset (Finset.range_subset_range.2 (by omega))
  rw [hsg, Finset.sum_range_succ] at hc
  rw [Finset.sum_range_succ] at hle
  show (cumsum x (ix1 g) - x (ix1 g)).toNat = _
  rw [BitVec.toNat_sub, hc, hx g]
  omega

/-- Where group g starts among the sorted rows. -/
theorem GSS_toNat (a4 : IVec S5x300000 1) (g : Fin 6) : (GSS a4 (ix1 g)).toNat = Routing.below (keyN a4) g.val := by
  have hsum : ∑ h ∈ Finset.range 6, Routing.cnt (keyN a4) h < 2 ^ 32 := by
    have h := Routing.sum_cnt (keyN a4) 6 (keyN_lt a4)
    unfold Routing.below at h
    rw [h]; decide
  exact exclusive_toNat (CNT a4) (Routing.cnt (keyN a4)) (CNT_toNat a4) hsum g

/-- Where group g starts in the padded buffer. -/
theorem GSP_toNat (a4 : IVec S5x300000 1) (g : Fin 6) : (GSP a4 (ix1 g)).toNat = Routing.pbelow 4096 (keyN a4) g.val := by
  have hsum : ∑ h ∈ Finset.range 6, Routing.pcnt 4096 (keyN a4) h < 2 ^ 32 := by
    have h := Routing.pbelow_le 4096 (by decide) (keyN a4) 6 (keyN_lt a4)
    unfold Routing.pbelow at h
    omega
  exact exclusive_toNat (PC a4) (Routing.pcnt 4096 (keyN a4)) (PC_toNat a4) hsum g

end Cert.KernelIdeal.Moe

end
-- ==== Proof.LibScatterLast.lean ====
/-
  A scatter whose body returns the update ("set") reads back, at a result index, the LAST update that lands there:
  the host scatter folds the update indices in row-major order, each landing update overwriting the element.
-/
import Idealize.ShloMosaic.PureOps
import Mathlib.Data.List.Sort

namespace Idealize.ShloMosaic

/-- Folding the scatter step over a list none of whose update numbers lands on i leaves the element at i unchanged. -/
private theorem scatter_foldl_apply_of_none {α : Type} {s si u : Shape} {w : Nat} (d : ScatterDims s si u) (f : α → α → α)
    (idx : IVec si w) (upd : u.Idx → α) (i : s.Idx) :
    ∀ (l : List (Fin u.numel)) (r : s.Idx → α), (∀ n ∈ l, d.resultIdx? (u.rowMajor.symm n) idx ≠ some i) →
      (l.foldl (fun r n =>
        match d.resultIdx? (u.rowMajor.symm n) idx with
        | some i => fun i' => if i' = i then f (r i) (upd (u.rowMajor.symm n)) else r i'
        | none => r) r) i = r i := by
  intro l
  induction l with
  | nil => intro r _; rfl
  | cons n t ih =>
    intro r h
    rw [List.foldl_cons, ih _ (fun m hm => h m (List.mem_cons_of_mem _ hm))]
    have hn := h n (List.mem_cons_self ..)
    revert hn
    cases d.resultIdx? (u.rowMajor.symm n) idx with
    | none => intro _; rfl
    | some j =>
      intro hn
      have hij : i ≠ j := fun e => hn (by rw [e])
      simp only [if_neg hij]

/-- If update number n₀ (row-major) lands on result index i and no later update does, a set-scatter leaves that
    update's value at i. -/
theorem Host.scatter_set_apply_of_last {α : Type} {s si u : Shape} {w : Nat} (d : ScatterDims s si u) (x : s.Idx → α)
    (idx : IVec si w) (upd : u.Idx → α) (i : s.Idx) (n₀ : Fin u.numel)
    (h₀ : d.resultIdx? (u.rowMajor.symm n₀) idx = some i)
    (hlast : ∀ n : Fin u.numel, n₀ < n → d.resultIdx? (u.rowMajor.symm n) idx ≠ some i) :
    Host.scatter d (fun _ b => b) x idx upd i = upd (u.rowMajor.symm n₀) := by
  unfold Host.scatter
  -- the row-major list of update numbers is strictly increasing; cut it at n₀
  have hpw : (List.finRange u.numel).Pairwise (· < ·) := (List.sortedLT_finRange _).pairwise
  obtain ⟨a, t, hl⟩ := List.append_of_mem (List.mem_finRange n₀)
  rw [hl] at hpw ⊢
  have ht : ∀ n ∈ t, n₀ < n := (List.pairwise_cons.1 (List.pairwise_append.1 hpw).2.1).1
  rw [List.foldl_append, List.foldl_cons]
  -- every update after n₀ misses i, so the element written at step n₀ survives
  refine (scatter_foldl_apply_of_none d (fun _ b => b) idx upd i t _ (fun n hn => hlast n (ht n hn))).trans ?_
  rw [h₀]
  exact if_pos rfl

/-- If no update lands on result index i, a scatter leaves the operand's element there. -/
theorem Host.scatter_apply_of_none {α : Type} {s si u : Shape} {w : Nat} (d : ScatterDims s si u) (f : α → α → α) (x : s.Idx → α)
    (idx : IVec si w) (upd : u.Idx → α) (i : s.Idx)
    (hnone : ∀ n : Fin u.numel, d.resultIdx? (u.rowMajor.symm n) idx ≠ some i) :
    Host.scatter d f x idx upd i = x i :=
  scatter_foldl_apply_of_none d f idx upd i _ x (fun n _ => hnone n)

end Idealize.ShloMosaic
-- ==== Proof.Dest.lean ====
/-
  The padded position of a sorted row, and what a scatter along those positions leaves.

  The position of sorted row j is its group's padded start plus its rank inside its group; as a number it is
  `Routing.dest`, below 327680. The positions being pairwise distinct, a scatter of a vector along them (each update
  replacing the element) leaves update j at position dest j and the fill value at every position no row is sent to.
  The group of tile t is the padded group at the tile's first position.
-/
import proofs.«424633_j22737556865606_4_alg».proof.Proof.HostDefs
import proofs.«424633_j22737556865606_4_alg».proof.Proof.Routing
import proofs.«424633_j22737556865606_4_alg».proof.Proof.KeySort
import proofs.«424633_j22737556865606_4_alg».proof.Proof.Counts
import proofs.«424633_j22737556865606_4_alg».proof.Proof.LibScatterLast
import Idealize.ShloMosaic.Lib.ValueIdx
import Idealize.ShloMosaic.Lib.StableHlo.Predicate

noncomputable section

namespace Cert.KernelIdeal.Moe

open Cert.KernelIdeal Cert.KernelIdeal.Gen Idealize.ShloMosaic Idealize.ShloMosaic.ValueIdx Cert.Moe

/-- The padded position of sorted row j, as a number. -/
abbrev destN (a4 : IVec S5x300000 1) (j : Fin 300000) : ℕ := Routing.dest 4096 (keyN a4) (sigma a4) j

/-- 300000 rows and 6 groups, each padded by less than 4096: every position is below 300000 + 6 · 4095 + 1. -/
theorem destN_lt (a4 : IVec S5x300000 1) (j : Fin 300000) : destN a4 j < 327680 := by
  have h := Routing.dest_lt 4096 (by norm_num) (keyN a4) 6 (keyN_lt a4) (sigma a4) (sigma_mono a4) j
  show Routing.dest 4096 (keyN a4) (sigma a4) j < 327680
  omega

theorem destN_injective (a4 : IVec S5x300000 1) : Function.Injective (destN a4) :=
  Routing.dest_injective 4096 (by norm_num) (keyN a4) (sigma a4) (sigma_mono a4)

/-! ### Reading the index columns at a row -/

/-- The two spellings of the rank-1 index at a coordinate. -/
private theorem ix1_eq_ofFin {n : Nat} (p : Fin n) : (ix1 p : (⟨1, ![n]⟩ : Shape).Idx) = Shape.Idx.ofFin p := by
  funext d; match d with | ⟨0, _⟩ => rfl

/-- The two spellings of row p of a column. -/
private theorem ixP_eq_ix2 {n : Nat} (p : Fin n) : (StableHlo.Predicate.ixP p) = ix2 p (0 : Fin 1) := by
  funext d; match d with | ⟨0, _⟩ => rfl | ⟨1, _⟩ => rfl

/-- A repeated word reads that word at every row, and at every padded position. -/
private theorem splatE_apply (k : BitVec 32) (i : S300000.Idx) : splatE k i = k := rfl
private theorem splatP_apply (k : BitVec 32) (i : S327680.Idx) : splatP k i = k := rfl

/-- A vector made a column reads, at row j, the vector at j. -/
private theorem colE_apply (v : IVec S300000 32) (j : Fin 300000) : colE v (ix2 j (0 : Fin 1)) = v (ix1 j) := by
  rw [← ixP_eq_ix2, ix1_eq_ofFin]
  exact StableHlo.Predicate.bcast_col1 _ v j

/-- Wrapping by the extent changes no word that is not negative. -/
private theorem wrapE_apply_of_lt (n : BitVec 32) (v : IVec S300000 32) (j : Fin 300000) (h : (v (ix1 j)).toNat < 2 ^ 31) :
    wrapE n v (ix1 j) = v (ix1 j) := by
  show Scalar.select (IntOp.cmpi .slt (v (ix1 j)) (splatE 0#32 (ix1 j))) _ (v (ix1 j)) = v (ix1 j)
  rw [splatE_apply]
  have hc : ¬ IntOp.cmpi .slt (v (ix1 j)) 0#32 = 1#1 := by
    rw [StableHlo.Predicate.slt_iff_toNat h (by decide)]
    simp
  rw [eq_zero_of_ne_one hc, select_zero]

/-- A take from a table of 6 at a column of words that are group numbers reads the table at the group. -/
private theorem gather6_apply (x : IVec S6 32) (v : IVec S300000 32) (j : Fin 300000) (g : Fin 6) (hv : (v (ix1 j)).toNat = g.val) :
    Host.gather gather_S6_S300000x1_S300000_n_0_n_n_0_1_1 x (colE (wrapE 6#32 v)) (ix1 j) = x (ix1 g) := by
  have hg := g.isLt
  have hlt : (v (ix1 j)).toNat < 2 ^ 31 := by omega
  have hw : colE (wrapE 6#32 v) (StableHlo.Predicate.ixP j) = v (ix1 j) := by
    rw [ixP_eq_ix2, colE_apply, wrapE_apply_of_lt _ _ _ hlt]
  rw [ix1_eq_ofFin, ix1_eq_ofFin]
  refine (StableHlo.Predicate.gather_take gather_S6_S300000x1_S300000_n_0_n_n_0_1_1 rfl rfl rfl rfl x _ j (by norm_num)).trans ?_
  refine congrArg (fun k => x (Shape.Idx.ofFin k)) (Fin.ext ?_)
  show min (colE (wrapE 6#32 v) (StableHlo.Predicate.ixP j)).toInt.toNat (6 - 1) = g.val
  rw [hw, StableHlo.Predicate.toInt_eq_toNat_of_lt hlt, hv]
  simp only [Int.toNat_natCast]
  omega

theorem DEST_toNat (a4 : IVec S5x300000 1) (j : Fin 300000) : (DEST a4 (ix1 j)).toNat = destN a4 j := by
  have hk : (SK a4 (ix1 j)).toNat = (⟨keyN a4 (sigma a4 j), keyN_lt a4 _⟩ : Fin 6).val := by
    rw [SK_apply]; rfl
  have hP : (GSP a4 (ix1 (⟨keyN a4 (sigma a4 j), keyN_lt a4 _⟩ : Fin 6))).toNat = Routing.pbelow 4096 (keyN a4) (keyN a4 (sigma a4 j)) :=
    GSP_toNat a4 ⟨keyN a4 (sigma a4 j), keyN_lt a4 _⟩
  have hB : (GSS a4 (ix1 (⟨keyN a4 (sigma a4 j), keyN_lt a4 _⟩ : Fin 6))).toNat = Routing.below (keyN a4) (keyN a4 (sigma a4 j)) :=
    GSS_toNat a4 ⟨keyN a4 (sigma a4 j), keyN_lt a4 _⟩
  have hle := Routing.below_le (keyN a4) (sigma a4) (sigma_mono a4) j
  have hd : Routing.dest 4096 (keyN a4) (sigma a4) j < 327680 := destN_lt a4 j
  have hj := j.isLt
  show (IntOp.addi (Host.gather gather_S6_S300000x1_S300000_n_0_n_n_0_1_1 (GSP a4) (colE (wrapE 6#32 (SK a4))) (ix1 j))
    (IntOp.subi (BitVec.ofNat 32 j.val)
      (Host.gather gather_S6_S300000x1_S300000_n_0_n_n_0_1_1 (GSS a4) (colE (wrapE 6#32 (SK a4))) (ix1 j)))).toNat = _
  rw [gather6_apply _ _ j _ hk, gather6_apply _ _ j _ hk]
  show (GSP a4 (ix1 _) + (BitVec.ofNat 32 j.val - GSS a4 (ix1 _))).toNat = Routing.dest 4096 (keyN a4) (sigma a4) j
  unfold Routing.dest
  rw [BitVec.toNat_add, BitVec.toNat_sub, BitVec.toNat_ofNat, hP, hB]
  unfold Routing.dest at hd
  omega

/-! ### A scatter of one word per update along a column of positions -/

/-- The dimension numbers of a scatter of N scalars into K places: operand [K], indices [N, 1], updates [N]. -/
private abbrev binsDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The start of update j on the one operand axis is the index word of row j, read signed. -/
private theorem binsDims_start {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (a : Fin 1) :
    (binsDims K N wf).start j idx a = (idx (ix2 (j 0) (0 : Fin 1))).toInt := by
  obtain rfl : a = 0 := Subsingleton.elim _ _
  unfold ScatterDims.start
  rw [dif_pos (show (0 : Fin 1) ∈ (binsDims K N wf).scatterDimsToOperandDims from List.mem_singleton.mpr rfl)]
  have hsi : (binsDims K N wf).siIdx j ⟨List.idxOf (0 : Fin 1) (binsDims K N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The one operand axis is inserted, so every update's window coordinate on it is 0. -/
private theorem binsDims_window {K N : Nat} (wf : ScatterDims.WF ⟨1, ![K]⟩ ⟨2, ![N, 1]⟩ ⟨1, ![N]⟩ [] [0] [0] 1)
    (j : (⟨1, ![N]⟩ : Shape).Idx) (a : Fin 1) : (binsDims K N wf).window j a = 0 := by
  obtain rfl : a = 0 := Subsingleton.elim _ _
  unfold ScatterDims.window
  rw [dif_neg]
  intro h
  have h2 := (List.mem_filter.1 h).2
  simp at h2

/-- Update j lands on place b exactly when its index word, read signed, is b. -/
private theorem binsDims_resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (b : Fin K) :
    (binsDims K N wf).resultIdx? j idx = some (ix1 b) ↔ (idx (ix2 (j 0) (0 : Fin 1))).toInt = (b.val : Int) := by
  have hb : b.val < K := b.isLt
  unfold ScatterDims.resultIdx?
  split_ifs with h
  · rw [Option.some.injEq]
    constructor
    · intro e
      have e0 := congrArg (fun f => (f 0).val) e
      simp only [binsDims_start, binsDims_window] at e0
      have h0 := h 0
      simp only [binsDims_start, binsDims_window] at h0
      change ((idx (ix2 (j 0) (0 : Fin 1))).toInt + ((0 : Nat) : Int)).toNat = b.val at e0
      omega
    · intro e
      funext a
      obtain rfl : a = 0 := Subsingleton.elim _ _
      refine Fin.ext ?_
      simp only [binsDims_start, binsDims_window]
      change ((idx (ix2 (j 0) (0 : Fin 1))).toInt + ((0 : Nat) : Int)).toNat = b.val
      omega
  · constructor
    · intro e; exact absurd e (by simp)
    · intro e
      exfalso
      apply h
      intro a
      simp only [binsDims_start, binsDims_window]
      obtain rfl : a = 0 := Subsingleton.elim _ _
      change 0 ≤ (idx (ix2 (j 0) (0 : Fin 1))).toInt + ((0 : Nat) : Int) ∧
        (idx (ix2 (j 0) (0 : Fin 1))).toInt + ((0 : Nat) : Int) < (K : Int)
      omega

private theorem numel_S300000 : S300000.numel = 300000 := Shape.numel_rank1 _

/-- The n-th update index in row-major order is row n. -/
private theorem rowMajor_symm_S300000 (n : Fin S300000.numel) :
    S300000.rowMajor.symm n = ix1 (⟨n.val, numel_S300000 ▸ n.isLt⟩ : Fin 300000) := by
  apply S300000.rowMajor.injective
  rw [Equiv.apply_symm_apply]
  apply Fin.ext
  rw [Shape.rowMajor_val_one]

/-- The word of row j' of the index column is the padded position of sorted row j'. -/
private theorem destCol_toInt (a4 : IVec S5x300000 1) (j : Fin 300000) :
    (colE (wrapE 327680#32 (DEST a4)) (ix2 j (0 : Fin 1))).toInt = (destN a4 j : Int) := by
  have hd := destN_lt a4 j
  have ht := DEST_toNat a4 j
  have hlt : (DEST a4 (ix1 j)).toNat < 2 ^ 31 := by omega
  rw [colE_apply, wrapE_apply_of_lt _ _ _ hlt, StableHlo.Predicate.toInt_eq_toNat_of_lt hlt, ht]

/-- Update n lands on position q exactly when the padded position of sorted row n is q. -/
private theorem lands_iff (a4 : IVec S5x300000 1) (n : Fin S300000.numel) (q : Fin 327680) :
    scatter_S327680_S300000x1_S300000_n_0_0_1.resultIdx? (S300000.rowMajor.symm n) (colE (wrapE 327680#32 (DEST a4))) = some (ix1 q)
      ↔ destN a4 ⟨n.val, numel_S300000 ▸ n.isLt⟩ = q.val := by
  rw [rowMajor_symm_S300000]
  refine (binsDims_resultIdx?_eq_some_iff scatter_S327680_S300000x1_S300000_n_0_0_1.wf _ _ q).trans ?_
  show (colE (wrapE 327680#32 (DEST a4)) (ix2 (⟨n.val, _⟩ : Fin 300000) (0 : Fin 1))).toInt = _ ↔ _
  rw [destCol_toInt]
  exact Int.ofNat_inj

/-- A scatter along the padded positions leaves update j at the position of sorted row j … -/
theorem scatterDest_at (x : BitVec 32) (upd : IVec S300000 32) (a4 : IVec S5x300000 1) (j : Fin 300000) :
    Host.scatter scatter_S327680_S300000x1_S300000_n_0_0_1 (fun _ b => b) (splatP x) (colE (wrapE 327680#32 (DEST a4))) upd
      (ix1 (⟨destN a4 j, destN_lt a4 j⟩ : Fin 327680)) = upd (ix1 j) := by
  have hn : j.val < S300000.numel := by rw [numel_S300000]; exact j.isLt
  refine (Host.scatter_set_apply_of_last scatter_S327680_S300000x1_S300000_n_0_0_1 (splatP x) (colE (wrapE 327680#32 (DEST a4))) upd
    (ix1 (⟨destN a4 j, destN_lt a4 j⟩ : Fin 327680)) ⟨j.val, hn⟩ ?_ ?_).trans ?_
  · exact (lands_iff a4 ⟨j.val, hn⟩ ⟨destN a4 j, destN_lt a4 j⟩).2 rfl
  · intro n hlt he
    have e := (lands_iff a4 n ⟨destN a4 j, destN_lt a4 j⟩).1 he
    have e' := congrArg Fin.val (destN_injective a4 e)
    have hlt' : j.val < n.val := hlt
    exact absurd e' (by show ¬ n.val = j.val; omega)
  · rw [rowMajor_symm_S300000]

/-- … and the fill value where no row is sent. -/
theorem scatterDest_off (x : BitVec 32) (upd : IVec S300000 32) (a4 : IVec S5x300000 1) (p : Fin 327680)
    (h : ∀ j : Fin 300000, destN a4 j ≠ p.val) :
    Host.scatter scatter_S327680_S300000x1_S300000_n_0_0_1 (fun _ b => b) (splatP x) (colE (wrapE 327680#32 (DEST a4))) upd
      (ix1 p) = x := by
  refine (Host.scatter_apply_of_none scatter_S327680_S300000x1_S300000_n_0_0_1 (fun _ b => b) (splatP x)
    (colE (wrapE 327680#32 (DEST a4))) upd (ix1 p) ?_).trans (splatP_apply x _)
  intro n he
  exact h _ ((lands_iff a4 n p).1 he)

/-- A reshape read at an index is the operand at the index of the same row-major position. -/
private theorem shapeCast_at {s t : Shape} {α : Type} (x : s.Idx → α) (h : s.ShapeCasts t) (j : t.Idx) (k : s.Idx)
    (hk : (s.rowMajor k).val = (t.rowMajor j).val) : shapeCast t x h j = x k := by
  unfold shapeCast
  exact congrArg x (Shape.reshapeEquiv_eq_of_rowMajor h hk)

/-- The group of tile t is the padded group at position 4096 t. -/
theorem TG_apply (a4 : IVec S5x300000 1) (t : Fin 80) :
    TG a4 (ix1 t) = PGRP a4 (ix1 (⟨t.val * 4096, by have := t.isLt; omega⟩ : Fin 327680)) := by
  unfold TG
  -- the vector of 80 is the column of the 80 × 4096 rectangle's first entries
  refine (shapeCast_at _ shapeCasts_S80x1_S80 (ix1 t) (ix2 t (0 : Fin 1)) ?_).trans ?_
  · rw [Shape.rowMajor_val_two, Shape.rowMajor_val_one]
    show t.val * 1 + 0 = t.val
    omega
  have hs : extractStridedSlice S80x1 ![0, 0] (shapeCast S80x4096 (PGRP a4) shapeCasts_S327680_S80x4096) slices_S80x4096_S80x1_0_0 (ix2 t (0 : Fin 1))
      = shapeCast S80x4096 (PGRP a4) shapeCasts_S327680_S80x4096 (ix2 t (0 : Fin 4096)) := by
    unfold extractStridedSlice
    refine congrArg _ (funext fun a => Fin.ext ?_)
    match a with
    | ⟨0, _⟩ => show 0 + t.val = t.val; omega
    | ⟨1, _⟩ => rfl
  refine hs.trans ?_
  refine shapeCast_at _ shapeCasts_S327680_S80x4096 (ix2 t (0 : Fin 4096)) _ ?_
  rw [Shape.rowMajor_val_two, Shape.rowMajor_val_one]
  show t.val * 4096 = t.val * 4096 + 0
  omega

end Cert.KernelIdeal.Moe

end
-- ==== Proof.Route.lean ====
/-
  What the routing guarantees, row by row.

  Every tile's group is below 6. Every padded position's destination row is at most 300000 (300000 marks padding).
  And each output row e is the destination of EXACTLY ONE padded position p; that position's source row is the row the
  index vector names for e, and the group of the tile that holds p is the key of e.
-/
import proofs.«424633_j22737556865606_4_alg».proof.Proof.HostDefs
import proofs.«424633_j22737556865606_4_alg».proof.Proof.Routing
import proofs.«424633_j22737556865606_4_alg».proof.Proof.KeySort
import proofs.«424633_j22737556865606_4_alg».proof.Proof.Counts
import proofs.«424633_j22737556865606_4_alg».proof.Proof.Dest
import Idealize.ShloMosaic.Lib.ValueIdx

noncomputable section

namespace Cert.KernelIdeal.Moe

open Cert.KernelIdeal Cert.KernelIdeal.Gen Idealize.ShloMosaic Idealize.ShloMosaic.ValueIdx Cert.Moe

/-! ### The three padded arrays at a position: at the position of a sorted row, and where no row is sent -/

private theorem PGRP_at (a4 : IVec S5x300000 1) (j : Fin 300000) :
    PGRP a4 (ix1 (⟨destN a4 j, destN_lt a4 j⟩ : Fin 327680)) = SK a4 (ix1 j) :=
  scatterDest_at 5#32 (SK a4) a4 j

private theorem PGRP_off (a4 : IVec S5x300000 1) (p : Fin 327680) (h : ∀ j : Fin 300000, destN a4 j ≠ p.val) :
    PGRP a4 (ix1 p) = 5#32 :=
  scatterDest_off 5#32 (SK a4) a4 p h

private theorem PDST_at (a4 : IVec S5x300000 1) (j : Fin 300000) :
    PDST a4 (ix1 (⟨destN a4 j, destN_lt a4 j⟩ : Fin 327680)) = PERM a4 (ix1 j) :=
  scatterDest_at 300000#32 (PERM a4) a4 j

private theorem PDST_off (a4 : IVec S5x300000 1) (p : Fin 327680) (h : ∀ j : Fin 300000, destN a4 j ≠ p.val) :
    PDST a4 (ix1 p) = 300000#32 :=
  scatterDest_off 300000#32 (PERM a4) a4 p h

private theorem PIDX_at (a3 : IVec S300000 32) (a4 : IVec S5x300000 1) (j : Fin 300000) :
    PIDX a3 a4 (ix1 (⟨destN a4 j, destN_lt a4 j⟩ : Fin 327680)) = a3 (ix1 (sigma a4 j)) :=
  (scatterDest_at 0#32 _ a4 j).trans (gather_PERM_apply a3 a4 j)

/-- A padded position is the position of a sorted row, or no row is sent there. -/
private theorem pos_cases (a4 : IVec S5x300000 1) (p : Fin 327680) :
    (∃ j : Fin 300000, p = ⟨destN a4 j, destN_lt a4 j⟩) ∨ ∀ j : Fin 300000, destN a4 j ≠ p.val := by
  by_cases h : ∃ j : Fin 300000, destN a4 j = p.val
  · obtain ⟨j, hj⟩ := h
    exact Or.inl ⟨j, Fin.ext hj.symm⟩
  · exact Or.inr fun j hj => h ⟨j, hj⟩

/-- The padded group at any position is below 6: a key, or the fill value 5. -/
private theorem PGRP_lt (a4 : IVec S5x300000 1) (p : Fin 327680) : (PGRP a4 (ix1 p)).toNat < 6 := by
  rcases pos_cases a4 p with ⟨j, rfl⟩ | h
  · rw [PGRP_at, SK_apply]
    exact keyN_lt a4 (sigma a4 j)
  · rw [PGRP_off a4 p h]
    decide

theorem TG_lt (a4 : IVec S5x300000 1) (t : Fin 80) : (TG a4 (ix1 t)).toNat < 6 := by
  rw [TG_apply]
  exact PGRP_lt a4 _

theorem PDST_le (a4 : IVec S5x300000 1) (p : Fin 327680) : (PDST a4 (ix1 p)).toNat ≤ 300000 := by
  rcases pos_cases a4 p with ⟨j, rfl⟩ | h
  · rw [PDST_at, PERM_apply, BitVec.toNat_ofNat]
    have := (sigma a4 j).isLt
    omega
  · rw [PDST_off a4 p h]
    decide

theorem route (a3 : IVec S300000 32) (a4 : IVec S5x300000 1) (e : Fin 300000) :
    ∃ p : Fin 327680, PDST a4 (ix1 p) = BitVec.ofNat 32 e.val
      ∧ (∀ p' : Fin 327680, PDST a4 (ix1 p') = BitVec.ofNat 32 e.val → p' = p)
      ∧ PIDX a3 a4 (ix1 p) = a3 (ix1 e)
      ∧ TG a4 (ix1 (⟨p.val / 4096, by have := p.isLt; omega⟩ : Fin 80)) = KEY a4 (ix1 e) := by
  have he := e.isLt
  -- the sorted row that holds e, and its padded position
  have hσ : sigma a4 ((sigma a4).symm e) = e := (sigma a4).apply_symm_apply e
  refine ⟨⟨destN a4 ((sigma a4).symm e), destN_lt a4 _⟩, ?_, ?_, ?_, ?_⟩
  · rw [PDST_at, PERM_apply, hσ]
  · intro p' hp'
    rcases pos_cases a4 p' with ⟨j', rfl⟩ | h
    · rw [PDST_at, PERM_apply] at hp'
      have hv := congrArg BitVec.toNat hp'
      rw [BitVec.toNat_ofNat, BitVec.toNat_ofNat] at hv
      have hj' := (sigma a4 j').isLt
      have hval : (sigma a4 j').val = e.val := by omega
      have hje : j' = (sigma a4).symm e := by
        rw [← Fin.ext hval, Equiv.symm_apply_apply]
      rw [hje]
    · rw [PDST_off a4 p' h] at hp'
      have hv := congrArg BitVec.toNat hp'
      rw [BitVec.toNat_ofNat, BitVec.toNat_ofNat] at hv
      omega
  · rw [PIDX_at, hσ]
  · -- the tile's first position is the position of a sorted row of the same key
    obtain ⟨j', hd, hk⟩ := Routing.dest_tile 4096 (by norm_num) (keyN a4) (sigma a4) (sigma_mono a4) ((sigma a4).symm e)
    refine (TG_apply a4 _).trans ?_
    refine (congrArg (fun q => PGRP a4 (ix1 q))
      (Fin.ext hd.symm : _ = (⟨destN a4 j', destN_lt a4 j'⟩ : Fin 327680))).trans ?_
    rw [PGRP_at, SK_apply]
    rw [hσ] at hk
    exact BitVec.eq_of_toNat_eq hk

end Cert.KernelIdeal.Moe

end
-- ==== Proof.OkTable.lean ====
/-
  The pipeline's side condition on the prefetched table: every tile's group is below 6, so the weight block and
  the bias block the table names lie inside the six-expert arrays, at every grid point.
-/
import proofs.«424633_j22737556865606_4_alg».proof.Proof.HostTable
import proofs.«424633_j22737556865606_4_alg».proof.Proof.Route

set_option maxRecDepth 16384

noncomputable section

namespace Cert.KernelIdeal.HostV

open Cert.KernelIdeal Cert.KernelIdeal.Gen Cert.KernelIdeal.Moe Idealize.ShloMosaic Idealize.ShloMosaic.TcCoe Idealize.SL.Sem Idealize.ShloMosaic.ValueIdx

variable {F : FTy → Type} [FloatOps F]

/-- For ANY contents of the table whose words are all below 6, both table-indexed windows stay inside their arrays. -/
theorem ok0_of_lt (pf : pre0.Contents (Elt F)) (hl : ∀ x : S80.Idx, (pf 0 x : BitVec 32).toNat < 6) : ok0 (F := F) pf := by
  refine ⟨fun i => ?_, fun i => ?_⟩
  · obtain ⟨w, hw, e⟩ : ∃ w : BitVec 32, w.toNat < 6 ∧ cc0_transform_1 k0_off1_inb numel1_S1 pf i = ![w.toNat, 0, 0] :=
      ⟨_, hl _, rfl⟩
    refine ⟨fun a => ?_, Or.inl rfl⟩
    rw [e]
    fin_cases a <;> simp [S1x256x256, S6x256x256] <;> omega
  · obtain ⟨w, hw, e⟩ : ∃ w : BitVec 32, w.toNat < 6 ∧ cc0_transform_2 k0_off1_inb numel1_S1 pf i = ![w.toNat, 0, 0] :=
      ⟨_, hl _, rfl⟩
    refine ⟨fun a => ?_, Or.inl rfl⟩
    rw [e]
    fin_cases a <;> simp [S1x1x256, S6x1x256] <;> omega

variable (m : (ℓ : Loc nD τ sig) → Buf (Elt F) ℓ)

/-- The table the region reads is the tile groups, all below 6. -/
theorem tbl_lt (x : S80.Idx) : (tbl m 0 x : BitVec 32).toNat < 6 := by
  have e : tbl m 0 = TG (A4 m 0) := V_tileGroup m 0
  rw [e, eq_ix1 x]
  exact TG_lt _ _

/-- The side condition holds of every launch memory: nothing is asked of the inputs. -/
theorem ok : Ok m := ok0_of_lt (tbl m) (tbl_lt m)

end Cert.KernelIdeal.HostV

end
-- ==== Proof.HostTableBits.lean ====
/- The arrays the pallas_call and the lines after it find, as functions of the argument arrays.

  Each buffer of the entry point's host prefix holds the array HostDefs names for it. The keys, the argsort, the
  sorted keys and the counts are read off the whole prefix at once. From the counts on, each array is read ONE LAYER
  at a time: a buffer is the operation that wrote it applied to the buffers it read, so no equation is ever asked
  between a scatter's or a sort's result and a respelling of it. The floor division and the two running sums are
  functions the program calls; each is read over an arbitrary valuation of the buffers, then at the prefix's.
-/
import proofs.«424633_j22737556865606_4_alg».proof.Proof.HostDefs
import proofs.«424633_j22737556865606_4_alg».proof.Proof.Gen.Kernel.Frame

set_option maxRecDepth 16384

noncomputable section

namespace Cert.Kernel.HostV

open Cert.Kernel Cert.Kernel.Gen Cert.KernelIdeal.Moe Idealize.ShloMosaic Idealize.ShloMosaic.TcCoe Idealize.SL.Sem Idealize.ShloMosaic.StableHlo

variable {F : FTy → Type} [FloatOps F]
variable (m : (ℓ : Loc nD τ sig) → Buf (Elt F) ℓ)

/-- The argument arrays as launched, on core `c`. -/
abbrev A0 (c : Dev nD) : FVec F S100000x256 .f32 := m ((c : Thread nD τ).loc main_arg0)
abbrev A1 (c : Dev nD) : FVec F S5x256x256 .f32 := m ((c : Thread nD τ).loc main_arg1)
abbrev A2 (c : Dev nD) : FVec F S5x256 .f32 := m ((c : Thread nD τ).loc main_arg2)
abbrev A3 (c : Dev nD) : IVec S300000 32 := m ((c : Thread nD τ).loc main_arg3)
abbrev A4 (c : Dev nD) : IVec S5x300000 1 := m ((c : Thread nD τ).loc main_arg4)

/-- Reads both sides of an equation between buffers of the prefix down to the argument arrays. -/
local macro "host_read" : tactic => `(tactic| (dsimp only [V, V0]; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]; after_results_simp))

/-! ## The keys, the argsort, the sorted keys, the counts -/

set_option maxHeartbeats 2000000 in
theorem V_key (c : Dev nD) : V m c main_v15 = KEY (A4 m c) := by host_read <;> rfl
set_option maxHeartbeats 2000000 in
theorem V_perm (c : Dev nD) : V m c main_v16 = PERM (A4 m c) := by host_read <;> rfl
set_option maxHeartbeats 2000000 in
theorem V_sk (c : Dev nD) : V m c main_v23 = SK (A4 m c) := by host_read <;> rfl
set_option maxHeartbeats 2000000 in
theorem V_cnt (c : Dev nD) : V m c main_v33 = CNT (A4 m c) := by host_read <;> rfl

/-! ## The padded counts: a floor division the program calls -/

/-- The floor division by the word in `d`, as the called function spells it. -/
def floorDivBy (d : IVec S_ 32) (x : IVec S6 32) : IVec S6 32 :=
  select (andi (cmpi .ne (signi x) (broadcastInDim S6 ![] bcast_S_S6 (signi d)))
      (cmpi .ne (Host.remsi x (broadcastInDim S6 ![] bcast_S_S6 d)) (splat6 0#32)))
    (subi (Host.divsi x (broadcastInDim S6 ![] bcast_S_S6 d)) (splat6 1#32)) (Host.divsi x (broadcastInDim S6 ![] bcast_S_S6 d))

theorem floorDivBy_4096 (x : IVec S6 32) : floorDivBy (constantI S_ 32 4096#32) x = floorDiv x := rfl

/-- The called function over any contents of the buffers. -/
theorem floorDiv_call (W : Valuation τ sig (Elt F)) :
    StableHlo.after (hostOps0_14 (F := F)) W (Proc.devRef .tc main_v38)
      = floorDivBy (W (Proc.devRef .tc main_c_14)) (W (Proc.devRef .tc main_v37)) := by
  simp only [hostOps0_14]
  after_results_simp <;> rfl

set_option maxHeartbeats 2000000 in
theorem V_c14 (c : Dev nD) : V m c main_c_14 = constantI S_ 32 4096#32 := by host_read <;> rfl
set_option maxHeartbeats 2000000 in
theorem V_v37_step (c : Dev nD) : V m c main_v37 = subi (addi (V m c main_v33) (splat6 4096#32)) (splat6 1#32) := by host_read <;> rfl
set_option maxHeartbeats 2000000 in
theorem V_v38_rerun (c : Dev nD) : V m c main_v38 = StableHlo.after (hostOps0_14 (F := F)) (V0 m c) (Proc.devRef .tc main_v38) := by host_read <;> rfl
set_option maxHeartbeats 2000000 in
theorem V_v40_step (c : Dev nD) : V m c main_v40 = muli (V m c main_v38) (splat6 4096#32) := by host_read <;> rfl

theorem V_pc (c : Dev nD) : V m c main_v40 = PC (A4 m c) := by
  rw [V_v40_step, V_v38_rerun, floorDiv_call]
  show muli (floorDivBy (V m c main_c_14) (V m c main_v37)) (splat6 4096#32) = _
  rw [V_c14, V_v37_step, V_cnt, floorDivBy_4096]
  rfl

/-! ## The running sums -/

theorem cumsum_call8 (W : Valuation τ sig (Elt F)) :
    StableHlo.after (hostOps0_16 (F := F)) W (Proc.devRef .tc main_v41) = cumsum (W (Proc.devRef .tc main_v33)) := by
  simp only [hostOps0_16]
  after_results_simp <;> rfl
theorem cumsum_call9 (W : Valuation τ sig (Elt F)) :
    StableHlo.after (hostOps0_18 (F := F)) W (Proc.devRef .tc main_v43) = cumsum (W (Proc.devRef .tc main_v40)) := by
  simp only [hostOps0_18]
  after_results_simp <;> rfl

set_option maxHeartbeats 2000000 in
theorem V_v41_rerun (c : Dev nD) : V m c main_v41 = StableHlo.after (hostOps0_16 (F := F)) (V0 m c) (Proc.devRef .tc main_v41) := by host_read <;> rfl
set_option maxHeartbeats 2000000 in
theorem V_v42_step (c : Dev nD) : V m c main_v42 = subi (V m c main_v41) (V m c main_v33) := by host_read <;> rfl
set_option maxHeartbeats 2000000 in
theorem V_v43_rerun (c : Dev nD) : V m c main_v43 = StableHlo.after (hostOps0_18 (F := F)) (V0 m c) (Proc.devRef .tc main_v43) := by host_read <;> rfl
set_option maxHeartbeats 2000000 in
theorem V_v44_step (c : Dev nD) : V m c main_v44 = subi (V m c main_v43) (V m c main_v40) := by host_read <;> rfl

theorem V_gss (c : Dev nD) : V m c main_v42 = GSS (A4 m c) := by
  rw [V_v42_step, V_v41_rerun, cumsum_call8]
  show subi (cumsum (V m c main_v33)) (V m c main_v33) = _
  rw [V_cnt]
  rfl
theorem V_gsp (c : Dev nD) : V m c main_v44 = GSP (A4 m c) := by
  rw [V_v44_step, V_v43_rerun, cumsum_call9]
  show subi (cumsum (V m c main_v40)) (V m c main_v40) = _
  rw [V_pc]
  rfl

/-! ## The padded positions and the padded buffer -/

set_option maxHeartbeats 2000000 in
theorem V_v61_step (c : Dev nD) : V m c main_v61
    = addi (Host.gather gather_S6_S300000x1_S300000_n_0_n_n_0_1_1 (V m c main_v44) (colE (wrapE 6#32 (V m c main_v23))))
        (subi (iotaInDim S300000 32 0) (Host.gather gather_S6_S300000x1_S300000_n_0_n_n_0_1_1 (V m c main_v42) (colE (wrapE 6#32 (V m c main_v23))))) := by
  host_read <;> rfl
theorem V_dest (c : Dev nD) : V m c main_v61 = DEST (A4 m c) := by
  rw [V_v61_step, V_gsp, V_gss, V_sk]; rfl

set_option maxHeartbeats 2000000 in
theorem V_v84_step (c : Dev nD) : V m c main_v84
    = Host.scatter scatter_S327680_S300000x1_S300000_n_0_0_1 (fun _ b => b) (splatP 5#32) (colE (wrapE 327680#32 (V m c main_v61))) (V m c main_v23) := by
  host_read <;> rfl
theorem V_pgrp (c : Dev nD) : V m c main_v84 = PGRP (A4 m c) := by
  rw [V_v84_step, V_dest, V_sk]; rfl

set_option maxHeartbeats 2000000 in
theorem V_v95_step (c : Dev nD) : V m c main_v95
    = shapeCast S80 (extractStridedSlice S80x1 ![0, 0] (shapeCast S80x4096 (V m c main_v84) shapeCasts_S327680_S80x4096) slices_S80x4096_S80x1_0_0) shapeCasts_S80x1_S80 := by
  host_read <;> rfl
/-- The prefetched table is the tile groups. -/
theorem V_tileGroup (c : Dev nD) : V m c main_v95 = TG (A4 m c) := by
  rw [V_v95_step, V_pgrp]; rfl

end Cert.Kernel.HostV

end
-- ==== Proof.OkTableBits.lean ====
/- The pipeline's side condition on the prefetched table: every tile's group is below 6, so the weight block and
  the bias block the table names lie inside the six-expert arrays, at every grid point.
-/
import proofs.«424633_j22737556865606_4_alg».proof.Proof.HostTableBits
import proofs.«424633_j22737556865606_4_alg».proof.Proof.Route

set_option maxRecDepth 16384

noncomputable section

namespace Cert.Kernel.HostV

open Cert.Kernel Cert.Kernel.Gen Cert.KernelIdeal.Moe Idealize.ShloMosaic Idealize.ShloMosaic.TcCoe Idealize.SL.Sem Idealize.ShloMosaic.ValueIdx

variable {F : FTy → Type} [FloatOps F]

/-- For ANY contents of the table whose words are all below 6, both table-indexed windows stay inside their arrays. -/
theorem ok0_of_lt (pf : pre0.Contents (Elt F)) (hl : ∀ x : S80.Idx, (pf 0 x : BitVec 32).toNat < 6) : ok0 (F := F) pf := by
  refine ⟨fun i => ?_, fun i => ?_⟩
  · obtain ⟨w, hw, e⟩ : ∃ w : BitVec 32, w.toNat < 6 ∧ cc0_transform_1 k0_off1_inb numel1_S1 pf i = ![w.toNat, 0, 0] :=
      ⟨_, hl _, rfl⟩
    refine ⟨fun a => ?_, Or.inl rfl⟩
    rw [e]
    fin_cases a <;> simp [S1x256x256, S6x256x256] <;> omega
  · obtain ⟨w, hw, e⟩ : ∃ w : BitVec 32, w.toNat < 6 ∧ cc0_transform_2 k0_off1_inb numel1_S1 pf i = ![w.toNat, 0, 0] :=
      ⟨_, hl _, rfl⟩
    refine ⟨fun a => ?_, Or.inl rfl⟩
    rw [e]
    fin_cases a <;> simp [S1x1x256, S6x1x256] <;> omega

variable (m : (ℓ : Loc nD τ sig) → Buf (Elt F) ℓ)

/-- The table the region reads is the tile groups, all below 6. -/
theorem tbl_lt (x : S80.Idx) : (tbl m 0 x : BitVec 32).toNat < 6 := by
  have e : tbl m 0 = TG (A4 m 0) := V_tileGroup m 0
  rw [e, eq_ix1 x]
  exact TG_lt _ _

/-- The side condition holds of every launch memory: nothing is asked of the inputs. -/
theorem ok : Ok m := ok0_of_lt (tbl m) (tbl_lt m)

end Cert.Kernel.HostV

end
-- ==== Proof.HostArrays.lean ====
/-
  The remaining arrays of the host prefix: the padded source and destination rows, the gathered input rows, and the
  extended weights and biases — read as HostTable reads the table, one layer at a time.
-/
import proofs.«424633_j22737556865606_4_alg».proof.Proof.HostTable

set_option maxRecDepth 16384

noncomputable section

namespace Cert.KernelIdeal.HostV

open Cert.KernelIdeal Cert.KernelIdeal.Gen Cert.KernelIdeal.Moe Idealize.ShloMosaic Idealize.ShloMosaic.TcCoe Idealize.SL.Sem Idealize.ShloMosaic.StableHlo

variable {F : FTy → Type} [FloatOps F]
variable (m : (ℓ : Loc nD τ sig) → Buf (Elt F) ℓ)

local macro "host_read" : tactic => `(tactic| (dsimp only [V, V0]; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]; after_results_simp))

set_option maxHeartbeats 2000000 in
theorem V_v68_step (c : Dev nD) : V m c main_v68
    = Host.gather gather_S300000_S300000x1_S300000_n_0_n_n_0_1_1 (A3 m c) (colE (wrapE 300000#32 (V m c main_v16))) := by
  host_read <;> rfl
set_option maxHeartbeats 2000000 in
theorem V_v76_step (c : Dev nD) : V m c main_v76
    = Host.scatter scatter_S327680_S300000x1_S300000_n_0_0_1 (fun _ b => b) (splatP 0#32) (colE (wrapE 327680#32 (V m c main_v61))) (V m c main_v68) := by
  host_read <;> rfl
/-- The padded source rows. -/
theorem V_pidx (c : Dev nD) : V m c main_v76 = PIDX (A3 m c) (A4 m c) := by
  rw [V_v76_step, V_v68_step, V_dest, V_perm]; rfl

set_option maxHeartbeats 2000000 in
theorem V_v92_step (c : Dev nD) : V m c main_v92
    = Host.scatter scatter_S327680_S300000x1_S300000_n_0_0_1 (fun _ b => b) (splatP 300000#32) (colE (wrapE 327680#32 (V m c main_v61))) (V m c main_v16) := by
  host_read <;> rfl
/-- The padded destination rows. -/
theorem V_pdst (c : Dev nD) : V m c main_v92 = PDST (A4 m c) := by
  rw [V_v92_step, V_dest, V_perm]; rfl

set_option maxHeartbeats 2000000 in
theorem V_v102_step (c : Dev nD) : V m c main_v102
    = Host.gather gather_S100000x256_S327680x1_S327680x256_1_0_n_n_0_1_1256 (A0 m c) (colP (wrapP 100000#32 (V m c main_v76))) := by
  host_read <;> rfl
/-- The gathered input rows. -/
theorem V_xi (c : Dev nD) : V m c main_v102 = XI (A0 m c) (A3 m c) (A4 m c) := by
  rw [V_v102_step, V_pidx]; rfl

set_option maxHeartbeats 2000000 in
/-- The extended weights. -/
theorem V_wt (c : Dev nD) : V m c main_v105 = WT (A1 m c) := by host_read <;> rfl
set_option maxHeartbeats 2000000 in
/-- The extended biases. -/
theorem V_be (c : Dev nD) : V m c main_v108 = BE (A2 m c) := by host_read <;> rfl

end Cert.KernelIdeal.HostV

end
-- ==== Proof.KernelPay.lean ====
/-
  The kernel body's arithmetic at an element, over the extended reals: one tile of 4096 rows times one expert's
  transposed weights, plus that expert's bias — out[r, n] = Σ_k x[r, k] · w[0, k, n] + b[0, 0, n] (the changes of
  float format are the identity, the product accumulates from zero).
-/
import proofs.«424633_j22737556865606_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Moe

open Cert.KernelIdeal Cert.KernelIdeal.Gen Idealize.ShloMosaic Idealize.ShloMosaic.ValueIdx

/-! ## The product's operand indices, axis by axis

The left operand's axis 0 is the result's row and its axis 1 the contraction position; the right operand's axis 0 is
the contraction position and its axis 1 the result's column. -/

private theorem lhs_dot_0 (j : S4096x256.Idx) (k : dot_S4096x256_S256x256_S4096x256_1_0_0_1_n_n.contr.Idx) :
    (dot_S4096x256_S256x256_S4096x256_1_0_0_1_n_n.lhsIdx j k 0).val = (j 0).val := by
  unfold DotDims.lhsIdx
  rw [dif_neg (show ¬ (0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

private theorem lhs_dot_1 (j : S4096x256.Idx) (k : dot_S4096x256_S256x256_S4096x256_1_0_0_1_n_n.contr.Idx) :
    (dot_S4096x256_S256x256_S4096x256_1_0_0_1_n_n.lhsIdx j k 1).val = (k ⟨0, Nat.one_pos⟩).val :=
  dot_S4096x256_S256x256_S4096x256_1_0_0_1_n_n.lhsIdx_val_of_single rfl j k

private theorem rhs_dot_0 (j : S4096x256.Idx) (k : dot_S4096x256_S256x256_S4096x256_1_0_0_1_n_n.contr.Idx) :
    (dot_S4096x256_S256x256_S4096x256_1_0_0_1_n_n.rhsIdx j k 0).val = (k ⟨0, Nat.one_pos⟩).val :=
  dot_S4096x256_S256x256_S4096x256_1_0_0_1_n_n.rhsIdx_val_of_single rfl j k

private theorem rhs_dot_1 (j : S4096x256.Idx) (k : dot_S4096x256_S256x256_S4096x256_1_0_0_1_n_n.contr.Idx) :
    (dot_S4096x256_S256x256_S4096x256_1_0_0_1_n_n.rhsIdx j k 1).val = (j 1).val := by
  unfold DotDims.rhsIdx
  rw [dif_neg (show ¬ (1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The body's one store, read at row r, feature n. -/
theorem pay_apply (x0 : Vec Ideal S4096x256 .f32) (x1 : Vec Ideal S1x256x256 .f32) (x2 : Vec Ideal S1x1x256 .f32)
    (r : Fin 4096) (n : Fin 256) :
    k0_pay1 (F := Ideal) x0 x1 x2 (ix2 r n)
      = (∑ k : Fin 256, x0 (ix2 r k) * x1 (ix3 (0 : Fin 1) k n)) + x2 (ix3 (0 : Fin 1) (0 : Fin 1) n) := by
  unfold k0_pay1
  refine (addf_apply _ _ (ix2 r n)).trans (congrArg₂ (· + ·) ?_ ?_)
  · refine (Ideal.matmul_constant_zero_apply dot_S4096x256_S256x256_S4096x256_1_0_0_1_n_n none _ _ (ix2 r n)).trans ?_
    refine (Equiv.sum_comp (contrEquiv1 dot_S4096x256_S256x256_S4096x256_1_0_0_1_n_n 256 rfl rfl).symm _).symm.trans ?_
    refine Finset.sum_congr rfl fun k _ => congrArg₂ (· * ·) ?_ ?_
    · refine (truncf_apply (φ := .f32) (ψ := .bf16) _ bitsLt_bf16_f32 _).trans ?_
      rw [shapeCast_self]
      refine congrArg x0 (Shape.idx_ext₂ ?_ ?_)
      · exact lhs_dot_0 _ _
      · exact (lhs_dot_1 _ _).trans (contrEquiv1_symm_val dot_S4096x256_S256x256_S4096x256_1_0_0_1_n_n 256 rfl rfl k)
    · refine (truncf_apply (φ := .f32) (ψ := .bf16) _ bitsLt_bf16_f32 _).trans ?_
      have e : dot_S4096x256_S256x256_S4096x256_1_0_0_1_n_n.rhsIdx (ix2 r n) ((contrEquiv1 dot_S4096x256_S256x256_S4096x256_1_0_0_1_n_n 256 rfl rfl).symm k) = ix2 k n :=
        Shape.idx_ext₂ ((rhs_dot_0 _ _).trans (contrEquiv1_symm_val dot_S4096x256_S256x256_S4096x256_1_0_0_1_n_n 256 rfl rfl k)) (rhs_dot_1 _ _)
      rw [e]
      exact shapeCast_1ab_ab_apply x1 _ k n
  · refine (broadcastTo_1b_ab_apply _ _ r n).trans ?_
    exact shapeCast_1ab_ab_apply x2 _ (0 : Fin 1) n

end Cert.KernelIdeal.Moe

end
-- ==== Proof.KernelOut.lean ====
/-
  The kernel's padded output as one function of the host-side arrays: padded row p, feature n is the gathered row p
  through the weights and the bias of the group of p's tile (the tile of 4096 positions that holds p).
-/
import proofs.«424633_j22737556865606_4_alg».proof.Proof.HostDefs
import Idealize.ShloMosaic.Lib.ValueIdx

noncomputable section

namespace Cert.KernelIdeal.Moe

open Cert.KernelIdeal Idealize.ShloMosaic Idealize.ShloMosaic.ValueIdx

/-- The tile that holds padded position p. -/
def tileOf (p : Fin 327680) : Fin 80 := ⟨p.val / 4096, by have := p.isLt; omega⟩

/-- The group a table of tile groups gives position p (reduced below 6: a table of groups holds nothing larger). -/
def groupOf (tg : IVec S80 32) (p : Fin 327680) : Fin 6 := ⟨(tg (ix1 (tileOf p))).toNat % 6, Nat.mod_lt _ (by decide)⟩

/-- Padded row p, feature n. -/
def opAt (xi : FVec Ideal S327680x256 .f32) (wt : FVec Ideal S6x256x256 .f32) (be : FVec Ideal S6x1x256 .f32) (tg : IVec S80 32)
    (p : Fin 327680) (n : Fin 256) : EReal :=
  (∑ k : Fin 256, xi (ix2 p k) * wt (ix3 (groupOf tg p) k n)) + be (ix3 (groupOf tg p) (0 : Fin 1) n)

/-- The padded output. -/
def OPfun (xi : FVec Ideal S327680x256 .f32) (wt : FVec Ideal S6x256x256 .f32) (be : FVec Ideal S6x1x256 .f32) (tg : IVec S80 32) :
    FVec Ideal S327680x256 .f32 := fun j => opAt xi wt be tg (j 0) (j 1)

theorem OPfun_apply (xi : FVec Ideal S327680x256 .f32) (wt : FVec Ideal S6x256x256 .f32) (be : FVec Ideal S6x1x256 .f32) (tg : IVec S80 32)
    (p : Fin 327680) (n : Fin 256) : OPfun xi wt be tg (ix2 p n) = opAt xi wt be tg p n := rfl

end Cert.KernelIdeal.Moe

end
-- ==== Proof.KernelBlocks.lean ====
/-
  The kernel's run, read: what the pallas_call leaves in its output array, and what the lines after it make of it.

  The body stores ONE payload per grid point: the point's block of gathered rows times the weight block the table
  names for the point, plus that bias block. Point t's blocks are rows [4096 t, 4096 t + 4096) of the gathered rows
  and of the output, and expert (table word t) of the extended weights and biases. So what point t writes back is
  block t of ONE function of the arrays (the padded output of KernelOut); the 80 blocks cover the output array, which
  therefore ends holding that function; and the lines after the region scatter its rows to their destination rows.
-/
import proofs.«424633_j22737556865606_4_alg».proof.Proof.Gen.KernelIdeal.Frame
import proofs.«424633_j22737556865606_4_alg».proof.Proof.HostArrays
import proofs.«424633_j22737556865606_4_alg».proof.Proof.KernelPay
import proofs.«424633_j22737556865606_4_alg».proof.Proof.KernelOut
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Moe Cert.KernelIdeal.HostV
open Idealize.ShloMosaic Idealize.ShloMosaic.TcCoe Idealize.SL.Sem Idealize.ShloMosaic.Tactic Idealize.ShloMosaic.ValueIdx
open Idealize.ShloMosaic.Pipeline (Dat)

/-! ## The body's one store -/

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's staging buffer is its payload of the three blocks it loaded. -/
theorem out0_eq {F : FTy → Type} [FloatOps F] (c : Dev nD) (i : grid0.Coords) (arg2 : Memref sig .tc .vmem S4096x256 .f32) (harg2 : arg2.IsWhole) (arg3 : Memref sig .tc .vmem S1x256x256 .f32) (harg3 : arg3.IsWhole) (arg4 : Memref sig .tc .vmem S1x1x256 .f32) (harg4 : arg4.IsWhole) (arg5 : Memref sig .tc .vmem S4096x256 .f32) (harg5 : arg5.IsWhole)
    (x0 : Vec F S4096x256 .f32) (x1 : Vec F S1x256x256 .f32) (x2 : Vec F S1x1x256 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero hz]
  simp only [View.readAt_eq_ld, harg2.read_unread, harg3.read_unread, harg4.read_unread,
    View.ld_unit_zero (S := S4096x256) hz, View.ld_unit_zero (S := S1x256x256) hz3, View.ld_unit_zero (S := S1x1x256) hz3]

/-! ## The index maps -/

/-- The maps that read no table, decided over the grid: block t of the gathered rows and of the output; and the
    table word the other two maps read at point t is word t. -/
theorem idx_static : ∀ t : Fin grid0.N, cc0_transform_0 (grid0.coords t) = ![t.val, 0] ∧ cc0_transform_3 (grid0.coords t) = ![t.val, 0]
    ∧ k0_off1 (grid0.coords t) = ![t.val] :=
  by decide +kernel

/-- The one index of a one-word rectangle at offset t of the table is index t. -/
theorem word_idx (t : Fin 80) (off : Fin 1 → Nat) (hoff : off 0 = t.val) (inb : ∀ a, off a + S1.size a ≤ S80.size a) (h1 : 0 < S1.numel) :
    (Rect.unit (s := S80) off S1.size inb).emb (Shape.Idx.first h1) = ix1 t := by
  funext a
  apply Fin.ext
  fin_cases a
  show off 0 + 1 * (Shape.Idx.first h1 (0 : Fin 1)).val = t.val
  have h0 : (Shape.Idx.first h1 (0 : Fin 1)).val = 0 := by
    have := (Shape.Idx.first h1 (0 : Fin 1)).isLt
    have e : S1.size (0 : Fin 1) = 1 := by decide
    omega
  rw [h0, hoff]; omega

variable {F : FTy → Type} [FloatOps F]

/-- With the table's contents a variable: both table-indexed maps name expert (word t). -/
theorem tr1_eq (pf : pre0.Contents (Elt F)) (t : Fin grid0.N) :
    cc0_transform_1 k0_off1_inb numel1_S1 pf (grid0.coords t) = ![((pf 0 : S80.Idx → BitVec 32) (ix1 (⟨t.val, t.isLt⟩ : Fin 80))).toNat, 0, 0] :=
  congrArg (fun x : S80.Idx => (![((pf 0 : S80.Idx → BitVec 32) x).toNat, 0, 0] : Fin 3 → ℕ))
    (word_idx ⟨t.val, t.isLt⟩ _ (congrFun (idx_static t).2.2 0) (k0_off1_inb (grid0.coords t)) (numel1_S1.symm ▸ Nat.one_pos))
theorem tr2_eq (pf : pre0.Contents (Elt F)) (t : Fin grid0.N) :
    cc0_transform_2 k0_off1_inb numel1_S1 pf (grid0.coords t) = ![((pf 0 : S80.Idx → BitVec 32) (ix1 (⟨t.val, t.isLt⟩ : Fin 80))).toNat, 0, 0] :=
  congrArg (fun x : S80.Idx => (![((pf 0 : S80.Idx → BitVec 32) x).toNat, 0, 0] : Fin 3 → ℕ))
    (word_idx ⟨t.val, t.isLt⟩ _ (congrFun (idx_static t).2.2 0) (k0_off1_inb (grid0.coords t)) (numel1_S1.symm ▸ Nat.one_pos))

/-! ## The blocks at a point, for ANY admissible contents of the table -/

section AnyTable

variable (a : (pcfg0 (F := F)).Adm)

/-- The table word of point t. -/
abbrev wordOf (t : Fin 80) : BitVec 32 := (a.1 0 : S80.Idx → BitVec 32) (ix1 t)

theorem win0_index (t : Fin (cfg0 a).N) : ((cfg0 a).win 0).index t = ![t.val, 0] := (idx_static t).1
theorem win3_index (t : Fin (cfg0 a).N) : ((cfg0 a).win 3).index t = ![t.val, 0] := (idx_static t).2.1
theorem win1_index (t : Fin (cfg0 a).N) : ((cfg0 a).win 1).index t = ![(wordOf a ⟨t.val, t.isLt⟩).toNat, 0, 0] := tr1_eq a.1 t
theorem win2_index (t : Fin (cfg0 a).N) : ((cfg0 a).win 2).index t = ![(wordOf a ⟨t.val, t.isLt⟩).toNat, 0, 0] := tr2_eq a.1 t

theorem row_lt (t : Fin (cfg0 a).N) (r : Fin 4096) : 4096 * t.val + r.val < 327680 := by
  have := t.isLt; have := r.isLt; have e : (cfg0 a).N = 80 := N_0; omega

/-- Row r of point t's block of gathered rows (and of the output) is row 4096 t + r of the array. -/
theorem blk0_emb (t : Fin (cfg0 a).N) (r : Fin 4096) (k : Fin 256) :
    (((cfg0 a).win 0).blk t).view.emb (ix2 r k) = ix2 (⟨4096 * t.val + r.val, row_lt a t r⟩ : Fin 327680) k := by
  funext b
  apply Fin.ext
  have h0 := congrFun (win0_index a t) (0 : Fin 2)
  have h1 := congrFun (win0_index a t) (1 : Fin 2)
  match b with
  | ⟨0, _⟩ => show ((cfg0 a).win 0).index t (0 : Fin 2) * 4096 + 1 * r.val = 4096 * t.val + r.val; rw [h0]; show t.val * 4096 + 1 * r.val = _; omega
  | ⟨1, _⟩ => show ((cfg0 a).win 0).index t (1 : Fin 2) * 256 + 1 * k.val = k.val; rw [h1]; show 0 * 256 + 1 * k.val = _; omega
theorem blk3_emb (t : Fin (cfg0 a).N) (r : Fin 4096) (n : Fin 256) :
    (((cfg0 a).win 3).blk t).view.emb (ix2 r n) = ix2 (⟨4096 * t.val + r.val, row_lt a t r⟩ : Fin 327680) n := by
  funext b
  apply Fin.ext
  have h0 := congrFun (win3_index a t) (0 : Fin 2)
  have h1 := congrFun (win3_index a t) (1 : Fin 2)
  match b with
  | ⟨0, _⟩ => show ((cfg0 a).win 3).index t (0 : Fin 2) * 4096 + 1 * r.val = 4096 * t.val + r.val; rw [h0]; show t.val * 4096 + 1 * r.val = _; omega
  | ⟨1, _⟩ => show ((cfg0 a).win 3).index t (1 : Fin 2) * 256 + 1 * n.val = n.val; rw [h1]; show 0 * 256 + 1 * n.val = _; omega

/-- Point t's weight block and bias block are expert (table word t)'s. -/
theorem blk1_emb (t : Fin (cfg0 a).N) (g : Fin 6) (hg : (wordOf a ⟨t.val, t.isLt⟩).toNat = g.val) (k n : Fin 256) :
    (((cfg0 a).win 1).blk t).view.emb (ix3 (0 : Fin 1) k n) = ix3 g k n := by
  funext b
  apply Fin.ext
  have h0 := congrFun (win1_index a t) (0 : Fin 3)
  have h1 := congrFun (win1_index a t) (1 : Fin 3)
  have h2 := congrFun (win1_index a t) (2 : Fin 3)
  match b with
  | ⟨0, _⟩ => show ((cfg0 a).win 1).index t (0 : Fin 3) * 1 + 1 * 0 = g.val; rw [h0]; show (wordOf a ⟨t.val, t.isLt⟩).toNat * 1 + 1 * 0 = _; omega
  | ⟨1, _⟩ => show ((cfg0 a).win 1).index t (1 : Fin 3) * 256 + 1 * k.val = k.val; rw [h1]; show 0 * 256 + 1 * k.val = _; omega
  | ⟨2, _⟩ => show ((cfg0 a).win 1).index t (2 : Fin 3) * 256 + 1 * n.val = n.val; rw [h2]; show 0 * 256 + 1 * n.val = _; omega
theorem blk2_emb (t : Fin (cfg0 a).N) (g : Fin 6) (hg : (wordOf a ⟨t.val, t.isLt⟩).toNat = g.val) (n : Fin 256) :
    (((cfg0 a).win 2).blk t).view.emb (ix3 (0 : Fin 1) (0 : Fin 1) n) = ix3 g (0 : Fin 1) n := by
  funext b
  apply Fin.ext
  have h0 := congrFun (win2_index a t) (0 : Fin 3)
  have h1 := congrFun (win2_index a t) (1 : Fin 3)
  have h2 := congrFun (win2_index a t) (2 : Fin 3)
  match b with
  | ⟨0, _⟩ => show ((cfg0 a).win 2).index t (0 : Fin 3) * 1 + 1 * 0 = g.val; rw [h0]; show (wordOf a ⟨t.val, t.isLt⟩).toNat * 1 + 1 * 0 = _; omega
  | ⟨1, _⟩ => show ((cfg0 a).win 2).index t (1 : Fin 3) * 1 + 1 * 0 = 0; rw [h1]; rfl
  | ⟨2, _⟩ => show ((cfg0 a).win 2).index t (2 : Fin 3) * 256 + 1 * n.val = n.val; rw [h2]; show 0 * 256 + 1 * n.val = _; omega

/-- An index of the output array is in point t's block iff its row is in [4096 t, 4096 t + 4096). -/
theorem mem_blk3 (t : Fin (cfg0 a).N) (i : S327680x256.Idx) :
    i ∈ (((cfg0 a).win 3).blk t).view.set ↔ ∀ b : Fin 2, ((cfg0 a).win 3).index t b * S4096x256.size b ≤ (i b).val ∧ (i b).val < ((cfg0 a).win 3).index t b * S4096x256.size b + S4096x256.size b := by
  have e : (((cfg0 a).win 3).blk t).view.set = (((cfg0 a).win 3).rect t).set :=
    View.set_slice_whole main_v109 (((cfg0 a).win 3).rect t)
  rw [e]
  exact Rect.mem_set_unit

/-- The 80 blocks cover the output array: row p is in block p / 4096. -/
theorem cover (i : S327680x256.Idx) :
    ∃ t : Fin (cfg0 a).N, ((cfg0 a).win 3).flush t = true ∧ i ∈ (((cfg0 a).win 3).blk t).view.set := by
  have hi0 : (i 0).val < 327680 := (i 0).isLt
  have hi1 : (i 1).val < 256 := (i 1).isLt
  have hN : (cfg0 a).N = 80 := N_0
  let t : Fin (cfg0 a).N := ⟨(i 0).val / 4096, by omega⟩
  refine ⟨t, flush0_3 a t, ?_⟩
  rw [mem_blk3]
  have h0 := congrFun (win3_index a t) (0 : Fin 2)
  have h1 := congrFun (win3_index a t) (1 : Fin 2)
  intro b
  match b with
  | ⟨0, _⟩ =>
    show ((cfg0 a).win 3).index t (0 : Fin 2) * 4096 ≤ (i 0).val ∧ (i 0).val < ((cfg0 a).win 3).index t (0 : Fin 2) * 4096 + 4096
    rw [h0]
    show (i 0).val / 4096 * 4096 ≤ (i 0).val ∧ (i 0).val < (i 0).val / 4096 * 4096 + 4096
    omega
  | ⟨1, _⟩ =>
    show ((cfg0 a).win 3).index t (1 : Fin 2) * 256 ≤ (i 1).val ∧ (i 1).val < ((cfg0 a).win 3).index t (1 : Fin 2) * 256 + 256
    rw [h1]
    show 0 * 256 ≤ (i 1).val ∧ (i 1).val < 0 * 256 + 256
    omega

/-- A block of an array read back at an index is the array at the block's embedding of it. -/
theorem blk0_read (t : Fin (cfg0 a).N) (X : S327680x256.Idx → Elt F .f32) (r : Fin 4096) (k : Fin 256) :
    (((cfg0 a).win 0).blk t).view.read (Elt F) X (ix2 r k) = X (ix2 (⟨4096 * t.val + r.val, row_lt a t r⟩ : Fin 327680) k) := by
  show X ((((cfg0 a).win 0).blk t).view.emb (ix2 r k)) = _
  rw [blk0_emb a t r k]
theorem blk3_read (t : Fin (cfg0 a).N) (G : S327680x256.Idx → Elt F .f32) (r : Fin 4096) (n : Fin 256) :
    (((cfg0 a).win 3).blk t).view.read (Elt F) G (ix2 r n) = G (ix2 (⟨4096 * t.val + r.val, row_lt a t r⟩ : Fin 327680) n) := by
  show G ((((cfg0 a).win 3).blk t).view.emb (ix2 r n)) = _
  rw [blk3_emb a t r n]
theorem blk1_read (t : Fin (cfg0 a).N) (Wt : S6x256x256.Idx → Elt F .f32) (g : Fin 6) (hg : (wordOf a ⟨t.val, t.isLt⟩).toNat = g.val) (k n : Fin 256) :
    (((cfg0 a).win 1).blk t).view.read (Elt F) Wt (ix3 (0 : Fin 1) k n) = Wt (ix3 g k n) := by
  show Wt ((((cfg0 a).win 1).blk t).view.emb (ix3 (0 : Fin 1) k n)) = _
  rw [blk1_emb a t g hg k n]
theorem blk2_read (t : Fin (cfg0 a).N) (Be : S6x1x256.Idx → Elt F .f32) (g : Fin 6) (hg : (wordOf a ⟨t.val, t.isLt⟩).toNat = g.val) (n : Fin 256) :
    (((cfg0 a).win 2).blk t).view.read (Elt F) Be (ix3 (0 : Fin 1) (0 : Fin 1) n) = Be (ix3 g (0 : Fin 1) n) := by
  show Be ((((cfg0 a).win 2).blk t).view.emb (ix3 (0 : Fin 1) (0 : Fin 1) n)) = _
  rw [blk2_emb a t g hg n]

end AnyTable

/-! ## What a point computes, over the extended reals -/

section Point

variable (a : (pcfg0 (F := Ideal)).Adm)

/-- The group of a position of tile t is the table word of t, when the table's words are below 6. -/
theorem groupOf_word (hl : ∀ x : S80.Idx, (a.1 0 x : BitVec 32).toNat < 6) (t : Fin 80) (r : Fin 4096) (h : 4096 * t.val + r.val < 327680) :
    (wordOf a t).toNat = (groupOf (a.1 0) ⟨4096 * t.val + r.val, h⟩).val := by
  have ht : tileOf ⟨4096 * t.val + r.val, h⟩ = t := by
    apply Fin.ext
    show (4096 * t.val + r.val) / 4096 = t.val
    have := r.isLt
    omega
  show _ = ((a.1 0 : S80.Idx → BitVec 32) (ix1 (tileOf ⟨4096 * t.val + r.val, h⟩))).toNat % 6
  rw [ht]
  exact (Nat.mod_eq_of_lt (hl _)).symm

/-- THE POINT'S PAYLOAD of the blocks it loads is block t of the padded output, for ANY arrays and ANY table whose
    words are below 6 (the table named twice: as the admissible contents the windows are stated at, and as `pf`). -/
theorem pay_block (pf : pre0.Contents (Elt Ideal)) (hpf : a.1 = pf) (hl : ∀ x : S80.Idx, (pf 0 x : BitVec 32).toNat < 6) (t : Fin (cfg0 a).N)
    (X : FVec Ideal S327680x256 .f32) (Wt : FVec Ideal S6x256x256 .f32) (Be : FVec Ideal S6x1x256 .f32) (r : Fin 4096) (n : Fin 256) :
    k0_pay1 (F := Ideal) ((((cfg0 a).win 0).blk t).view.read (Elt Ideal) X) ((((cfg0 a).win 1).blk t).view.read (Elt Ideal) Wt)
        ((((cfg0 a).win 2).blk t).view.read (Elt Ideal) Be) (ix2 r n)
      = (((cfg0 a).win 3).blk t).view.read (Elt Ideal) (OPfun X Wt Be (pf 0)) (ix2 r n) := by
  subst hpf
  have hlt : 4096 * t.val + r.val < 327680 := row_lt a t r
  have hg := groupOf_word a hl ⟨t.val, t.isLt⟩ r hlt
  refine (pay_apply _ _ _ r n).trans ?_
  rw [blk3_read a t (OPfun X Wt Be (a.1 0)) r n]
  show _ = opAt X Wt Be (a.1 0) ⟨4096 * t.val + r.val, hlt⟩ n
  unfold opAt
  exact congrArg₂ (· + ·)
    (Finset.sum_congr rfl fun k _ => congrArg₂ (· * ·) (blk0_read a t X r k)
      (blk1_read a t Wt (groupOf (a.1 0) ⟨4096 * t.val + r.val, hlt⟩) hg k n))
    (blk2_read a t Be (groupOf (a.1 0) ⟨4096 * t.val + r.val, hlt⟩) hg n)

end Point

end Cert.KernelIdeal.KValue

end
-- ==== Proof.KernelRun.lean ====
/-
  The kernel's run with its result named.

  What point t writes back is block t of the padded output; the blocks cover the array; so the array ends holding the
  padded output, and the lines after the region scatter its rows to their destination rows: the result is HostDefs'
  RES of the padded output. All of it for the memory as launched, at the extended reals.
-/
import proofs.«424633_j22737556865606_4_alg».proof.Proof.KernelBlocks

set_option maxRecDepth 16384

noncomputable section

namespace Cert.KernelIdeal.KValue

open Cert.KernelIdeal Cert.KernelIdeal.Gen Cert.KernelIdeal.Moe Cert.KernelIdeal.HostV
open Idealize.ShloMosaic Idealize.ShloMosaic.TcCoe Idealize.SL.Sem Idealize.ShloMosaic.Tactic Idealize.ShloMosaic.ValueIdx Idealize.ShloMosaic.StableHlo
open Idealize.ShloMosaic.Pipeline (Dat)

variable (m : (ℓ : Loc nD τ sig) → Buf (Elt Ideal) ℓ) (ρ : Dev nD → PrngReg)

/-- The padded output of the arrays the region finds. -/
abbrev OPv (c : Dev nD) : FVec Ideal S327680x256 .f32 :=
  OPfun (V m c main_v102) (V m c main_v105) (V m c main_v108) (tbl m 0)

/-- WHAT POINT t WRITES BACK is block t of the padded output. -/
theorem flushed_eq (hl : ∀ x : S80.Idx, (tbl m 0 x : BitVec 32).toNat < 6) (hO : Ok m) (c : Dev nD) (t : Fin (cfgM m hO).N) :
    (dats m hO 0 c).flushed 3 t = (((cfgM m hO).win 3).blk t).view.read (Elt Ideal) (OPv m c) := by
  show ((cfgM m hO).win 3).cut (grid0.coords t) ((dats m hO 0 c).after 3 t) = _
  rw [after0_3]
  have hout : outsAt0 m hO c t = k0_pay1 (F := Ideal) (iblk m hO c 0 t) (iblk m hO c 1 t) (iblk m hO c 2 t) :=
    out0_eq c (grid0.coords t) (ms0_0 m hO t) (hs0_0 m hO t) (ms0_1 m hO t) (hs0_1 m hO t) (ms0_2 m hO t) (hs0_2 m hO t)
      (ms0_3 m hO t) (hs0_3 m hO t) (iblk m hO c 0 t) (iblk m hO c 1 t) (iblk m hO c 2 t) (tbl m 0)
  refine funext fun (j : S4096x256.Idx) => ?_
  obtain ⟨r, n, rfl⟩ : ∃ (r : Fin 4096) (n : Fin 256), j = ix2 r n := ⟨j 0, j 1, eq_ix2 j⟩
  show outsAt0 m hO c t (ix2 r n) = _
  rw [hout]
  exact pay_block (adm m hO) (tbl m) rfl hl t (V m c main_v102) (V m c main_v105) (V m c main_v108) r n

/-- THE OUTPUT ARRAY after the region is the padded output. -/
theorem final (hl : ∀ x : S80.Idx, (tbl m 0 x : BitVec 32).toNat < 6) (hO : Ok m) (c : Dev nD) :
    (dats m hO 0 c).arrAt 3 (cfgM m hO).N = OPv m c :=
  (dats m hO 0 c).arrAt_eq_of_cover 3 (OPv m c) (fun t _ => flushed_eq m hl hO c t) (cover (adm m hO))

/-! ## The lines after the region -/

/-- The result from a padded output and an array of destination rows, as the last lines spell it. -/
def RESof {F : FTy → Type} [FloatOps F] (op : FVec F S327680x256 .f32) (pd : IVec S327680 32) : FVec F S300000x8x32 .f32 :=
  shapeCast S300000x8x32 (extractStridedSlice S300000x256 ![0, 0]
    (Host.scatter scatter_S300001x256_S327680x1_S327680x256_1_0_0_1 (fun _ b => b)
      (broadcastInDim S300001x256 ![] bcast_S_S300001x256 (constant S_ .f32 0x00000000#32)) (colP (wrapP 300001#32 pd)) op)
    slices_S300001x256_S300000x256_0_0) shapeCasts_S300000x256_S300000x8x32

theorem RESof_PDST {F : FTy → Type} [FloatOps F] (op : FVec F S327680x256 .f32) (a4 : IVec S5x300000 1) : RESof op (PDST a4) = RES op a4 := rfl

/-- The last lines over any contents of the buffers. -/
theorem tail_call {F : FTy → Type} [FloatOps F] (W : Valuation τ sig (Elt F)) :
    StableHlo.after (hostOps1 (F := F)) W (Proc.devRef .tc main_v119)
      = RESof (W (Proc.devRef .tc main_v109)) (W (Proc.devRef .tc main_v92)) := by
  simp only [hostOps1]
  after_results_simp <;> rfl

/-- THE RESULT the run leaves: the padded output scattered to its destination rows. -/
theorem tail_eq (hl : ∀ x : S80.Idx, (tbl m 0 x : BitVec 32).toNat < 6) (hO : Ok m) (c : Dev nD) :
    Pipeline.afterTail pcfgs (fun _ => adm m hO) (dats m hO) 0 (V0 m) [hostOps1 (F := Ideal)] c main_v119
      = RES (OPfun (XI (A0 m c) (A3 m c) (A4 m c)) (WT (A1 m c)) (BE (A2 m c)) (TG (A4 m c))) (A4 m c) := by
  unfold Pipeline.afterTail
  simp only [List.flatten_cons, List.flatten_nil, List.append_nil]
  rw [tail_call]
  refine (congrArg₂ RESof
    ((Pipeline.withArrays_arr (Pipeline.pin pcfgs (fun _ => adm m hO) 0).spec (launch0 (F := Ideal)).win.arr_inj c (V0 m c)
        (fun w => (dats m hO 0 c).arrAt w (Pipeline.pin pcfgs (fun _ => adm m hO) 0).N) 3).trans (final m hl hO c))
    ((Pipeline.withArrays_of_ne (Pipeline.pin pcfgs (fun _ => adm m hO) 0).spec c (V0 m c)
        (fun w => (dats m hO 0 c).arrAt w (Pipeline.pin pcfgs (fun _ => adm m hO) 0).N) main_v92
        (by exact (by decide : ∀ w, Pipeline.arrRef spec0 w ≠ main_v92))).trans (V_pdst m c))).trans ?_
  rw [RESof_PDST]
  have hc : c = 0 := Subsingleton.elim _ _
  subst hc
  show RES (OPfun (V m 0 main_v102) (V m 0 main_v105) (V m 0 main_v108) (tbl m 0)) (A4 m 0) = _
  rw [V_xi, V_wt, V_be, show tbl m 0 = TG (A4 m 0) from V_tileGroup m 0]

/-- THE KERNEL'S RUN with its result named, for any launch memory. -/
theorem run (hl : ∀ x : S80.Idx, (tbl m 0 x : BitVec 32).toNat < 6) (hO : Ok m) :
    θ_run defs (onTc (τ := τ) (main (F := Ideal))) ⟨m, fun _ => 0, ρ⟩ fun r => ∀ c : Dev nD,
      r.2.mem ((c.tc : Thread nD τ).loc main_v119)
          = RES (OPfun (XI (A0 m c) (A3 m c) (A4 m c)) (WT (A1 m c)) (BE (A2 m c)) (TG (A4 m c))) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have H := run_main m ρ hO
  refine (θ_run defs _ _).mono (fun _ hq c => ?_) H
  exact ⟨((hq c).2 main_v119 (by decide : main_v119 ∈ Pipeline.restRefs sig spec0)).trans (tail_eq m hl hO c),
    ((hq c).2 main_arg0 (by decide : main_arg0 ∈ Pipeline.restRefs sig spec0)).trans (W_main_arg0 m hO (dats m hO) c),
    ((hq c).2 main_arg1 (by decide : main_arg1 ∈ Pipeline.restRefs sig spec0)).trans (W_main_arg1 m hO (dats m hO) c),
    ((hq c).2 main_arg2 (by decide : main_arg2 ∈ Pipeline.restRefs sig spec0)).trans (W_main_arg2 m hO (dats m hO) c),
    ((hq c).2 main_arg3 (by decide : main_arg3 ∈ Pipeline.restRefs sig spec0)).trans (W_main_arg3 m hO (dats m hO) c),
    ((hq c).2 main_arg4 (by decide : main_arg4 ∈ Pipeline.restRefs sig spec0)).trans (W_main_arg4 m hO (dats m hO) c)⟩

end Cert.KernelIdeal.KValue

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.Spec.lean ====
/-
  What the routing layer computes, element by element, over the extended reals.

  Output row e takes the input row its index word names (a negative word wrapped by the table's 100000 rows, what is
  left clamped into the table) through ONE of five linear layers — the last whose mask is set at e — and is zero when
  no mask is set: out[e, n] = Σ_k x[row, k] · W[i, n, k] + b[i, n].
-/
import Idealize.ShloMosaic.PureOps.Ideal
import Idealize.ShloMosaic.Lib.ValueIdx
import proofs.«424633_j22737556865606_4_alg».proof.Proof.LibGatherRows

noncomputable section

namespace Cert.Moe

open Idealize.ShloMosaic Idealize.ShloMosaic.ValueIdx

/-- The table row an index word names. -/
def rowOf (v : BitVec 32) : Fin 100000 :=
  GatherRows.clampPos 100000 (by decide) (Scalar.select (IntOp.cmpi .slt v 0#32) (IntOp.addi v 100000#32) v)

/-- Linear layer `i` at input row `r`, output feature `n`. -/
def lin (x : (⟨2, ![100000, 256]⟩ : Shape).Idx → EReal) (W : (⟨3, ![5, 256, 256]⟩ : Shape).Idx → EReal)
    (b : (⟨2, ![5, 256]⟩ : Shape).Idx → EReal) (i : Fin 5) (r : Fin 100000) (n : Fin 256) : EReal :=
  (∑ k : Fin 256, x (ix2 r k) * W (ix3 i n k)) + b (ix2 i n)

/-- The routed output at row `e`, feature `n`. -/
def outAt (x : (⟨2, ![100000, 256]⟩ : Shape).Idx → EReal) (W : (⟨3, ![5, 256, 256]⟩ : Shape).Idx → EReal)
    (b : (⟨2, ![5, 256]⟩ : Shape).Idx → EReal) (index : (⟨1, ![300000]⟩ : Shape).Idx → BitVec 32)
    (masks : (⟨2, ![5, 300000]⟩ : Shape).Idx → BitVec 1) (e : Fin 300000) (n : Fin 256) : EReal :=
  if masks (ix2 (4 : Fin 5) e) = 1#1 then lin x W b 4 (rowOf (index (ix1 e))) n
  else if masks (ix2 (3 : Fin 5) e) = 1#1 then lin x W b 3 (rowOf (index (ix1 e))) n
  else if masks (ix2 (2 : Fin 5) e) = 1#1 then lin x W b 2 (rowOf (index (ix1 e))) n
  else if masks (ix2 (1 : Fin 5) e) = 1#1 then lin x W b 1 (rowOf (index (ix1 e))) n
  else if masks (ix2 (0 : Fin 5) e) = 1#1 then lin x W b 0 (rowOf (index (ix1 e))) n
  else 0

end Cert.Moe

end
-- ==== Proof.RefValue.lean ====
/-
  The reference, read at an element: row e of the result is the routed output of Spec.

  The reference takes the input's rows named by the index words (a negative word moved up by the table's 100000 rows,
  what is left clamped into the table), applies each of the five linear layers to the gathered rows, and keeps, layer
  after layer, the layer's value where the layer's mask is set and the value so far elsewhere, starting from zero. Read
  at one element the chain of selections is the specification's chain of conditions, last layer first, and each layer's
  value is Σ_k x[row, k] · W[i, n, k] + b[i, n]. The final change of shape [300000, 256] → [300000, 8, 32] reads
  feature 32 h + d at head h, lane d.

  Each stage is read at an index built from its coordinates; the layout stages (slice, change of shape, transpose,
  broadcast) only move the index, which is settled coordinate by coordinate by arithmetic on the literal extents.
-/
import proofs.«424633_j22737556865606_4_alg».proof.Proof.Spec
import proofs.«424633_j22737556865606_4_alg».proof.Proof.Gen.ReferenceIdeal.Run
import proofs.«424633_j22737556865606_4_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## The row an index word names -/

/-- The wrapped index word at row e: a negative word is moved up by the table's 100000 rows. -/
theorem wrap_apply (x3 : (⟨S300000, .i32⟩ : BufTy).Contents (Elt Ideal)) (e : Fin 300000) :
    Read.val_main_v5 (F := Ideal) x3 (ix2 e (0 : Fin 1))
      = Scalar.select (IntOp.cmpi .slt (x3 (ix1 e)) 0#32) (IntOp.addi (x3 (ix1 e)) 100000#32) (x3 (ix1 e)) := by
  have hi : Read.idx_main_v5 (ix2 e (0 : Fin 1)) = ix1 e :=
    funext fun a => Fin.ext (by match a with | ⟨0, _⟩ => rfl)
  rw [Read.val_main_v5_apply, hi, Read.val_main_v4_apply, Read.val_main_v1_apply, Read.val_main_v3_apply,
    Read.val_main_v0_apply, Read.val_main_v2_apply, Read.val_main_c_apply, Read.val_main_c_0_apply]

/-- The gathered table at row e, column k: the input's row named by the index word at e. -/
theorem gather_apply (x0 : (⟨S100000x256, .f32⟩ : BufTy).Contents (Elt Ideal))
    (x3 : (⟨S300000, .i32⟩ : BufTy).Contents (Elt Ideal)) (e : Fin 300000) (k : Fin 256) :
    Read.val_main_v6 (F := Ideal) x0 x3 (ix2 e k) = x0 (ix2 (Cert.Moe.rowOf (x3 (ix1 e))) k) := by
  unfold Read.val_main_v6
  have hd : gather_S100000x256_S300000x1_S300000x256_1_0_n_n_0_1_1256
      = GatherRows.colDims 100000 256 300000 Facts₀.gather_S100000x256_S300000x1_S300000x256_1_0_n_n_0_1_1256_wf := rfl
  rw [hd]
  refine (GatherRows.gather_col_apply (N := 100000) (B := 256) (R := 300000) (w := 32) (by decide) _ x0
    (Read.val_main_v5 (F := Ideal) x3) (ix2 e k)).trans ?_
  show x0 (ix2 (GatherRows.clampPos 100000 _ (Read.val_main_v5 (F := Ideal) x3 (ix2 e (0 : Fin 1)))) k) = _
  rw [wrap_apply]
  rfl

/-- The initial result is zero everywhere. -/
theorem zero_apply (e : Fin 300000) (n : Fin 256) : Read.val_main_v7 (F := Ideal) (ix2 e n) = (0 : EReal) := by
  rw [Read.val_main_v7_apply, Read.val_main_cst_apply]
  exact Ideal.ofBits_zero_f32

/-! ## Linear layer 0 -/

/-- Layer 0's weight, transposed: entry (k, n) is W[0, n, k]. -/
theorem w0_apply (x1 : (⟨S5x256x256, .f32⟩ : BufTy).Contents (Elt Ideal)) (k n : Fin 256) :
    Read.val_main_v10 (F := Ideal) x1 (ix2 k n) = x1 (ix3 (0 : Fin 5) n k) := by
  rw [Read.val_main_v10_apply, Read.val_main_v9_apply, Read.val_main_v8_apply]
  refine congrArg x1 (funext fun a => Fin.ext ?_)
  have hn := n.isLt
  have hk := k.isLt
  match a with
  | ⟨0, _⟩ => rfl
  | ⟨1, _⟩ => show (n.val * 256 + k.val) / 256 % 256 = n.val; omega
  | ⟨2, _⟩ => show (n.val * 256 + k.val) % 256 = k.val; omega

/-- Layer 0's bias, broadcast over the rows: entry (e, n) is b[0, n]. -/
theorem b0_apply (x2 : (⟨S5x256, .f32⟩ : BufTy).Contents (Elt Ideal)) (e : Fin 300000) (n : Fin 256) :
    Read.val_main_v15 (F := Ideal) x2 (ix2 e n) = x2 (ix2 (0 : Fin 5) n) := by
  rw [Read.val_main_v15_apply, Read.val_main_v14_apply, Read.val_main_v13_apply, Read.val_main_v12_apply]
  refine congrArg x2 (funext fun a => Fin.ext ?_)
  have hn := n.isLt
  match a with
  | ⟨0, _⟩ => rfl
  | ⟨1, _⟩ => show n.val % 256 = n.val; omega

/-- Layer 0's mask, broadcast over the features: entry (e, n) is masks[0, e]. -/
theorem m0_apply (x4 : (⟨S5x300000, .i1⟩ : BufTy).Contents (Elt Ideal)) (e : Fin 300000) (n : Fin 256) :
    Read.val_main_call0_v0 (F := Ideal) x4 (ix2 e n) = x4 (ix2 (0 : Fin 5) e) := by
  rw [Read.val_main_call0_v0_apply, Read.val_main_v19_apply, Read.val_main_v18_apply, Read.val_main_v17_apply]
  refine congrArg x4 (funext fun a => Fin.ext ?_)
  have he := e.isLt
  match a with
  | ⟨0, _⟩ => rfl
  | ⟨1, _⟩ => show e.val % 300000 = e.val; omega

/-- Layer 0's product at (e, n): the gathered row against column n of the transposed weight. -/
theorem dot0_apply (x0 : (⟨S100000x256, .f32⟩ : BufTy).Contents (Elt Ideal))
    (x1 : (⟨S5x256x256, .f32⟩ : BufTy).Contents (Elt Ideal)) (x3 : (⟨S300000, .i32⟩ : BufTy).Contents (Elt Ideal))
    (e : Fin 300000) (n : Fin 256) :
    Read.val_main_v11 (F := Ideal) x0 x1 x3 (ix2 e n)
      = ∑ k : Fin 256, x0 (ix2 (Cert.Moe.rowOf (x3 (ix1 e))) k) * x1 (ix3 (0 : Fin 5) n k) := by
  rw [Read.val_main_v11_apply]
  refine Finset.sum_congr rfl fun k _ => ?_
  have hl : Read.lidx_main_v11 (ix2 e n) k = ix2 e k :=
    funext fun a => Fin.ext (by match a with | ⟨0, _⟩ => rfl | ⟨1, _⟩ => rfl)
  have hr : Read.ridx_main_v11 (ix2 e n) k = ix2 k n :=
    funext fun a => Fin.ext (by match a with | ⟨0, _⟩ => rfl | ⟨1, _⟩ => rfl)
  rw [hl, hr, gather_apply, w0_apply]

/-- Layer 0 at (e, n) is the specification's linear layer 0 at the row the index word names. -/
theorem lin0_apply (x0 : (⟨S100000x256, .f32⟩ : BufTy).Contents (Elt Ideal))
    (x1 : (⟨S5x256x256, .f32⟩ : BufTy).Contents (Elt Ideal)) (x2 : (⟨S5x256, .f32⟩ : BufTy).Contents (Elt Ideal))
    (x3 : (⟨S300000, .i32⟩ : BufTy).Contents (Elt Ideal)) (e : Fin 300000) (n : Fin 256) :
    Read.val_main_v16 (F := Ideal) x0 x1 x2 x3 (ix2 e n)
      = Cert.Moe.lin x0 x1 x2 0 (Cert.Moe.rowOf (x3 (ix1 e))) n := by
  rw [Read.val_main_v16_apply, dot0_apply, b0_apply]
  rfl

/-! ## Linear layer 1 -/

/-- Layer 1's weight, transposed: entry (k, n) is W[1, n, k]. -/
theorem w1_apply (x1 : (⟨S5x256x256, .f32⟩ : BufTy).Contents (Elt Ideal)) (k n : Fin 256) :
    Read.val_main_v23 (F := Ideal) x1 (ix2 k n) = x1 (ix3 (1 : Fin 5) n k) := by
  rw [Read.val_main_v23_apply, Read.val_main_v22_apply, Read.val_main_v21_apply]
  refine congrArg x1 (funext fun a => Fin.ext ?_)
  have hn := n.isLt
  have hk := k.isLt
  match a with
  | ⟨0, _⟩ => rfl
  | ⟨1, _⟩ => show (n.val * 256 + k.val) / 256 % 256 = n.val; omega
  | ⟨2, _⟩ => show (n.val * 256 + k.val) % 256 = k.val; omega

/-- Layer 1's bias, broadcast over the rows: entry (e, n) is b[1, n]. -/
theorem b1_apply (x2 : (⟨S5x256, .f32⟩ : BufTy).Contents (Elt Ideal)) (e : Fin 300000) (n : Fin 256) :
    Read.val_main_v28 (F := Ideal) x2 (ix2 e n) = x2 (ix2 (1 : Fin 5) n) := by
  rw [Read.val_main_v28_apply, Read.val_main_v27_apply, Read.val_main_v26_apply, Read.val_main_v25_apply]
  refine congrArg x2 (funext fun a => Fin.ext ?_)
  have hn := n.isLt
  match a with
  | ⟨0, _⟩ => rfl
  | ⟨1, _⟩ => show n.val % 256 = n.val; omega

/-- Layer 1's mask, broadcast over the features: entry (e, n) is masks[1, e]. -/
theorem m1_apply (x4 : (⟨S5x300000, .i1⟩ : BufTy).Contents (Elt Ideal)) (e : Fin 300000) (n : Fin 256) :
    Read.val_main_call1_v0 (F := Ideal) x4 (ix2 e n) = x4 (ix2 (1 : Fin 5) e) := by
  rw [Read.val_main_call1_v0_apply, Read.val_main_v32_apply, Read.val_main_v31_apply, Read.val_main_v30_apply]
  refine congrArg x4 (funext fun a => Fin.ext ?_)
  have he := e.isLt
  match a with
  | ⟨0, _⟩ => rfl
  | ⟨1, _⟩ => show e.val % 300000 = e.val; omega

/-- Layer 1's product at (e, n): the gathered row against column n of the transposed weight. -/
theorem dot1_apply (x0 : (⟨S100000x256, .f32⟩ : BufTy).Contents (Elt Ideal))
    (x1 : (⟨S5x256x256, .f32⟩ : BufTy).Contents (Elt Ideal)) (x3 : (⟨S300000, .i32⟩ : BufTy).Contents (Elt Ideal))
    (e : Fin 300000) (n : Fin 256) :
    Read.val_main_v24 (F := Ideal) x0 x1 x3 (ix2 e n)
      = ∑ k : Fin 256, x0 (ix2 (Cert.Moe.rowOf (x3 (ix1 e))) k) * x1 (ix3 (1 : Fin 5) n k) := by
  rw [Read.val_main_v24_apply]
  refine Finset.sum_congr rfl fun k _ => ?_
  have hl : Read.lidx_main_v24 (ix2 e n) k = ix2 e k :=
    funext fun a => Fin.ext (by match a with | ⟨0, _⟩ => rfl | ⟨1, _⟩ => rfl)
  have hr : Read.ridx_main_v24 (ix2 e n) k = ix2 k n :=
    funext fun a => Fin.ext (by match a with | ⟨0, _⟩ => rfl | ⟨1, _⟩ => rfl)
  rw [hl, hr, gather_apply, w1_apply]

/-- Layer 1 at (e, n) is the specification's linear layer 1 at the row the index word names. -/
theorem lin1_apply (x0 : (⟨S100000x256, .f32⟩ : BufTy).Contents (Elt Ideal))
    (x1 : (⟨S5x256x256, .f32⟩ : BufTy).Contents (Elt Ideal)) (x2 : (⟨S5x256, .f32⟩ : BufTy).Contents (Elt Ideal))
    (x3 : (⟨S300000, .i32⟩ : BufTy).Contents (Elt Ideal)) (e : Fin 300000) (n : Fin 256) :
    Read.val_main_v29 (F := Ideal) x0 x1 x2 x3 (ix2 e n)
      = Cert.Moe.lin x0 x1 x2 1 (Cert.Moe.rowOf (x3 (ix1 e))) n := by
  rw [Read.val_main_v29_apply, dot1_apply, b1_apply]
  rfl

/-! ## Linear layer 2 -/

/-- Layer 2's weight, transposed: entry (k, n) is W[2, n, k]. -/
theorem w2_apply (x1 : (⟨S5x256x256, .f32⟩ : BufTy).Contents (Elt Ideal)) (k n : Fin 256) :
    Read.val_main_v36 (F := Ideal) x1 (ix2 k n) = x1 (ix3 (2 : Fin 5) n k) := by
  rw [Read.val_main_v36_apply, Read.val_main_v35_apply, Read.val_main_v34_apply]
  refine congrArg x1 (funext fun a => Fin.ext ?_)
  have hn := n.isLt
  have hk := k.isLt
  match a with
  | ⟨0, _⟩ => rfl
  | ⟨1, _⟩ => show (n.val * 256 + k.val) / 256 % 256 = n.val; omega
  | ⟨2, _⟩ => show (n.val * 256 + k.val) % 256 = k.val; omega

/-- Layer 2's bias, broadcast over the rows: entry (e, n) is b[2, n]. -/
theorem b2_apply (x2 : (⟨S5x256, .f32⟩ : BufTy).Contents (Elt Ideal)) (e : Fin 300000) (n : Fin 256) :
    Read.val_main_v41 (F := Ideal) x2 (ix2 e n) = x2 (ix2 (2 : Fin 5) n) := by
  rw [Read.val_main_v41_apply, Read.val_main_v40_apply, Read.val_main_v39_apply, Read.val_main_v38_apply]
  refine congrArg x2 (funext fun a => Fin.ext ?_)
  have hn := n.isLt
  match a with
  | ⟨0, _⟩ => rfl
  | ⟨1, _⟩ => show n.val % 256 = n.val; omega

/-- Layer 2's mask, broadcast over the features: entry (e, n) is masks[2, e]. -/
theorem m2_apply (x4 : (⟨S5x300000, .i1⟩ : BufTy).Contents (Elt Ideal)) (e : Fin 300000) (n : Fin 256) :
    Read.val_main_call2_v0 (F := Ideal) x4 (ix2 e n) = x4 (ix2 (2 : Fin 5) e) := by
  rw [Read.val_main_call2_v0_apply, Read.val_main_v45_apply, Read.val_main_v44_apply, Read.val_main_v43_apply]
  refine congrArg x4 (funext fun a => Fin.ext ?_)
  have he := e.isLt
  match a with
  | ⟨0, _⟩ => rfl
  | ⟨1, _⟩ => show e.val % 300000 = e.val; omega

/-- Layer 2's product at (e, n): the gathered row against column n of the transposed weight. -/
theorem dot2_apply (x0 : (⟨S100000x256, .f32⟩ : BufTy).Contents (Elt Ideal))
    (x1 : (⟨S5x256x256, .f32⟩ : BufTy).Contents (Elt Ideal)) (x3 : (⟨S300000, .i32⟩ : BufTy).Contents (Elt Ideal))
    (e : Fin 300000) (n : Fin 256) :
    Read.val_main_v37 (F := Ideal) x0 x1 x3 (ix2 e n)
      = ∑ k : Fin 256, x0 (ix2 (Cert.Moe.rowOf (x3 (ix1 e))) k) * x1 (ix3 (2 : Fin 5) n k) := by
  rw [Read.val_main_v37_apply]
  refine Finset.sum_congr rfl fun k _ => ?_
  have hl : Read.lidx_main_v37 (ix2 e n) k = ix2 e k :=
    funext fun a => Fin.ext (by match a with | ⟨0, _⟩ => rfl | ⟨1, _⟩ => rfl)
  have hr : Read.ridx_main_v37 (ix2 e n) k = ix2 k n :=
    funext fun a => Fin.ext (by match a with | ⟨0, _⟩ => rfl | ⟨1, _⟩ => rfl)
  rw [hl, hr, gather_apply, w2_apply]

/-- Layer 2 at (e, n) is the specification's linear layer 2 at the row the index word names. -/
theorem lin2_apply (x0 : (⟨S100000x256, .f32⟩ : BufTy).Contents (Elt Ideal))
    (x1 : (⟨S5x256x256, .f32⟩ : BufTy).Contents (Elt Ideal)) (x2 : (⟨S5x256, .f32⟩ : BufTy).Contents (Elt Ideal))
    (x3 : (⟨S300000, .i32⟩ : BufTy).Contents (Elt Ideal)) (e : Fin 300000) (n : Fin 256) :
    Read.val_main_v42 (F := Ideal) x0 x1 x2 x3 (ix2 e n)
      = Cert.Moe.lin x0 x1 x2 2 (Cert.Moe.rowOf (x3 (ix1 e))) n := by
  rw [Read.val_main_v42_apply, dot2_apply, b2_apply]
  rfl

/-! ## Linear layer 3 -/

/-- Layer 3's weight, transposed: entry (k, n) is W[3, n, k]. -/
theorem w3_apply (x1 : (⟨S5x256x256, .f32⟩ : BufTy).Contents (Elt Ideal)) (k n : Fin 256) :
    Read.val_main_v49 (F := Ideal) x1 (ix2 k n) = x1 (ix3 (3 : Fin 5) n k) := by
  rw [Read.val_main_v49_apply, Read.val_main_v48_apply, Read.val_main_v47_apply]
  refine congrArg x1 (funext fun a => Fin.ext ?_)
  have hn := n.isLt
  have hk := k.isLt
  match a with
  | ⟨0, _⟩ => rfl
  | ⟨1, _⟩ => show (n.val * 256 + k.val) / 256 % 256 = n.val; omega
  | ⟨2, _⟩ => show (n.val * 256 + k.val) % 256 = k.val; omega

/-- Layer 3's bias, broadcast over the rows: entry (e, n) is b[3, n]. -/
theorem b3_apply (x2 : (⟨S5x256, .f32⟩ : BufTy).Contents (Elt Ideal)) (e : Fin 300000) (n : Fin 256) :
    Read.val_main_v54 (F := Ideal) x2 (ix2 e n) = x2 (ix2 (3 : Fin 5) n) := by
  rw [Read.val_main_v54_apply, Read.val_main_v53_apply, Read.val_main_v52_apply, Read.val_main_v51_apply]
  refine congrArg x2 (funext fun a => Fin.ext ?_)
  have hn := n.isLt
  match a with
  | ⟨0, _⟩ => rfl
  | ⟨1, _⟩ => show n.val % 256 = n.val; omega

/-- Layer 3's mask, broadcast over the features: entry (e, n) is masks[3, e]. -/
theorem m3_apply (x4 : (⟨S5x300000, .i1⟩ : BufTy).Contents (Elt Ideal)) (e : Fin 300000) (n : Fin 256) :
    Read.val_main_call3_v0 (F := Ideal) x4 (ix2 e n) = x4 (ix2 (3 : Fin 5) e) := by
  rw [Read.val_main_call3_v0_apply, Read.val_main_v58_apply, Read.val_main_v57_apply, Read.val_main_v56_apply]
  refine congrArg x4 (funext fun a => Fin.ext ?_)
  have he := e.isLt
  match a with
  | ⟨0, _⟩ => rfl
  | ⟨1, _⟩ => show e.val % 300000 = e.val; omega

/-- Layer 3's product at (e, n): the gathered row against column n of the transposed weight. -/
theorem dot3_apply (x0 : (⟨S100000x256, .f32⟩ : BufTy).Contents (Elt Ideal))
    (x1 : (⟨S5x256x256, .f32⟩ : BufTy).Contents (Elt Ideal)) (x3 : (⟨S300000, .i32⟩ : BufTy).Contents (Elt Ideal))
    (e : Fin 300000) (n : Fin 256) :
    Read.val_main_v50 (F := Ideal) x0 x1 x3 (ix2 e n)
      = ∑ k : Fin 256, x0 (ix2 (Cert.Moe.rowOf (x3 (ix1 e))) k) * x1 (ix3 (3 : Fin 5) n k) := by
  rw [Read.val_main_v50_apply]
  refine Finset.sum_congr rfl fun k _ => ?_
  have hl : Read.lidx_main_v50 (ix2 e n) k = ix2 e k :=
    funext fun a => Fin.ext (by match a with | ⟨0, _⟩ => rfl | ⟨1, _⟩ => rfl)
  have hr : Read.ridx_main_v50 (ix2 e n) k = ix2 k n :=
    funext fun a => Fin.ext (by match a with | ⟨0, _⟩ => rfl | ⟨1, _⟩ => rfl)
  rw [hl, hr, gather_apply, w3_apply]

/-- Layer 3 at (e, n) is the specification's linear layer 3 at the row the index word names. -/
theorem lin3_apply (x0 : (⟨S100000x256, .f32⟩ : BufTy).Contents (Elt Ideal))
    (x1 : (⟨S5x256x256, .f32⟩ : BufTy).Contents (Elt Ideal)) (x2 : (⟨S5x256, .f32⟩ : BufTy).Contents (Elt Ideal))
    (x3 : (⟨S300000, .i32⟩ : BufTy).Contents (Elt Ideal)) (e : Fin 300000) (n : Fin 256) :
    Read.val_main_v55 (F := Ideal) x0 x1 x2 x3 (ix2 e n)
      = Cert.Moe.lin x0 x1 x2 3 (Cert.Moe.rowOf (x3 (ix1 e))) n := by
  rw [Read.val_main_v55_apply, dot3_apply, b3_apply]
  rfl

/-! ## Linear layer 4 -/

/-- Layer 4's weight, transposed: entry (k, n) is W[4, n, k]. -/
theorem w4_apply (x1 : (⟨S5x256x256, .f32⟩ : BufTy).Contents (Elt Ideal)) (k n : Fin 256) :
    Read.val_main_v62 (F := Ideal) x1 (ix2 k n) = x1 (ix3 (4 : Fin 5) n k) := by
  rw [Read.val_main_v62_apply, Read.val_main_v61_apply, Read.val_main_v60_apply]
  refine congrArg x1 (funext fun a => Fin.ext ?_)
  have hn := n.isLt
  have hk := k.isLt
  match a with
  | ⟨0, _⟩ => rfl
  | ⟨1, _⟩ => show (n.val * 256 + k.val) / 256 % 256 = n.val; omega
  | ⟨2, _⟩ => show (n.val * 256 + k.val) % 256 = k.val; omega

/-- Layer 4's bias, broadcast over the rows: entry (e, n) is b[4, n]. -/
theorem b4_apply (x2 : (⟨S5x256, .f32⟩ : BufTy).Contents (Elt Ideal)) (e : Fin 300000) (n : Fin 256) :
    Read.val_main_v67 (F := Ideal) x2 (ix2 e n) = x2 (ix2 (4 : Fin 5) n) := by
  rw [Read.val_main_v67_apply, Read.val_main_v66_apply, Read.val_main_v65_apply, Read.val_main_v64_apply]
  refine congrArg x2 (funext fun a => Fin.ext ?_)
  have hn := n.isLt
  match a with
  | ⟨0, _⟩ => rfl
  | ⟨1, _⟩ => show n.val % 256 = n.val; omega

/-- Layer 4's mask, broadcast over the features: entry (e, n) is masks[4, e]. -/
theorem m4_apply (x4 : (⟨S5x300000, .i1⟩ : BufTy).Contents (Elt Ideal)) (e : Fin 300000) (n : Fin 256) :
    Read.val_main_call4_v0 (F := Ideal) x4 (ix2 e n) = x4 (ix2 (4 : Fin 5) e) := by
  rw [Read.val_main_call4_v0_apply, Read.val_main_v71_apply, Read.val_main_v70_apply, Read.val_main_v69_apply]
  refine congrArg x4 (funext fun a => Fin.ext ?_)
  have he := e.isLt
  match a with
  | ⟨0, _⟩ => rfl
  | ⟨1, _⟩ => show e.val % 300000 = e.val; omega

/-- Layer 4's product at (e, n): the gathered row against column n of the transposed weight. -/
theorem dot4_apply (x0 : (⟨S100000x256, .f32⟩ : BufTy).Contents (Elt Ideal))
    (x1 : (⟨S5x256x256, .f32⟩ : BufTy).Contents (Elt Ideal)) (x3 : (⟨S300000, .i32⟩ : BufTy).Contents (Elt Ideal))
    (e : Fin 300000) (n : Fin 256) :
    Read.val_main_v63 (F := Ideal) x0 x1 x3 (ix2 e n)
      = ∑ k : Fin 256, x0 (ix2 (Cert.Moe.rowOf (x3 (ix1 e))) k) * x1 (ix3 (4 : Fin 5) n k) := by
  rw [Read.val_main_v63_apply]
  refine Finset.sum_congr rfl fun k _ => ?_
  have hl : Read.lidx_main_v63 (ix2 e n) k = ix2 e k :=
    funext fun a => Fin.ext (by match a with | ⟨0, _⟩ => rfl | ⟨1, _⟩ => rfl)
  have hr : Read.ridx_main_v63 (ix2 e n) k = ix2 k n :=
    funext fun a => Fin.ext (by match a with | ⟨0, _⟩ => rfl | ⟨1, _⟩ => rfl)
  rw [hl, hr, gather_apply, w4_apply]

/-- Layer 4 at (e, n) is the specification's linear layer 4 at the row the index word names. -/
theorem lin4_apply (x0 : (⟨S100000x256, .f32⟩ : BufTy).Contents (Elt Ideal))
    (x1 : (⟨S5x256x256, .f32⟩ : BufTy).Contents (Elt Ideal)) (x2 : (⟨S5x256, .f32⟩ : BufTy).Contents (Elt Ideal))
    (x3 : (⟨S300000, .i32⟩ : BufTy).Contents (Elt Ideal)) (e : Fin 300000) (n : Fin 256) :
    Read.val_main_v68 (F := Ideal) x0 x1 x2 x3 (ix2 e n)
      = Cert.Moe.lin x0 x1 x2 4 (Cert.Moe.rowOf (x3 (ix1 e))) n := by
  rw [Read.val_main_v68_apply, dot4_apply, b4_apply]
  rfl

/-! ## The chain of selections and the final change of shape -/

/-- Before the change of shape: the five selections, last layer outermost, are the routed output at (e, n). -/
theorem sel_apply (x0 : (⟨S100000x256, .f32⟩ : BufTy).Contents (Elt Ideal))
    (x1 : (⟨S5x256x256, .f32⟩ : BufTy).Contents (Elt Ideal)) (x2 : (⟨S5x256, .f32⟩ : BufTy).Contents (Elt Ideal))
    (x3 : (⟨S300000, .i32⟩ : BufTy).Contents (Elt Ideal)) (x4 : (⟨S5x300000, .i1⟩ : BufTy).Contents (Elt Ideal))
    (e : Fin 300000) (n : Fin 256) :
    Read.val_main_v72 (F := Ideal) x0 x1 x2 x3 x4 (ix2 e n) = Cert.Moe.outAt x0 x1 x2 x3 x4 e n := by
  rw [Read.val_main_v72_apply, Read.val_main_v59_apply, Read.val_main_v46_apply, Read.val_main_v33_apply,
    Read.val_main_v20_apply, m4_apply, m3_apply, m2_apply, m1_apply, m0_apply,
    lin4_apply, lin3_apply, lin2_apply, lin1_apply, lin0_apply, zero_apply]
  rfl

/-- Head h, lane d of row e is feature 32 h + d of row e. -/
theorem val_apply (x0 : (⟨S100000x256, .f32⟩ : BufTy).Contents (Elt Ideal))
    (x1 : (⟨S5x256x256, .f32⟩ : BufTy).Contents (Elt Ideal)) (x2 : (⟨S5x256, .f32⟩ : BufTy).Contents (Elt Ideal))
    (x3 : (⟨S300000, .i32⟩ : BufTy).Contents (Elt Ideal)) (x4 : (⟨S5x300000, .i1⟩ : BufTy).Contents (Elt Ideal))
    (e : Fin 300000) (h : Fin 8) (d : Fin 32) :
    Read.val_main_v73 (F := Ideal) x0 x1 x2 x3 x4 (ix3 e h d)
      = Cert.Moe.outAt x0 x1 x2 x3 x4 e
          (⟨32 * h.val + d.val, by have := h.isLt; have := d.isLt; omega⟩ : Fin 256) := by
  have hi : Read.idx_main_v73 (ix3 e h d)
      = ix2 e (⟨32 * h.val + d.val, by have := h.isLt; have := d.isLt; omega⟩ : Fin 256) := by
    funext a
    refine Fin.ext ?_
    have he := e.isLt
    have hh := h.isLt
    have hd := d.isLt
    match a with
    | ⟨0, _⟩ => show ((e.val * 8 + h.val) * 32 + d.val) / 256 = e.val; omega
    | ⟨1, _⟩ => show ((e.val * 8 + h.val) * 32 + d.val) % 256 = 32 * h.val + d.val; omega
  rw [Read.val_main_v73_apply, hi, sel_apply]

/-- The reference's result at row e, head h, lane d is the routed output at row e, feature 32 h + d. -/
theorem ref_apply (m : (ℓ : Loc nD τ sig) → Buf (Elt Ideal) ℓ) (c : Dev nD) (e : Fin 300000) (h : Fin 8) (d : Fin 32) :
    Cert.ReferenceIdeal.Value.res_out0 (F := Ideal) m c (ix3 e h d)
      = Cert.Moe.outAt (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          e (⟨32 * h.val + d.val, by have := h.isLt; have := d.isLt; omega⟩ : Fin 256) := by
  refine (congrFun (Read.val_main_v73_eq (F := Ideal) m c) (ix3 e h d)).trans ?_
  exact val_apply _ _ _ _ _ e h d

end Cert.ReferenceIdeal.RefValue

end
-- ==== Proof.FloatRead.lean ====
/-
  The kernel's float-side host arrays, read at an element.

  The gathered rows read the input at the row the padded source word names; the extended weights are the weights
  transposed, zero for the sixth expert, and the extended biases likewise; the final scatter leaves at output row e
  the padded row of the one position whose destination is e; the result's (e, h, d) is that array's (e, 32 h + d).
-/
import proofs.«424633_j22737556865606_4_alg».proof.Proof.HostDefs
import proofs.«424633_j22737556865606_4_alg».proof.Proof.Spec
import proofs.«424633_j22737556865606_4_alg».proof.Proof.LibScatterLast
import proofs.«424633_j22737556865606_4_alg».proof.Proof.LibGatherRows
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.Moe

open Cert.KernelIdeal Cert.KernelIdeal.Gen Idealize.ShloMosaic Idealize.ShloMosaic.ValueIdx

variable {F : FTy → Type} [FloatOps F]

/-- A vector kept as a column reads, at (p, 0), the vector at p. -/
private theorem colP_apply (v : IVec S327680 32) (p : Fin 327680) : colP v (ix2 p (0 : Fin 1)) = v (ix1 p) := by
  show broadcastInDim S327680x1 ![0] bcast_S327680_S327680x1_0 v (ix2 p (0 : Fin 1)) = _
  unfold broadcastInDim
  refine congrArg v (funext fun a => ?_)
  match a with
  | ⟨0, _⟩ => rfl

/-- A negative index wrapped by the extent, at a position. -/
private theorem wrapP_apply (n : BitVec 32) (v : IVec S327680 32) (i : S327680.Idx) :
    wrapP n v i = Scalar.select (IntOp.cmpi .slt (v i) 0#32) (IntOp.addi (v i) n) (v i) := rfl

/-- The dimension numbers of a scatter of N rows into a table of K rows: operand [K, B], indices [N, 1], updates [N, B]. -/
private abbrev rowsDims (K B N : Nat) (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- On the row axis the start of update (r, c) is the index word of row r, read as a signed integer. -/
private theorem rowsDims_start0 {K B N w : Nat} (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- On the column axis it is 0: the index vector names the row only. -/
private theorem rowsDims_start1 {K B N w : Nat} (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The row axis is an inserted window axis: the window coordinate on it is 0. -/
private theorem rowsDims_window0 {K B N : Nat} (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  intro h
  have h2 := (List.mem_filter.1 h).2
  simp at h2

/-- On the column axis the window coordinate is the update's column. -/
private theorem rowsDims_window1 {K B N : Nat} (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept from
    List.mem_filter.2 ⟨List.mem_finRange _, by simp⟩)]
  rfl

/-- Update (r, c) lands on element (k, b) exactly when the signed index word of row r is k and c = b; a word that is
    negative or at least K names no row, and the update is dropped. -/
private theorem rowsDims_resultIdx?_eq_some_iff {K B N w : Nat} (wf : ScatterDims.WF ⟨2, ![K, B]⟩ ⟨2, ![N, 1]⟩ ⟨2, ![N, B]⟩ [1] [0] [0] 1)
    (idx : IVec ⟨2, ![N, 1]⟩ w) (r : Fin N) (c : Fin B) (k : Fin K) (b : Fin B) :
    (rowsDims K B N wf).resultIdx? (ix2 r c) idx = some (ix2 k b) ↔ (idx (ix2 r (0 : Fin 1))).toInt = (k.val : Int) ∧ c = b := by
  have hk : k.val < K := k.isLt
  have hc : c.val < B := c.isLt
  have hs0 : (rowsDims K B N wf).start (ix2 r c) idx 0 = (idx (ix2 r (0 : Fin 1))).toInt := rowsDims_start0 wf idx (ix2 r c)
  have hs1 := rowsDims_start1 wf idx (ix2 r c)
  have hw0 := rowsDims_window0 wf (ix2 r c)
  have hw1 : (rowsDims K B N wf).window (ix2 r c) 1 = c.val := rowsDims_window1 wf (ix2 r c)
  unfold ScatterDims.resultIdx?
  split_ifs with h
  · rw [Option.some.injEq]
    constructor
    · intro e
      have e0 := congrArg (fun f => (f 0).val) e
      have e1 := congrArg (fun f => (f 1).val) e
      have h0 := h 0
      simp only [hs0, hw0] at e0 h0
      simp only [hs1, hw1] at e1
      change ((idx (ix2 r (0 : Fin 1))).toInt + ((0 : Nat) : Int)).toNat = k.val at e0
      change ((0 : Int) + ((c.val : Nat) : Int)).toNat = b.val at e1
      exact ⟨by omega, Fin.ext (by omega)⟩
    · rintro ⟨e, rfl⟩
      funext a
      refine Fin.ext ?_
      match a with
      | ⟨0, _⟩ =>
        show ((rowsDims K B N wf).start (ix2 r c) idx 0 + (((rowsDims K B N wf).window (ix2 r c) 0 : Nat) : Int)).toNat = k.val
        rw [hs0, hw0]; omega
      | ⟨1, _⟩ =>
        show ((rowsDims K B N wf).start (ix2 r c) idx 1 + (((rowsDims K B N wf).window (ix2 r c) 1 : Nat) : Int)).toNat = c.val
        rw [hs1, hw1]; omega
  · constructor
    · intro e; exact absurd e (by simp)
    · rintro ⟨e, rfl⟩
      exfalso
      apply h
      intro a
      match a with
      | ⟨0, _⟩ =>
        show 0 ≤ (rowsDims K B N wf).start (ix2 r c) idx 0 + (((rowsDims K B N wf).window (ix2 r c) 0 : Nat) : Int) ∧
          (rowsDims K B N wf).start (ix2 r c) idx 0 + (((rowsDims K B N wf).window (ix2 r c) 0 : Nat) : Int) < (K : Int)
        rw [hs0, hw0]; omega
      | ⟨1, _⟩ =>
        show 0 ≤ (rowsDims K B N wf).start (ix2 r c) idx 1 + (((rowsDims K B N wf).window (ix2 r c) 1 : Nat) : Int) ∧
          (rowsDims K B N wf).start (ix2 r c) idx 1 + (((rowsDims K B N wf).window (ix2 r c) 1 : Nat) : Int) < (B : Int)
        rw [hs1, hw1]; omega

/-- A word between 0 and 300000 is not negative: the wrap leaves it as it is. -/
private theorem wrap_of_le (v n : BitVec 32) (h : v.toNat ≤ 300000) :
    Scalar.select (IntOp.cmpi .slt v 0#32) (IntOp.addi v n) v = v := by
  have hn : ¬ IntOp.cmpi .slt v 0#32 = 1#1 := by
    rw [StableHlo.Predicate.slt_iff_toNat (by omega) (by decide)]
    show ¬ v.toNat < 0
    omega
  unfold Scalar.select
  exact if_neg hn

theorem XI_apply (a0 : FVec F S100000x256 .f32) (a3 : IVec S300000 32) (a4 : IVec S5x300000 1) (p : Fin 327680) (k : Fin 256) :
    XI a0 a3 a4 (ix2 p k) = a0 (ix2 (Cert.Moe.rowOf (PIDX a3 a4 (ix1 p))) k) := by
  unfold XI
  generalize PIDX a3 a4 = v
  have hrec : gather_S100000x256_S327680x1_S327680x256_1_0_n_n_0_1_1256
      = GatherRows.colDims 100000 256 327680 gather_S100000x256_S327680x1_S327680x256_1_0_n_n_0_1_1256_wf := rfl
  rw [hrec]
  refine (GatherRows.gather_col_apply (by decide) _ a0 _ (ix2 p k)).trans ?_
  show a0 (ix2 (GatherRows.clampPos 100000 _ (colP (wrapP 100000#32 v) (ix2 p (0 : Fin 1)))) k) = _
  rw [colP_apply, wrapP_apply]
  rfl

theorem WT_apply (a1 : FVec F S5x256x256 .f32) (g : Fin 6) (k n : Fin 256) :
    WT a1 (ix3 g k n) = if h : g.val < 5 then a1 (ix3 (⟨g.val, h⟩ : Fin 5) n k) else FloatOps.ofBits .f32 0x00000000#32 := by
  unfold WT
  by_cases h : g.val < 5
  · rw [dif_pos h]
    -- the first five experts: the weights, each matrix transposed
    refine (concatenate_pair_apply_left (t := S6x256x256) (s₁ := S5x256x256) (s₂ := S1x256x256) (0 : Fin 3) _ _ concatenates_S5x256x256_S1x256x256_S6x256x256_d0 (ix3 g k n) rfl
      (ix3 (⟨g.val, h⟩ : Fin 5) k n) ?_).trans ?_
    · intro b
      match b with
      | ⟨0, _⟩ => rfl
      | ⟨1, _⟩ => rfl
      | ⟨2, _⟩ => rfl
    · exact transpose_ix3_021_apply a1 _ ⟨g.val, h⟩ k n
  · rw [dif_neg h]
    -- the sixth: zeros
    refine (concatenate_pair_apply_right (t := S6x256x256) (s₁ := S5x256x256) (s₂ := S1x256x256) (0 : Fin 3) _ _ concatenates_S5x256x256_S1x256x256_S6x256x256_d0 (ix3 g k n) rfl rfl
      (ix3 (0 : Fin 1) k n) ?_ ?_).trans ?_
    · intro b hb
      match b with
      | ⟨0, _⟩ => exact absurd rfl hb
      | ⟨1, _⟩ => rfl
      | ⟨2, _⟩ => rfl
    · have := g.isLt
      show 0 + 5 = g.val
      omega
    · rfl

theorem BE_apply (a2 : FVec F S5x256 .f32) (g : Fin 6) (n : Fin 256) :
    BE a2 (ix3 g (0 : Fin 1) n) = if h : g.val < 5 then a2 (ix2 (⟨g.val, h⟩ : Fin 5) n) else FloatOps.ofBits .f32 0x00000000#32 := by
  unfold BE
  -- the unit axis put in the middle does not move an element: (g, 0, n) is element (g, n)
  refine (shapeCast_apply _ shapeCasts_S6x256_S6x1x256 (ix3 g (0 : Fin 1) n) (ix2 g n) ?_).trans ?_
  · rw [Shape.rowMajor_val_two, Shape.rowMajor_val_three]
    show g.val * 256 + n.val = (g.val * 1 + 0) * 256 + n.val
    omega
  by_cases h : g.val < 5
  · rw [dif_pos h]
    refine concatenate_pair_apply_left (t := S6x256) (s₁ := S5x256) (s₂ := S1x256) (0 : Fin 2) _ _ concatenates_S5x256_S1x256_S6x256_d0 (ix2 g n) rfl
      (ix2 (⟨g.val, h⟩ : Fin 5) n) ?_
    intro b
    match b with
    | ⟨0, _⟩ => rfl
    | ⟨1, _⟩ => rfl
  · rw [dif_neg h]
    refine (concatenate_pair_apply_right (t := S6x256) (s₁ := S5x256) (s₂ := S1x256) (0 : Fin 2) _ _ concatenates_S5x256_S1x256_S6x256_d0 (ix2 g n) rfl rfl
      (ix2 (0 : Fin 1) n) ?_ ?_).trans ?_
    · intro b hb
      match b with
      | ⟨0, _⟩ => exact absurd rfl hb
      | ⟨1, _⟩ => rfl
    · have := g.isLt
      show 0 + 5 = g.val
      omega
    · rfl

/-- The final scatter at an output row: the padded row of the ONE position sent there. -/
theorem OUTS_apply (op : FVec F S327680x256 .f32) (a4 : IVec S5x300000 1) (e : Fin 300000) (n : Fin 256) (p : Fin 327680)
    (hp : PDST a4 (ix1 p) = BitVec.ofNat 32 e.val)
    (huniq : ∀ p' : Fin 327680, PDST a4 (ix1 p') = BitVec.ofNat 32 e.val → p' = p)
    (hle : ∀ p' : Fin 327680, (PDST a4 (ix1 p')).toNat ≤ 300000) :
    OUTS op a4 (ix2 (⟨e.val, by have := e.isLt; omega⟩ : Fin 300001) n) = op (ix2 p n) := by
  unfold OUTS
  generalize PDST a4 = D at hp huniq hle ⊢
  have he := e.isLt
  have hrec : scatter_S300001x256_S327680x1_S327680x256_1_0_0_1
      = rowsDims 300001 256 327680 scatter_S300001x256_S327680x1_S327680x256_1_0_0_1_wf := rfl
  rw [hrec]
  -- the index column at row p' is the destination word itself, which is not negative
  have hidx : ∀ p' : Fin 327680, colP (wrapP 300001#32 D) (ix2 p' (0 : Fin 1)) = D (ix1 p') := by
    intro p'
    rw [colP_apply, wrapP_apply]
    exact wrap_of_le _ _ (hle p')
  -- update (p', n') lands on (e, n) exactly when the destination of p' is e and n' = n
  have hland : ∀ (p' : Fin 327680) (n' : Fin 256),
      (rowsDims 300001 256 327680 scatter_S300001x256_S327680x1_S327680x256_1_0_0_1_wf).resultIdx? (ix2 p' n')
          (colP (wrapP 300001#32 D)) = some (ix2 (⟨e.val, by omega⟩ : Fin 300001) n)
        ↔ D (ix1 p') = BitVec.ofNat 32 e.val ∧ n' = n := by
    intro p' n'
    rw [rowsDims_resultIdx?_eq_some_iff, hidx p']
    have h1 := hle p'
    rw [StableHlo.Predicate.toInt_eq_toNat_of_lt (by omega)]
    constructor
    · rintro ⟨h, rfl⟩
      have h' : ((D (ix1 p')).toNat : Int) = (e.val : Int) := h
      refine ⟨BitVec.eq_of_toNat_eq ?_, rfl⟩
      rw [BitVec.toNat_ofNat]
      omega
    · rintro ⟨h, rfl⟩
      refine ⟨?_, rfl⟩
      show ((D (ix1 p')).toNat : Int) = (e.val : Int)
      rw [h, BitVec.toNat_ofNat]
      omega
  refine (Host.scatter_set_apply_of_last _ _ _ op (ix2 (⟨e.val, by omega⟩ : Fin 300001) n)
    (S327680x256.rowMajor (ix2 p n)) ?_ ?_).trans ?_
  · rw [Equiv.symm_apply_apply]
    exact (hland p n).2 ⟨hp, rfl⟩
  · -- an update landing on (e, n) comes from a position whose destination is e, so from p, and from column n
    intro m hm hc
    obtain ⟨p', n', hj⟩ : ∃ (p' : Fin 327680) (n' : Fin 256), S327680x256.rowMajor.symm m = ix2 p' n' :=
      ⟨_, _, eq_ix2 _⟩
    rw [hj] at hc
    obtain ⟨h1, h2⟩ := (hland p' n').1 hc
    have h3 := huniq p' h1
    subst h3
    subst h2
    have hm' : m = S327680x256.rowMajor (ix2 p' n') := by rw [← hj, Equiv.apply_symm_apply]
    rw [hm'] at hm
    exact lt_irrefl _ hm
  · rw [Equiv.symm_apply_apply]

theorem RES_apply (op : FVec F S327680x256 .f32) (a4 : IVec S5x300000 1) (e : Fin 300000) (h : Fin 8) (d : Fin 32) :
    RES op a4 (ix3 e h d)
      = OUTS op a4 (ix2 (⟨e.val, by have := e.isLt; omega⟩ : Fin 300001) (⟨32 * h.val + d.val, by have := h.isLt; have := d.isLt; omega⟩ : Fin 256)) := by
  unfold RES
  generalize OUTS op a4 = O
  have hh := h.isLt
  have hd := d.isLt
  -- a row of 256 cut into 8 heads of 32: (e, h, d) is element (e, 32 h + d) …
  refine (shapeCast_apply _ shapeCasts_S300000x256_S300000x8x32 (ix3 e h d)
    (ix2 e (⟨32 * h.val + d.val, by omega⟩ : Fin 256)) ?_).trans ?_
  · rw [Shape.rowMajor_val_two, Shape.rowMajor_val_three]
    show e.val * 256 + (32 * h.val + d.val) = (e.val * 8 + h.val) * 32 + d.val
    omega
  -- … of the first 300000 rows
  exact slice2_axis0_apply 0 O slices_S300001x256_S300000x256_0_0 e _ ⟨e.val, by have := e.isLt; omega⟩ (Nat.zero_add _).symm

end Cert.KernelIdeal.Moe

end
-- ==== Proof.Bridge.lean ====
/-
  The kernel's result is the routed output: the padded output, scattered back to the rows, read at an element.

  Output row e is the destination of exactly one padded position p; that position's source word is the index word
  of e and its tile's group is the key of e. So the element is the gathered row of e through the layer of e's key —
  layer i < 5 when mask i is the last one set, and the zero layer (zero weights, zero bias: a sum of zeros) when none is.
-/
import proofs.«424633_j22737556865606_4_alg».proof.Proof.HostDefs
import proofs.«424633_j22737556865606_4_alg».proof.Proof.Spec
import proofs.«424633_j22737556865606_4_alg».proof.Proof.KeySort
import proofs.«424633_j22737556865606_4_alg».proof.Proof.Route
import proofs.«424633_j22737556865606_4_alg».proof.Proof.FloatRead
import proofs.«424633_j22737556865606_4_alg».proof.Proof.KernelOut
import Idealize.ShloMosaic.Lib.ValueIdx
import Idealize.ShloMosaic.PureOps.Ideal.Laws

noncomputable section

namespace Cert.KernelIdeal.Moe

open Cert.KernelIdeal Idealize.ShloMosaic Idealize.ShloMosaic.ValueIdx

/-- The zero word is the extended real zero. -/
private theorem zeroWord : (FloatOps.ofBits (F := Ideal) .f32 0x00000000#32 : EReal) = 0 := Ideal.ofBits_zero_f32

/-- A group below 5 that is layer i selects layer i. -/
private theorem layer_case (a0 : FVec Ideal S100000x256 .f32) (a1 : FVec Ideal S5x256x256 .f32) (a2 : FVec Ideal S5x256 .f32)
    (g : Fin 6) (i : Fin 5) (hg : g.val = i.val) (r : Fin 100000) (n : Fin 256) :
    (if h : g.val < 5 then Cert.Moe.lin a0 a1 a2 (⟨g.val, h⟩ : Fin 5) r n else 0) = Cert.Moe.lin a0 a1 a2 i r n := by
  have h : g.val < 5 := by have := i.isLt; omega
  rw [dif_pos h]
  exact congrArg (fun i' : Fin 5 => Cert.Moe.lin a0 a1 a2 i' r n) (Fin.ext hg)

/-- Group 5 is the zero layer. -/
private theorem zero_case (a0 : FVec Ideal S100000x256 .f32) (a1 : FVec Ideal S5x256x256 .f32) (a2 : FVec Ideal S5x256 .f32)
    (g : Fin 6) (hg : g.val = 5) (r : Fin 100000) (n : Fin 256) :
    (if h : g.val < 5 then Cert.Moe.lin a0 a1 a2 (⟨g.val, h⟩ : Fin 5) r n else 0) = 0 :=
  dif_neg (by omega)

/-- A padded row of group g whose source word names table row r, read at feature n: layer g at row r when g is below 5,
    and zero at the zero layer (every product is with a zero weight, and the bias is zero). -/
private theorem opAt_of_group (a0 : FVec Ideal S100000x256 .f32) (a1 : FVec Ideal S5x256x256 .f32) (a2 : FVec Ideal S5x256 .f32)
    (a3 : IVec S300000 32) (a4 : IVec S5x300000 1) (p : Fin 327680) (n : Fin 256) (g : Fin 6) (r : Fin 100000)
    (hg : groupOf (TG a4) p = g) (hr : Cert.Moe.rowOf (PIDX a3 a4 (ix1 p)) = r) :
    opAt (XI a0 a3 a4) (WT a1) (BE a2) (TG a4) p n
      = if h : g.val < 5 then Cert.Moe.lin a0 a1 a2 (⟨g.val, h⟩ : Fin 5) r n else 0 := by
  unfold opAt
  rw [hg]
  by_cases h : g.val < 5
  · rw [dif_pos h]
    unfold Cert.Moe.lin
    refine congrArg₂ (· + ·) (Finset.sum_congr rfl fun k _ => congrArg₂ (· * ·) ?_ ?_) ?_
    · rw [XI_apply, hr]
    · rw [WT_apply, dif_pos h]
    · rw [BE_apply, dif_pos h]
  · rw [dif_neg h]
    have hz : ∀ k : Fin 256, XI a0 a3 a4 (ix2 p k) * WT a1 (ix3 g k n) = 0 := fun k => by
      rw [WT_apply, dif_neg h, zeroWord, mul_zero]
    rw [Finset.sum_congr rfl (fun k _ => hz k), Finset.sum_const_zero, BE_apply, dif_neg h, zeroWord, zero_add]

/-- The layer of the key of row e is the layer the routed output takes at e. -/
private theorem dispatch (a0 : FVec Ideal S100000x256 .f32) (a1 : FVec Ideal S5x256x256 .f32) (a2 : FVec Ideal S5x256 .f32)
    (a3 : IVec S300000 32) (a4 : IVec S5x300000 1) (e : Fin 300000) (n : Fin 256) (g : Fin 6) (hg : g.val = keyN a4 e) :
    (if h : g.val < 5 then Cert.Moe.lin a0 a1 a2 (⟨g.val, h⟩ : Fin 5) (Cert.Moe.rowOf (a3 (ix1 e))) n else 0)
      = Cert.Moe.outAt a0 a1 a2 a3 a4 e n := by
  unfold keyN at hg
  rw [KEY_apply] at hg
  unfold Cert.Moe.outAt
  by_cases m4 : a4 (ix2 (4 : Fin 5) e) = 1#1
  · rw [if_pos m4] at hg ⊢
    exact layer_case a0 a1 a2 g 4 hg _ n
  rw [if_neg m4] at hg ⊢
  by_cases m3 : a4 (ix2 (3 : Fin 5) e) = 1#1
  · rw [if_pos m3] at hg ⊢
    exact layer_case a0 a1 a2 g 3 hg _ n
  rw [if_neg m3] at hg ⊢
  by_cases m2 : a4 (ix2 (2 : Fin 5) e) = 1#1
  · rw [if_pos m2] at hg ⊢
    exact layer_case a0 a1 a2 g 2 hg _ n
  rw [if_neg m2] at hg ⊢
  by_cases m1 : a4 (ix2 (1 : Fin 5) e) = 1#1
  · rw [if_pos m1] at hg ⊢
    exact layer_case a0 a1 a2 g 1 hg _ n
  rw [if_neg m1] at hg ⊢
  by_cases m0 : a4 (ix2 (0 : Fin 5) e) = 1#1
  · rw [if_pos m0] at hg ⊢
    exact layer_case a0 a1 a2 g 0 hg _ n
  rw [if_neg m0] at hg ⊢
  exact zero_case a0 a1 a2 g hg _ n

/-- The scattered padded output at row e, feature n, is the routed output there. -/
private theorem bridge_row (a0 : FVec Ideal S100000x256 .f32) (a1 : FVec Ideal S5x256x256 .f32) (a2 : FVec Ideal S5x256 .f32)
    (a3 : IVec S300000 32) (a4 : IVec S5x300000 1) (e : Fin 300000) (n : Fin 256) :
    OUTS (OPfun (XI a0 a3 a4) (WT a1) (BE a2) (TG a4)) a4 (ix2 (⟨e.val, by have := e.isLt; omega⟩ : Fin 300001) n)
      = Cert.Moe.outAt a0 a1 a2 a3 a4 e n := by
  obtain ⟨p, hp, huniq, hidx, htg⟩ := route a3 a4 e
  have hk := keyN_lt a4 e
  have hgv : (groupOf (TG a4) p).val = keyN a4 e := by
    show (TG a4 (ix1 (tileOf p))).toNat % 6 = (KEY a4 (ix1 e)).toNat
    rw [show tileOf p = (⟨p.val / 4096, by have := p.isLt; omega⟩ : Fin 80) from rfl, htg]
    exact Nat.mod_eq_of_lt hk
  refine (OUTS_apply _ a4 e n p hp huniq (PDST_le a4)).trans ?_
  refine (OPfun_apply _ _ _ _ p n).trans ?_
  refine (opAt_of_group a0 a1 a2 a3 a4 p n (groupOf (TG a4) p) (Cert.Moe.rowOf (a3 (ix1 e))) rfl (by rw [hidx])).trans ?_
  exact dispatch a0 a1 a2 a3 a4 e n _ hgv

theorem bridge (a0 : FVec Ideal S100000x256 .f32) (a1 : FVec Ideal S5x256x256 .f32) (a2 : FVec Ideal S5x256 .f32)
    (a3 : IVec S300000 32) (a4 : IVec S5x300000 1) (e : Fin 300000) (h : Fin 8) (d : Fin 32) :
    RES (OPfun (XI a0 a3 a4) (WT a1) (BE a2) (TG a4)) a4 (ix3 e h d)
      = Cert.Moe.outAt a0 a1 a2 a3 a4 e (⟨32 * h.val + d.val, by have := h.isLt; have := d.isLt; omega⟩ : Fin 256) :=
  (RES_apply _ a4 e h d).trans (bridge_row a0 a1 a2 a3 a4 e _)

end Cert.KernelIdeal.Moe

end
-- ==== Proof.lean ====
/-
  The routing layer's kernel against its reference, over the extended reals.

  The kernel sorts the 300000 output rows by the expert that serves them (the last mask set at a row; a zero sixth
  expert when none is), lays the sorted rows out in 80 tiles of 4096 padded positions, each tile one expert's, runs one
  matrix product per tile against that expert's transposed weights, adds its bias, and scatters the rows back. The
  reference takes every row through all five experts and keeps, by a chain of selects, the last one whose mask is set.

  * The frames: the generated frame of each kernel program holds when the tile-group table names experts below 6,
    which it does for every input (a tile's group is a key or the fill value 5); the reference's frame is its
    generated run.
  * The idealization changes no operation, so there is nothing to preserve.
  * The values: the kernel's result array is the padded output scattered back (the frame's run, read); row e of it is
    the padded row of the ONE position sent to e, whose source row is the row e's index word names and whose tile's
    group is e's key; that is the routed output Spec defines, which is also what the reference computes at every
    element. No input is asked to be finite: the only law used beyond reindexing is x · 0 = 0.
-/
import proofs.«424633_j22737556865606_4_alg».proof.Defs
import proofs.«424633_j22737556865606_4_alg».proof.Proof.Gen.Kernel
import proofs.«424633_j22737556865606_4_alg».proof.Proof.Gen.Kernel.Frame
import proofs.«424633_j22737556865606_4_alg».proof.Proof.Gen.KernelIdeal
import proofs.«424633_j22737556865606_4_alg».proof.Proof.Gen.KernelIdeal.Frame
import proofs.«424633_j22737556865606_4_alg».proof.Proof.Gen.ReferenceIdeal
import proofs.«424633_j22737556865606_4_alg».proof.Proof.Gen.Pre_finite_inputs
import proofs.«424633_j22737556865606_4_alg».proof.Proof.Gen.ReferenceIdeal.Run
import proofs.«424633_j22737556865606_4_alg».proof.Proof.Gen.ReferenceIdeal.Read
import proofs.«424633_j22737556865606_4_alg».proof.Proof.OkTable
import proofs.«424633_j22737556865606_4_alg».proof.Proof.OkTableBits
import proofs.«424633_j22737556865606_4_alg».proof.Proof.KernelRun
import proofs.«424633_j22737556865606_4_alg».proof.Proof.RefValue
import proofs.«424633_j22737556865606_4_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs: its frame, the table in range for every input. -/
theorem frame_kernel : Cert.frame_Kernel := fun m ρ _ => Cert.Kernel.Gen.frame m ρ (Cert.Kernel.HostV.ok m)

/-- The idealized kernel runs, likewise. -/
theorem frame_kernelIdeal : Cert.frame_KernelIdeal := fun m ρ _ => Cert.KernelIdeal.Gen.frame m ρ (Cert.KernelIdeal.HostV.ok m)

/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the routed output, element by element. -/
theorem algebraic : Cert.algebraic_KernelIdeal_ReferenceIdeal := by
  intro m ρ m' ρ' _ hagree
  refine ⟨_, Cert.KernelIdeal.KValue.run m ρ (Cert.KernelIdeal.HostV.tbl_lt m) (Cert.KernelIdeal.HostV.ok m), ?_⟩
  refine (θ_run Cert.ReferenceIdeal.defs _ _).mono (fun _ h c => ⟨(h c).1.trans ?_, (h c).2⟩)
    (Cert.ReferenceIdeal.Value.run (F := Ideal) m' ρ')
  funext j
  obtain ⟨e, hd, d, rfl⟩ : ∃ (e : Fin 300000) (hd : Fin 8) (d : Fin 32), j = ix3 e hd d := ⟨j 0, j 1, j 2, eq_ix3 j⟩
  refine (Cert.ReferenceIdeal.RefValue.ref_apply m' c e hd d).trans ?_
  rw [(hagree c).1, (hagree c).2.1, (hagree c).2.2.1, (hagree c).2.2.2.1, (hagree c).2.2.2.2]
  exact (Cert.KernelIdeal.Moe.bridge _ _ _ _ _ e hd d).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
